-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8x2816x2048 : Shape := ⟨3, ![8, 2816, 2048]⟩
abbrev S8x2048x2816 : Shape := ⟨3, ![8, 2048, 2816]⟩
abbrev S8192 : Shape := ⟨1, ![8192]⟩
abbrev S_ : Shape := ⟨0, ![]⟩
abbrev S8x1024 : Shape := ⟨2, ![8, 1024]⟩
abbrev S8x1 : Shape := ⟨2, ![8, 1]⟩
abbrev S8 : Shape := ⟨1, ![8]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x2816x2048 : S_.BroadcastsInDim S8x2816x2048 (![] : Fin 0 → Fin S8x2816x2048.rank)
  reducesTo_S8x2816x2048_S_d0_1_2 : S8x2816x2048.ReducesTo [0, 1, 2] S_
  bcast_S_S8x2048x2816 : S_.BroadcastsInDim S8x2048x2816 (![] : Fin 0 → Fin S8x2048x2816.rank)
  reducesTo_S8x2048x2816_S_d0_1_2 : S8x2048x2816.ReducesTo [0, 1, 2] S_
  bcast_S_S8192 : S_.BroadcastsInDim S8192 (![] : Fin 0 → Fin S8192.rank)
  reducesTo_S8192_S_d0 : S8192.ReducesTo [0] S_
  shapeCasts_S8192_S8x1024 : S8192.ShapeCasts S8x1024
  slices_S8x1024_S8x1_0_0 : S8x1024.Slices ![0, 0] S8x1
  shapeCasts_S8x1_S8 : S8x1.ShapeCasts S8
  bcast_S_S8 : S_.BroadcastsInDim S8 (![] : Fin 0 → Fin S8.rank)
  reducesTo_S8_S_d0 : S8.ReducesTo [0] S_

variable [Facts]

def fn_part2 {F : FTy → Type} [FloatOps F] (main_v30 : IVec S_ 1) (main_v33 : IVec S8 32) (main_v34 : IVec S8 32) : IVec S_ 1 :=
  let main_v35 : IVec S8 1 := cmpi .slt main_v33 main_v34
  let main_c_11 : IVec S_ 1 := constantI S_ 1 1#1
  let main_v36 : IVec S_ 1 := (fun x v => Host.reduce IntOp.andi x v reducesTo_S8_S_d0 h_S_) main_v35 main_c_11
  let main_v37 : IVec S_ 1 := andi main_v30 main_v36
  main_v37

def fn_part1 {F : FTy → Type} [FloatOps F] (main_arg4 : FVec F S8192 .f32) (main_arg6 : IVec S8192 32) (main_v13 : IVec S_ 1) (main_v16 : IVec S8x2048x2816 1) : IVec S_ 1 :=
  let main_c_5 : IVec S_ 1 := constantI S_ 1 1#1
  let main_v17 : IVec S_ 1 := (fun x v => Host.reduce IntOp.andi x v reducesTo_S8x2048x2816_S_d0_1_2 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : IVec S8x1024 32 := shapeCast S8x1024 main_arg6 shapeCasts_S8192_S8x1024
  let main_v25 : IVec S8x1 32 := (extractStridedSlice S8x1 ![0, 0] · slices_S8x1024_S8x1_0_0) main_v24
  let main_v26 : IVec S8 32 := shapeCast S8 main_v25 shapeCasts_S8x1_S8
  let main_c_8 : IVec S_ 32 := constantI S_ 32 0#32
  let main_v27 : IVec S8 32 := broadcastInDim S8 ![] bcast_S_S8 main_c_8
  let main_v28 : IVec S8 1 := cmpi .sge main_v26 main_v27
  let main_c_9 : IVec S_ 1 := constantI S_ 1 1#1
  let main_v29 : IVec S_ 1 := (fun x v => Host.reduce IntOp.andi x v reducesTo_S8_S_d0 h_S_) main_v28 main_c_9
  let main_v30 : IVec S_ 1 := andi main_v23 main_v29
  let main_v31 : IVec S8x1024 32 := shapeCast S8x1024 main_arg6 shapeCasts_S8192_S8x1024
  let main_v32 : IVec S8x1 32 := (extractStridedSlice S8x1 ![0, 0] · slices_S8x1024_S8x1_0_0) main_v31
  let main_v33 : IVec S8 32 := shapeCast S8 main_v32 shapeCasts_S8x1_S8
  let main_c_10 : IVec S_ 32 := constantI S_ 32 8#32
  let main_v34 : IVec S8 32 := broadcastInDim S8 ![] bcast_S_S8 main_c_10
  fn_part2 (F := F) main_v30 main_v33 main_v34

def fn {F : FTy → Type} [FloatOps F] (main_arg0 : FVec F S4096x2048 .f32) (main_arg1 : FVec F S8x2816x2048 .f32) (main_arg2 : FVec F S8x2816x2048 .f32) (main_arg3 : FVec F S8x2048x2816 .f32) (main_arg4 : FVec F S8192 .f32) (main_arg5 : IVec S8192 32) (main_arg6 : IVec S8192 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8x2816x2048 .f32 := Host.absf main_arg1
  let main_cst_0 : FVec F S_ .f32 := constant S_ .f32 0x7F800000#32
  let main_v5 : FVec F S8x2816x2048 .f32 := broadcastInDim S8x2816x2048 ![] bcast_S_S8x2816x2048 main_cst_0
  let main_v6 : IVec S8x2816x2048 1 := cmpf .olt main_v4 main_v5
  let main_c_1 : IVec S_ 1 := constantI S_ 1 1#1
  let main_v7 : IVec S_ 1 := (fun x v => Host.reduce IntOp.andi x v reducesTo_S8x2816x2048_S_d0_1_2 h_S_) main_v6 main_c_1
  let main_v8 : IVec S_ 1 := andi main_v3 main_v7
  let main_v9 : FVec F S8x2816x2048 .f32 := Host.absf main_arg2
  let main_cst_2 : FVec F S_ .f32 := constant S_ .f32 0x7F800000#32
  let main_v10 : FVec F S8x2816x2048 .f32 := broadcastInDim S8x2816x2048 ![] bcast_S_S8x2816x2048 main_cst_2
  let main_v11 : IVec S8x2816x2048 1 := cmpf .olt main_v9 main_v10
  let main_c_3 : IVec S_ 1 := constantI S_ 1 1#1
  let main_v12 : IVec S_ 1 := (fun x v => Host.reduce IntOp.andi x v reducesTo_S8x2816x2048_S_d0_1_2 h_S_) main_v11 main_c_3
  let main_v13 : IVec S_ 1 := andi main_v8 main_v12
  let main_v14 : FVec F S8x2048x2816 .f32 := Host.absf main_arg3
  let main_cst_4 : FVec F S_ .f32 := constant S_ .f32 0x7F800000#32
  let main_v15 : FVec F S8x2048x2816 .f32 := broadcastInDim S8x2048x2816 ![] bcast_S_S8x2048x2816 main_cst_4
  let main_v16 : IVec S8x2048x2816 1 := cmpf .olt main_v14 main_v15
  fn_part1 (F := F) main_arg4 main_arg6 main_v13 main_v16
-- ==== Kernel.lean ====
abbrev S4096x2048 : Shape := ⟨2, ![4096, 2048]⟩
abbrev S8x2816x2048 : Shape := ⟨3, ![8, 2816, 2048]⟩
abbrev S8x2048x2816 : Shape := ⟨3, ![8, 2048, 2816]⟩
abbrev S8192 : Shape := ⟨1, ![8192]⟩
abbrev S8x1024 : Shape := ⟨2, ![8, 1024]⟩
abbrev S8x1 : Shape := ⟨2, ![8, 1]⟩
abbrev S8 : Shape := ⟨1, ![8]⟩
abbrev S_ : Shape := ⟨0, ![]⟩
abbrev S8192x1 : Shape := ⟨2, ![8192, 1]⟩
abbrev S8192x2048 : Shape := ⟨2, ![8192, 2048]⟩
abbrev S8x1024x2048 : Shape := ⟨3, ![8, 1024, 2048]⟩
abbrev S8x1024x1 : Shape := ⟨3, ![8, 1024, 1]⟩
abbrev S8x1024x2816 : Shape := ⟨3, ![8, 1024, 2816]⟩
abbrev S1x1024x2048 : Shape := ⟨3, ![1, 1024, 2048]⟩
abbrev S1x256x2048 : Shape := ⟨3, ![1, 256, 2048]⟩
abbrev S1 : Shape := ⟨1, ![1]⟩
abbrev S1x1024x256 : Shape := ⟨3, ![1, 1024, 256]⟩
abbrev S1024x2048 : Shape := ⟨2, ![1024, 2048]⟩
abbrev S256x2048 : Shape := ⟨2, ![256, 2048]⟩
abbrev S1024x256 : Shape := ⟨2, ![1024, 256]⟩
abbrev S1x1024x2816 : Shape := ⟨3, ![1, 1024, 2816]⟩
abbrev S1x256x2816 : Shape := ⟨3, ![1, 256, 2816]⟩
abbrev S1x1024x1 : Shape := ⟨3, ![1, 1024, 1]⟩
abbrev S1024x2816 : Shape := ⟨2, ![1024, 2816]⟩
abbrev S256x2816 : Shape := ⟨2, ![256, 2816]⟩
abbrev S1024x1 : Shape := ⟨2, ![1024, 1]⟩

abbrev nBuf : Space → Nat
  | .hbm => 35
  | .vmem => 16
  | .smem => 1
  | _ => 0

abbrev bufTy : (tb : Table) → Fin (tcTables nBuf tb) → BufTy
  | .hbm, ⟨0, _⟩ => ⟨S4096x2048, .f32⟩
  | .hbm, ⟨1, _⟩ => ⟨S8x2816x2048, .f32⟩
  | .hbm, ⟨2, _⟩ => ⟨S8x2816x2048, .f32⟩
  | .hbm, ⟨3, _⟩ => ⟨S8x2048x2816, .f32⟩
  | .hbm, ⟨4, _⟩ => ⟨S8192, .f32⟩
  | .hbm, ⟨5, _⟩ => ⟨S8192, .i32⟩
  | .hbm, ⟨6, _⟩ => ⟨S8192, .i32⟩
  | .hbm, ⟨7, _⟩ => ⟨S8x1024, .i32⟩
  | .hbm, ⟨8, _⟩ => ⟨S8x1, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x2048, .f32⟩
  | .hbm, ⟨18, _⟩ => ⟨S8192x2048, .bf16⟩
  | .hbm, ⟨19, _⟩ => ⟨S8x1024x2048, .bf16⟩
  | .hbm, ⟨20, _⟩ => ⟨S8x1024x1, .f32⟩
  | .hbm, ⟨21, _⟩ => ⟨S8x1024x2816, .bf16⟩
  | .hbm, ⟨22, _⟩ => ⟨S8x1024x2048, .f32⟩
  | .hbm, ⟨23, _⟩ => ⟨S_, .f32⟩
  | .hbm, ⟨24, _⟩ => ⟨S4096x2048, .f32⟩
  | .hbm, ⟨25, _⟩ => ⟨S8192x2048, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x2816, .bf16⟩
  | .local _ .vmem, ⟨9, _⟩ => ⟨S1x1024x2816, .bf16⟩
  | .local _ .vmem, ⟨10, _⟩ => ⟨S1x256x2816, .f32⟩
  | .local _ .vmem, ⟨11, _⟩ => ⟨S1x256x2816, .f32⟩
  | .local _ .vmem, ⟨12, _⟩ => ⟨S1x1024x1, .f32⟩
  | .local _ .vmem, ⟨13, _⟩ => ⟨S1x1024x1, .f32⟩
  | .local _ .vmem, ⟨14, _⟩ => ⟨S1x1024x256, .f32⟩
  | .local _ .vmem, ⟨15, _⟩ => ⟨S1x1024x256, .f32⟩
  | .local _ .smem, ⟨0, _⟩ => ⟨S8, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 11], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg1.toNat, c0_i32.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

abbrev pre1 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (k1_off1_inb : ∀ i : grid1.Coords, ∀ a, (k1_off1 i) a + S1.size a ≤ S8.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k1_off1_inb i)) numel1_S1
  let c0_i32 : BitVec 32 := 0#32
  let c0_i32_0 : BitVec 32 := 0#32
  ![v1.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x2816 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8192_S8x1024 : S8192.ShapeCasts S8x1024
  slices_S8x1024_S8x1_0_0 : S8x1024.Slices ![0, 0] S8x1
  shapeCasts_S8x1_S8 : S8x1.ShapeCasts S8
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  shapeCasts_S8192x2048_S8x1024x2048 : S8192x2048.ShapeCasts S8x1024x2048
  shapeCasts_S8192_S8x1024x1 : S8192.ShapeCasts S8x1024x1
  numel1_S1 : S1.numel = 1
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S1x1024x2816_S1x1024x2816_0_0_0 : ∀ a, (![0, 0, 0] : Fin 3 → Nat) a + S1x1024x2816.size a ≤ S1x1024x2816.size a
  h_S1x1024x2816 : 0 < S1x1024x2816.numel
  shapeCasts_S1x1024x2816_S1024x2816 : S1x1024x2816.ShapeCasts S1024x2816
  inb_S1x256x2816_S1x256x2816_0_0_0 : ∀ a, (![0, 0, 0] : Fin 3 → Nat) a + S1x256x2816.size a ≤ S1x256x2816.size a
  h_S1x256x2816 : 0 < S1x256x2816.numel
  shapeCasts_S1x256x2816_S256x2816 : S1x256x2816.ShapeCasts S256x2816
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x256 : S1024x1.Broadcasts S1024x256
  bcast_S_S4096x2048 : S_.BroadcastsInDim S4096x2048 (![] : Fin 0 → Fin S4096x2048.rank)
  shapeCasts_S8x1024x2048_S8192x2048 : S8x1024x2048.ShapeCasts S8192x2048
  gather_S4096x2048_S8192x1_S8192x2048_1_0_n_n_0_1_12048_wf : GatherDims.WF S4096x2048 S8192x1 S8192x2048 [1] [0] [] [0] [] 1 ![1, 2048]
  dot_S1024x2048_S256x2048_S1024x256_1_1_0_0_n_n_wf : DotDims.WF S1024x2048 S256x2048 S1024x256 [1] [1] [0] [0] [] []
  dot_S1024x2816_S256x2816_S1024x256_1_1_0_0_n_n_wf : DotDims.WF S1024x2816 S256x2816 S1024x256 [1] [1] [0] [0] [] []
  scatter_S4096x2048_S8192x1_S8192x2048_1_0_0_1_wf : ScatterDims.WF S4096x2048 S8192x1 S8192x2048 [1] [0] [0] 1
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .bf16 = 32 ∨ (Rect.block (s := S8x1024x2048) S1x1024x2048.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S8x1024x2816.size a
  hwx0_3 : ∀ i : grid0.Coords, EltTy.bits .bf16 = 32 ∨ (Rect.block (s := S8x1024x2816) S1x1024x256.size (cc0_transform_3 i) (hinb0_3 i)).WholeWords (EltTy.packing .bf16)
  hrank1 : 0 < grid1.rank
  k1_off1_inb : ∀ i : grid1.Coords, ∀ a, (k1_off1 i) a + S1.size a ≤ S8.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2816.size a ≤ S8x1024x2816.size a
  hwx1_0 : ∀ i : grid1.Coords, EltTy.bits .bf16 = 32 ∨ (Rect.block (s := S8x1024x2816) S1x1024x2816.size (cc1_transform_0 i) (hinb1_0 i)).WholeWords (EltTy.packing .bf16)
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S8x1024x1.size a
  hwx1_2 : ∀ i : grid1.Coords, EltTy.bits .f32 = 32 ∨ (Rect.block (s := S8x1024x1) S1x1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x256.size a ≤ S8x1024x2048.size a
  hwx1_3 : ∀ i : grid1.Coords, EltTy.bits .f32 = 32 ∨ (Rect.block (s := S8x1024x2048) S1x1024x256.size (cc1_transform_3 i) (hinb1_3 i)).WholeWords (EltTy.packing .f32)

variable [Facts₀]

def gather_S4096x2048_S8192x1_S8192x2048_1_0_n_n_0_1_12048 : GatherDims S4096x2048 S8192x1 S8192x2048 where
  offsetDims := [1]
  collapsedSliceDims := [0]
  operandBatchingDims := []
  startIndicesBatchingDims := []
  startIndexMap := [0]
  indexVectorDim := 1
  sliceSizes := ![1, 2048]
  wf := gather_S4096x2048_S8192x1_S8192x2048_1_0_n_n_0_1_12048_wf
def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf
def dot_S1024x2816_S256x2816_S1024x256_1_1_0_0_n_n : DotDims S1024x2816 S256x2816 S1024x256 where
  lhsContracting := [1]
  rhsContracting := [1]
  lhsNonContracting := [0]
  rhsNonContracting := [0]
  lhsBatch := []
  rhsBatch := []
  wf := dot_S1024x2816_S256x2816_S1024x256_1_1_0_0_n_n_wf
def scatter_S4096x2048_S8192x1_S8192x2048_1_0_0_1 : ScatterDims S4096x2048 S8192x1 S8192x2048 where
  updateWindowDims := [1]
  insertedWindowDims := [0]
  scatterDimsToOperandDims := [0]
  indexVectorDim := 1
  wf := scatter_S4096x2048_S8192x1_S8192x2048_1_0_0_1_wf

abbrev spec0_0 : Pipeline.WinSpec sig grid0.rank :=
  Pipeline.WinSpec.ofSpec (Memref.whole main_v11) S1x1024x2048.size reads0_0 false false 2 stage0_0 sem0_0 nbuf0_0 hstage0_0

abbrev spec0_1 : Pipeline.WinSpec sig grid0.rank :=
  Pipeline.WinSpec.ofSpec (Memref.whole main_arg1) S1x256x2048.size reads0_1 false false 2 stage0_1 sem0_1 nbuf0_1 hstage0_1

abbrev spec0_2 : Pipeline.WinSpec sig grid0.rank :=
  Pipeline.WinSpec.ofSpec (Memref.whole main_arg2) S1x256x2048.size reads0_2 false false 2 stage0_2 sem0_2 nbuf0_2 hstage0_2

abbrev spec0_3 : Pipeline.WinSpec sig grid0.rank :=
  Pipeline.WinSpec.ofSpec (Memref.whole main_v13) S1x1024x256.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x2048.size a ≤ S8x2816x2048.size a), EltTy.bits .f32 = 32 ∨ (Rect.block (s := S8x2816x2048) S1x256x2048.size (cc0_transform_1 k0_off1_inb numel1_S1 pf i) h).WholeWords (EltTy.packing .f32)) ∧
  (∀ i : grid0.Coords, ∃ h : (∀ a, (cc0_transform_2 k0_off1_inb numel1_S1 pf i a + 1) * S1x256x2048.size a ≤ S8x2816x2048.size a), EltTy.bits .f32 = 32 ∨ (Rect.block (s := S8x2816x2048) S1x256x2048.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))
abbrev spec1_0 : Pipeline.WinSpec sig grid1.rank :=
  Pipeline.WinSpec.ofSpec (Memref.whole main_v13) S1x1024x2816.size reads1_0 false false 2 stage1_0 sem1_0 nbuf1_0 hstage1_0

abbrev spec1_1 : Pipeline.WinSpec sig grid1.rank :=
  Pipeline.WinSpec.ofSpec (Memref.whole main_arg3) S1x256x2816.size reads1_1 false false 2 stage1_1 sem1_1 nbuf1_1 hstage1_1

abbrev spec1_2 : Pipeline.WinSpec sig grid1.rank :=
  Pipeline.WinSpec.ofSpec (Memref.whole main_v12) S1x1024x1.size reads1_2 false false 2 stage1_2 sem1_2 nbuf1_2 hstage1_2

abbrev spec1_3 : Pipeline.WinSpec sig grid1.rank :=
  Pipeline.WinSpec.ofSpec (Memref.whole main_v14) S1x1024x256.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 | 1 => cc1_transform_1 k1_off1_inb numel1_S1 pf | 2 => cc1_transform_2 | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 pf | 2 => hreads1_2 | 3 => hreads1_3 | ⟨_ + 4, h⟩ => absurd h (Nat.not_lt.2 (Nat.le_add_left _ _))
def ok1 (pf : pre1.Contents (Elt F)) : Prop :=
  (∀ i : grid1.Coords, ∃ h : (∀ a, (cc1_transform_1 k1_off1_inb numel1_S1 pf i a + 1) * S1x256x2816.size a ≤ S8x2048x2816.size a), EltTy.bits .f32 = 32 ∨ (Rect.block (s := S8x2048x2816) S1x256x2816.size (cc1_transform_1 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => hinb1_0 | 1 => fun i a => (hok i).elim fun h _ => h a | 2 => hinb1_2 | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => hwx1_0 | 1 => fun i => (hok i).elim fun _ h => h | 2 => hwx1_2 | 3 => hwx1_3 | ⟨_ + 4, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S4096x2048 : Shape := ⟨2, ![4096, 2048]⟩
abbrev S8x2816x2048 : Shape := ⟨3, ![8, 2816, 2048]⟩
abbrev S8x2048x2816 : Shape := ⟨3, ![8, 2048, 2816]⟩
abbrev S8192 : Shape := ⟨1, ![8192]⟩
abbrev S8x1024 : Shape := ⟨2, ![8, 1024]⟩
abbrev S8x1 : Shape := ⟨2, ![8, 1]⟩
abbrev S8 : Shape := ⟨1, ![8]⟩
abbrev S_ : Shape := ⟨0, ![]⟩
abbrev S8192x1 : Shape := ⟨2, ![8192, 1]⟩
abbrev S8192x2048 : Shape := ⟨2, ![8192, 2048]⟩
abbrev S8x1024x2048 : Shape := ⟨3, ![8, 1024, 2048]⟩
abbrev S8x1024x2816 : Shape := ⟨3, ![8, 1024, 2816]⟩
abbrev S8x1024x1 : Shape := ⟨3, ![8, 1024, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x2816x2048, .f32⟩
  | .hbm, ⟨2, _⟩ => ⟨S8x2816x2048, .f32⟩
  | .hbm, ⟨3, _⟩ => ⟨S8x2048x2816, .f32⟩
  | .hbm, ⟨4, _⟩ => ⟨S8192, .f32⟩
  | .hbm, ⟨5, _⟩ => ⟨S8192, .i32⟩
  | .hbm, ⟨6, _⟩ => ⟨S8192, .i32⟩
  | .hbm, ⟨7, _⟩ => ⟨S8x1024, .i32⟩
  | .hbm, ⟨8, _⟩ => ⟨S8x1, .i32⟩
  | .hbm, ⟨9, _⟩ => ⟨S8, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192x2048, .f32⟩
  | .hbm, ⟨19, _⟩ => ⟨S8x1024x2048, .f32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S8x1, .i32⟩
  | .hbm, ⟨28, _⟩ => ⟨S8x2816x2048, .f32⟩
  | .hbm, ⟨29, _⟩ => ⟨S8x1024x2816, .f32⟩
  | .hbm, ⟨30, _⟩ => ⟨S_, .i32⟩
  | .hbm, ⟨31, _⟩ => ⟨S8, .i32⟩
  | .hbm, ⟨32, _⟩ => ⟨S8, .i1⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S8, .i32⟩
  | .hbm, ⟨37, _⟩ => ⟨S8x1, .i32⟩
  | .hbm, ⟨38, _⟩ => ⟨S8x2816x2048, .f32⟩
  | .hbm, ⟨39, _⟩ => ⟨S8x1024x2816, .f32⟩
  | .hbm, ⟨40, _⟩ => ⟨S8x1024x2816, .f32⟩
  | .hbm, ⟨41, _⟩ => ⟨S8x1024x2816, .f32⟩
  | .hbm, ⟨42, _⟩ => ⟨S_, .f32⟩
  | .hbm, ⟨43, _⟩ => ⟨S8x1024x2816, .f32⟩
  | .hbm, ⟨44, _⟩ => ⟨S8x1024x2816, .f32⟩
  | .hbm, ⟨45, _⟩ => ⟨S_, .f32⟩
  | .hbm, ⟨46, _⟩ => ⟨S8x1024x2816, .f32⟩
  | .hbm, ⟨47, _⟩ => ⟨S8x1024x2816, .f32⟩
  | .hbm, ⟨48, _⟩ => ⟨S8x1024x2816, .f32⟩
  | .hbm, ⟨49, _⟩ => ⟨S_, .i32⟩
  | .hbm, ⟨50, _⟩ => ⟨S8, .i32⟩
  | .hbm, ⟨51, _⟩ => ⟨S8, .i1⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S8, .i32⟩
  | .hbm, ⟨56, _⟩ => ⟨S8x1, .i32⟩
  | .hbm, ⟨57, _⟩ => ⟨S8x2048x2816, .f32⟩
  | .hbm, ⟨58, _⟩ => ⟨S8x1024x2048, .f32⟩
  | .hbm, ⟨59, _⟩ => ⟨S8x1024x1, .f32⟩
  | .hbm, ⟨60, _⟩ => ⟨S8x1024x2048, .f32⟩
  | .hbm, ⟨61, _⟩ => ⟨S8x1024x2048, .f32⟩
  | .hbm, ⟨62, _⟩ => ⟨S_, .f32⟩
  | .hbm, ⟨63, _⟩ => ⟨S4096x2048, .f32⟩
  | .hbm, ⟨64, _⟩ => ⟨S8192x2048, .f32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  shapeCasts_S8192_S8x1024 : S8192.ShapeCasts S8x1024
  slices_S8x1024_S8x1_0_0 : S8x1024.Slices ![0, 0] S8x1
  shapeCasts_S8x1_S8 : S8x1.ShapeCasts S8
  bcast_S_S8192 : S_.BroadcastsInDim S8192 (![] : Fin 0 → Fin S8192.rank)
  bcast_S8192_S8192x1_0 : S8192.BroadcastsInDim S8192x1 (![0] : Fin 1 → Fin S8192x1.rank)
  shapeCasts_S8192x2048_S8x1024x2048 : S8192x2048.ShapeCasts S8x1024x2048
  bcast_S_S8 : S_.BroadcastsInDim S8 (![] : Fin 0 → Fin S8.rank)
  bcast_S8_S8x1_0 : S8.BroadcastsInDim S8x1 (![0] : Fin 1 → Fin S8x1.rank)
  bcast_S_S8x1024x2816 : S_.BroadcastsInDim S8x1024x2816 (![] : Fin 0 → Fin S8x1024x2816.rank)
  shapeCasts_S8192_S8x1024x1 : S8192.ShapeCasts S8x1024x1
  bcast_S8x1024x1_S8x1024x2048_0_1_2 : S8x1024x1.BroadcastsInDim S8x1024x2048 (![0, 1, 2] : Fin 3 → Fin S8x1024x2048.rank)
  bcast_S_S4096x2048 : S_.BroadcastsInDim S4096x2048 (![] : Fin 0 → Fin S4096x2048.rank)
  shapeCasts_S8x1024x2048_S8192x2048 : S8x1024x2048.ShapeCasts S8192x2048
  gather_S4096x2048_S8192x1_S8192x2048_1_0_n_n_0_1_12048_wf : GatherDims.WF S4096x2048 S8192x1 S8192x2048 [1] [0] [] [0] [] 1 ![1, 2048]
  gather_S8x2816x2048_S8x1_S8x2816x2048_12_0_n_n_0_1_128162048_wf : GatherDims.WF S8x2816x2048 S8x1 S8x2816x2048 [1, 2] [0] [] [0] [] 1 ![1, 2816, 2048]
  dot_S8x1024x2048_S8x2816x2048_S8x1024x2816_2_2_1_1_0_0_wf : DotDims.WF S8x1024x2048 S8x2816x2048 S8x1024x2816 [2] [2] [1] [1] [0] [0]
  gather_S8x2048x2816_S8x1_S8x2048x2816_12_0_n_n_0_1_120482816_wf : GatherDims.WF S8x2048x2816 S8x1 S8x2048x2816 [1, 2] [0] [] [0] [] 1 ![1, 2048, 2816]
  dot_S8x1024x2816_S8x2048x2816_S8x1024x2048_2_2_1_1_0_0_wf : DotDims.WF S8x1024x2816 S8x2048x2816 S8x1024x2048 [2] [2] [1] [1] [0] [0]
  scatter_S4096x2048_S8192x1_S8192x2048_1_0_0_1_wf : ScatterDims.WF S4096x2048 S8192x1 S8192x2048 [1] [0] [0] 1

variable [Facts₀]

def gather_S4096x2048_S8192x1_S8192x2048_1_0_n_n_0_1_12048 : GatherDims S4096x2048 S8192x1 S8192x2048 where
  offsetDims := [1]
  collapsedSliceDims := [0]
  operandBatchingDims := []
  startIndicesBatchingDims := []
  startIndexMap := [0]
  indexVectorDim := 1
  sliceSizes := ![1, 2048]
  wf := gather_S4096x2048_S8192x1_S8192x2048_1_0_n_n_0_1_12048_wf
def gather_S8x2816x2048_S8x1_S8x2816x2048_12_0_n_n_0_1_128162048 : GatherDims S8x2816x2048 S8x1 S8x2816x2048 where
  offsetDims := [1, 2]
  collapsedSliceDims := [0]
  operandBatchingDims := []
  startIndicesBatchingDims := []
  startIndexMap := [0]
  indexVectorDim := 1
  sliceSizes := ![1, 2816, 2048]
  wf := gather_S8x2816x2048_S8x1_S8x2816x2048_12_0_n_n_0_1_128162048_wf
def dot_S8x1024x2048_S8x2816x2048_S8x1024x2816_2_2_1_1_0_0 : DotDims S8x1024x2048 S8x2816x2048 S8x1024x2816 where
  lhsContracting := [2]
  rhsContracting := [2]
  lhsNonContracting := [1]
  rhsNonContracting := [1]
  lhsBatch := [0]
  rhsBatch := [0]
  wf := dot_S8x1024x2048_S8x2816x2048_S8x1024x2816_2_2_1_1_0_0_wf
def gather_S8x2048x2816_S8x1_S8x2048x2816_12_0_n_n_0_1_120482816 : GatherDims S8x2048x2816 S8x1 S8x2048x2816 where
  offsetDims := [1, 2]
  collapsedSliceDims := [0]
  operandBatchingDims := []
  startIndicesBatchingDims := []
  startIndexMap := [0]
  indexVectorDim := 1
  sliceSizes := ![1, 2048, 2816]
  wf := gather_S8x2048x2816_S8x1_S8x2048x2816_12_0_n_n_0_1_120482816_wf
def dot_S8x1024x2816_S8x2048x2816_S8x1024x2048_2_2_1_1_0_0 : DotDims S8x1024x2816 S8x2048x2816 S8x1024x2048 where
  lhsContracting := [2]
  rhsContracting := [2]
  lhsNonContracting := [1]
  rhsNonContracting := [1]
  lhsBatch := [0]
  rhsBatch := [0]
  wf := dot_S8x1024x2816_S8x2048x2816_S8x1024x2048_2_2_1_1_0_0_wf
def scatter_S4096x2048_S8192x1_S8192x2048_1_0_0_1 : ScatterDims S4096x2048 S8192x1 S8192x2048 where
  updateWindowDims := [1]
  insertedWindowDims := [0]
  scatterDimsToOperandDims := [0]
  indexVectorDim := 1
  wf := scatter_S4096x2048_S8192x1_S8192x2048_1_0_0_1_wf

class Facts : Prop extends Facts₀ where

variable [Facts]
-- ==== Proof.GateBodyI.lean ====
/-
  The gate region (the first kernel launch) as a pipeline whose weight windows are indexed through a table
  of expert ids. Everything is stated at a PARAMETER `a` — any admissible contents of the table — and at a
  parameter `V`, the buffer contents the region is entered from, and for any float instance `F`.

  One grid point (e, j) of the 8 × 11 grid holds: the whole token group e (1024 × 2048), the j-th block of
  256 rows of the gate and of the up weights of expert `table[e]`, and writes the 1024 × 256 block (e, ·, j)
  of the hidden activations: `gateOut x w1 w3`, the one store of the body, a pure function of the three
  loaded blocks. The table's buffer is never read by the body; it rides through the region's invariant.
-/
import proofs.«429380_j12086037971139_2_alg».proof.Proof.Gen.KernelIdeal.Launch
import proofs.«429380_j12086037971139_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- Window `w`'s block at grid point `t`, read off its array as the region finds it. -/
def gblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- Each input window's current staging buffer holds its block at every point, fetched there or not (when the
    pipeline does not fetch, the block index has not moved). Stated for ANY proof data whose array is `V`'s and whose
    body leaves the block in place. -/
theorem gbefore0_of {c : Dev nD} (dat : Dat τ (Elt F) Unit ℕ (UR sig nD τ) ℕ (cfg0 a) c) (hA : dat.A 0 = V c (Pipeline.arrRef spec0 0))
    (hafter : ∀ t, dat.after 0 t = gblk a V c 0 t) (t : Fin (cfg0 a).N) (d) : dat.before 0 t d = gblk a V c 0 t :=
  (dat.before_in_eq_fetched 0 rfl (fun _ => rfl) (fun _ _ _ => rfl) (fun t => by rw [hafter]; unfold Dat.blockOf gblk; rw [hA]; try rfl) t d).trans
    (by unfold Dat.fetched Dat.blockOf gblk; rw [hA]; try rfl)
theorem gbefore1_of {c : Dev nD} (dat : Dat τ (Elt F) Unit ℕ (UR sig nD τ) ℕ (cfg0 a) c) (hA : dat.A 1 = V c (Pipeline.arrRef spec0 1))
    (hafter : ∀ t, dat.after 1 t = gblk a V c 1 t) (t : Fin (cfg0 a).N) (d) : dat.before 1 t d = gblk a V c 1 t :=
  (dat.before_in_eq_fetched 1 rfl (fun _ => rfl) (fun _ _ _ => rfl) (fun t => by rw [hafter]; unfold Dat.blockOf gblk; rw [hA]; try rfl) t d).trans
    (by unfold Dat.fetched Dat.blockOf gblk; rw [hA]; try rfl)
theorem gbefore2_of {c : Dev nD} (dat : Dat τ (Elt F) Unit ℕ (UR sig nD τ) ℕ (cfg0 a) c) (hA : dat.A 2 = V c (Pipeline.arrRef spec0 2))
    (hafter : ∀ t, dat.after 2 t = gblk a V c 2 t) (t : Fin (cfg0 a).N) (d) : dat.before 2 t d = gblk a V c 2 t :=
  (dat.before_in_eq_fetched 2 rfl (fun _ => rfl) (fun _ _ _ => rfl) (fun t => by rw [hafter]; unfold Dat.blockOf gblk; rw [hA]; try rfl) t d).trans
    (by unfold Dat.fetched Dat.blockOf gblk; rw [hA]; try rfl)

/-- The rectangle of the body's one store: the whole 1 × 1024 × 256 staging buffer. -/
abbrev gateRect : Rect S1x1024x256 := Rect.unit (s := S1x1024x256) ![0, 0, 0] S1x1024x256.size inb_S1x1024x256_S1x1024x256_0_0_0

/-- What the body leaves in the output window's staging buffer, from the three input blocks. -/
def gateOut (x : Vec F S1x1024x2048 .bf16) (w1 : Vec F S1x256x2048 .f32) (w3 : Vec F S1x256x2048 .f32) : Vec F S1x1024x256 .bf16 :=
  View.canon [⟨gateRect, k0_pay1 (View.ld x (Rect.unit (s := S1x1024x2048) ![0, 0, 0] S1x1024x2048.size inb_S1x1024x2048_S1x1024x2048_0_0_0))
    (View.ld w1 (Rect.unit (s := S1x256x2048) ![0, 0, 0] S1x256x2048.size inb_S1x256x2048_S1x256x2048_0_0_0))
    (View.ld w3 (Rect.unit (s := S1x256x2048) ![0, 0, 0] S1x256x2048.size inb_S1x256x2048_S1x256x2048_0_0_0))⟩]

/-- The one store covers the buffer. -/
theorem gateCover (p0 : Vec F S1x1024x256 .bf16) (y : S1x1024x256.Idx) :
    ∃ pc ∈ ([⟨gateRect, p0⟩] : List (View.Piece (Elt F) S1x1024x256 .bf16)), y ∈ pc.1.set :=
  View.cover_of_tiled [⟨gateRect, p0⟩] S1x1024x256.size (by rfl) y

set_option maxHeartbeats 1000000 in
/-- The body on whole staging memrefs: the inputs' contents are kept, the output's becomes `gateOut` of them. The
    table's memref is an argument the body never touches. -/
theorem gateKernel (c : Dev nD) (E : Set ℕ) (i : grid0.Coords) (arg2 : Memref sig .tc .smem S8 .i32) (harg2 : arg2.IsWhole)
    (arg3 : Memref sig .tc .vmem S1x1024x2048 .bf16) (harg3 : arg3.IsWhole) (arg4 : Memref sig .tc .vmem S1x256x2048 .f32) (harg4 : arg4.IsWhole)
    (arg5 : Memref sig .tc .vmem S1x256x2048 .f32) (harg5 : arg5.IsWhole) (arg6 : Memref sig .tc .vmem S1x1024x256 .bf16) (harg6 : arg6.IsWhole)
    (x0 : Vec F S1x1024x2048 .bf16) (x1 : Vec F S1x256x2048 .f32) (x2 : Vec F S1x256x2048 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (gateOut x0 x1 x2)) -∗ K ⟨⟩))
      ⊢ wp frame (wpE (defs₀ (F := F)) Variants.none c none) E (cc0__moe_gate_kernel i arg2 harg2 arg3 harg3 arg4 harg4 arg5 harg5 arg6 harg6) K := by
  simp only [cc0__moe_gate_kernel_eq_skeleton]; unfold cc0__moe_gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (gateCover _)

end Cert.KernelIdeal.Hand

end
-- ==== Proof.GateDatI.lean ====
/-
  The gate region's proof data and body obligation, at any admissible table contents `a` and entry contents `V`.
  After the body at grid point `t` each input window's staging buffer still holds its block and the output's
  holds `gateOut` of the three blocks. The region's invariant carries, untouched, the scoped buffers of the
  other launch, the generator register, and the expert table's buffer at contents `a`.
-/
import proofs.«429380_j12086037971139_2_alg».proof.Proof.GateBodyI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- The region's invariant: what the body neither reads nor writes. -/
abbrev gateInv (c : Dev nD) : sProp 𝕄 :=
  iprop(Pipeline.ΦA (U := UR sig nD τ) spec0 c ∗ Pipeline.prefHeld (Ix := Unit) (Name := ℕ) (U := UR sig nD τ) (Lvl := ℕ) pre0 c (fun _ => fullShare) a.1)

/-- The gate region's proof data on core `c`. -/
def gdat (c : Dev nD) : Dat τ (Elt F) Unit ℕ (UR sig nD τ) ℕ (cfg0 a) c where
  A w := V c (Pipeline.arrRef spec0 w)
  after w t := match w with
    | ⟨0, _⟩ => gblk a V c 0 t
    | ⟨1, _⟩ => gblk a V c 1 t
    | ⟨2, _⟩ => gblk a V c 2 t
    | ⟨3, _⟩ => gateOut (gblk a V c 0 t) (gblk a V c 1 t) (gblk a V c 2 t)
  Φ _ := gateInv a c
  q _ := fullShare
  owed _ := 0

theorem gA_eq (c : Dev nD) (w : Fin (cfg0 a).W) : (gdat a V c).A w = V c (Pipeline.arrRef spec0 w) := by
  dsimp only [gdat]

theorem gafter0 (c : Dev nD) (t : Fin (cfg0 a).N) : (gdat a V c).after 0 t = gblk a V c 0 t := by dsimp only [gdat]; rfl
theorem gafter1 (c : Dev nD) (t : Fin (cfg0 a).N) : (gdat a V c).after 1 t = gblk a V c 1 t := by dsimp only [gdat]; rfl
theorem gafter2 (c : Dev nD) (t : Fin (cfg0 a).N) : (gdat a V c).after 2 t = gblk a V c 2 t := by dsimp only [gdat]; rfl
theorem gafter3 (c : Dev nD) (t : Fin (cfg0 a).N) :
    (gdat a V c).after 3 t = gateOut (gblk a V c 0 t) (gblk a V c 1 t) (gblk a V c 2 t) := by dsimp only [gdat]; rfl

theorem gbefore0 (c : Dev nD) (t : Fin (cfg0 a).N) (d) : (gdat a V c).before 0 t d = gblk a V c 0 t :=
  gbefore0_of a V (gdat a V c) (gA_eq a V c 0) (gafter0 a V c) t d
theorem gbefore1 (c : Dev nD) (t : Fin (cfg0 a).N) (d) : (gdat a V c).before 1 t d = gblk a V c 1 t :=
  gbefore1_of a V (gdat a V c) (gA_eq a V c 1) (gafter1 a V c) t d
theorem gbefore2 (c : Dev nD) (t : Fin (cfg0 a).N) (d) : (gdat a V c).before 2 t d = gblk a V c 2 t :=
  gbefore2_of a V (gdat a V c) (gA_eq a V c 2) (gafter2 a V c) t d

/-- The current staging memref of window `w` at point `t`. -/
abbrev gst (w : Fin (cfg0 a).W) (t : Fin (cfg0 a).N) := ((cfg0 a).win w).stage ((cfg0 a).slots t w)

/-- The body as the pipeline calls it at point `t`. -/
abbrev gateAt (t : Fin (cfg0 a).N) : Prog (TpuEff nD τ sig (Elt F) Λ₀ .tc) PUnit :=
  cc0__moe_gate_kernel (grid0.coords t) (Memref.whole main_v2) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))

def gatePre (c : Dev nD) (t : Fin (cfg0 a).N) : sProp 𝕄 :=
  iprop((gdat a V c).Φ t.castSucc ∗ (gdat a V c).owesAt () t.castSucc
    ∗ (∃ d, owns (c : Thread nD τ) (gst a 0 t) fullShare ((gdat a V c).before 0 t d))
    ∗ (∃ d, owns (c : Thread nD τ) (gst a 1 t) fullShare ((gdat a V c).before 1 t d))
    ∗ (∃ d, owns (c : Thread nD τ) (gst a 2 t) fullShare ((gdat a V c).before 2 t d))
    ∗ (∃ d, owns (c : Thread nD τ) (gst a 3 t) fullShare ((gdat a V c).before 3 t d)))

def gatePost (c : Dev nD) (t : Fin (cfg0 a).N) : sProp 𝕄 :=
  iprop((gdat a V c).Φ t.succ ∗ (gdat a V c).owesAt () t.succ
    ∗ owns (c : Thread nD τ) (gst a 0 t) fullShare ((gdat a V c).after 0 t)
    ∗ owns (c : Thread nD τ) (gst a 1 t) fullShare ((gdat a V c).after 1 t)
    ∗ owns (c : Thread nD τ) (gst a 2 t) fullShare ((gdat a V c).after 2 t)
    ∗ owns (c : Thread nD τ) (gst a 3 t) fullShare ((gdat a V c).after 3 t))

/-- The body at any point: the inputs' memrefs hold their blocks, so the body's triple applies; the invariant and
    the core's dues pass through unread. -/
theorem gateSound (c : Dev nD) (t : Fin (cfg0 a).N) :
    gatePre a V c t ⊢ wp frame (wpE (defs₀ (F := F)) Variants.none c none) Set.univ (gateAt a t) (fun _ => gatePost a V c t) := by
  unfold gatePre gatePost gateAt
  simp only [gbefore0, gbefore1, gbefore2]
  rw [show (gdat a V c).Φ t.succ = (gdat a V c).Φ t.castSucc from rfl,
    show (gdat a V c).owesAt () t.succ = (gdat a V c).owesAt () t.castSucc from rfl,
    gafter0, gafter1, gafter2, gafter3]
  iintro ⟨HΦ, Ho, ⟨%d0, H0⟩, ⟨%d1, H1⟩, ⟨%d2, H2⟩, ⟨%d3, H3⟩⟩
  iapply (gateKernel c Set.univ _ _ _ _ _ _ _ _ _ _ _ (gblk a V c 0 t) (gblk a V c 1 t) (gblk a V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem gate_obligation (c : Dev nD) : BodyObligation (gdat (F := F) a V c) (defs₀ (F := F)) Variants.none () Set.univ := fun t => by
  rw [bigSep_W0, bigSep_W0]
  exact gateSound a V c t

end Cert.KernelIdeal.Hand

end
-- ==== Proof.DownBodyI.lean ====
/-
  The down-projection region (the second kernel launch) as a pipeline whose weight window is indexed through the
  same table of expert ids, at a PARAMETER `a` (any admissible table contents) and `V` (the contents the region is
  entered from), for any float instance `F`.

  One grid point (e, j) of the 8 × 8 grid holds: the whole hidden group e (1024 × 2816), the j-th block of 256 rows
  of the down weights of expert `table[e]`, the 1024 routing weights of group e (one column), and writes the
  1024 × 256 block (e, ·, j) of the per-pair outputs: `downOut h w2 s`, the body's one store.
-/
import proofs.«429380_j12086037971139_2_alg».proof.Proof.Gen.KernelIdeal.Launch
import proofs.«429380_j12086037971139_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- Window `w`'s block at grid point `t`, read off its array as the region finds it. -/
def dblk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- Each input window's current staging buffer holds its block at every point, fetched there or not (when the
    pipeline does not fetch, the block index has not moved). -/
theorem dbefore0_of {c : Dev nD} (dat : Dat τ (Elt F) Unit ℕ (UR sig nD τ) ℕ (cfg1 a) c) (hA : dat.A 0 = V c (Pipeline.arrRef spec1 0))
    (hafter : ∀ t, dat.after 0 t = dblk a V c 0 t) (t : Fin (cfg1 a).N) (d) : dat.before 0 t d = dblk a V c 0 t :=
  (dat.before_in_eq_fetched 0 rfl (fun _ => rfl) (fun _ _ _ => rfl) (fun t => by rw [hafter]; unfold Dat.blockOf dblk; rw [hA]; try rfl) t d).trans
    (by unfold Dat.fetched Dat.blockOf dblk; rw [hA]; try rfl)
theorem dbefore1_of {c : Dev nD} (dat : Dat τ (Elt F) Unit ℕ (UR sig nD τ) ℕ (cfg1 a) c) (hA : dat.A 1 = V c (Pipeline.arrRef spec1 1))
    (hafter : ∀ t, dat.after 1 t = dblk a V c 1 t) (t : Fin (cfg1 a).N) (d) : dat.before 1 t d = dblk a V c 1 t :=
  (dat.before_in_eq_fetched 1 rfl (fun _ => rfl) (fun _ _ _ => rfl) (fun t => by rw [hafter]; unfold Dat.blockOf dblk; rw [hA]; try rfl) t d).trans
    (by unfold Dat.fetched Dat.blockOf dblk; rw [hA]; try rfl)
theorem dbefore2_of {c : Dev nD} (dat : Dat τ (Elt F) Unit ℕ (UR sig nD τ) ℕ (cfg1 a) c) (hA : dat.A 2 = V c (Pipeline.arrRef spec1 2))
    (hafter : ∀ t, dat.after 2 t = dblk a V c 2 t) (t : Fin (cfg1 a).N) (d) : dat.before 2 t d = dblk a V c 2 t :=
  (dat.before_in_eq_fetched 2 rfl (fun _ => rfl) (fun _ _ _ => rfl) (fun t => by rw [hafter]; unfold Dat.blockOf dblk; rw [hA]; try rfl) t d).trans
    (by unfold Dat.fetched Dat.blockOf dblk; rw [hA]; try rfl)

/-- The rectangle of the body's one store: the whole 1 × 1024 × 256 staging buffer. -/
abbrev downRect : Rect S1x1024x256 := Rect.unit (s := S1x1024x256) ![0, 0, 0] S1x1024x256.size inb_S1x1024x256_S1x1024x256_0_0_0

/-- What the body leaves in the output window's staging buffer, from the three input blocks. -/
def downOut (h : Vec F S1x1024x2816 .bf16) (w2 : Vec F S1x256x2816 .f32) (s : Vec F S1x1024x1 .f32) : Vec F S1x1024x256 .f32 :=
  View.canon [⟨downRect, k1_pay1 (View.ld h (Rect.unit (s := S1x1024x2816) ![0, 0, 0] S1x1024x2816.size inb_S1x1024x2816_S1x1024x2816_0_0_0))
    (View.ld w2 (Rect.unit (s := S1x256x2816) ![0, 0, 0] S1x256x2816.size inb_S1x256x2816_S1x256x2816_0_0_0))
    (View.ld s (Rect.unit (s := S1x1024x1) ![0, 0, 0] S1x1024x1.size inb_S1x1024x1_S1x1024x1_0_0_0))⟩]

/-- The one store covers the buffer. -/
theorem downCover (p0 : Vec F S1x1024x256 .f32) (y : S1x1024x256.Idx) :
    ∃ pc ∈ ([⟨downRect, p0⟩] : List (View.Piece (Elt F) S1x1024x256 .f32)), y ∈ pc.1.set :=
  View.cover_of_tiled [⟨downRect, p0⟩] S1x1024x256.size (by rfl) y

set_option maxHeartbeats 1000000 in
/-- The body on whole staging memrefs: the inputs' contents are kept, the output's becomes `downOut` of them. The
    table's memref is an argument the body never touches. -/
theorem downKernel (c : Dev nD) (E : Set ℕ) (i : grid1.Coords) (arg2 : Memref sig .tc .smem S8 .i32) (harg2 : arg2.IsWhole)
    (arg3 : Memref sig .tc .vmem S1x1024x2816 .bf16) (harg3 : arg3.IsWhole) (arg4 : Memref sig .tc .vmem S1x256x2816 .f32) (harg4 : arg4.IsWhole)
    (arg5 : Memref sig .tc .vmem S1x1024x1 .f32) (harg5 : arg5.IsWhole) (arg6 : Memref sig .tc .vmem S1x1024x256 .f32) (harg6 : arg6.IsWhole)
    (x0 : Vec F S1x1024x2816 .bf16) (x1 : Vec F S1x256x2816 .f32) (x2 : Vec F S1x1024x1 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (downOut x0 x1 x2)) -∗ K ⟨⟩))
      ⊢ wp frame (wpE (defs₀ (F := F)) Variants.none c none) E (cc1__moe_down_kernel i arg2 harg2 arg3 harg3 arg4 harg4 arg5 harg5 arg6 harg6) K := by
  simp only [cc1__moe_down_kernel_eq_skeleton]; unfold cc1__moe_down_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (downCover _)

end Cert.KernelIdeal.Hand

end
-- ==== Proof.DownDatI.lean ====
/-
  The down-projection region's proof data and body obligation, at any admissible table contents `a` and entry
  contents `V`. After the body at grid point `t` each input window's staging buffer still holds its block and the
  output's holds `downOut` of the three blocks. The invariant carries, untouched, the other launch's scoped
  buffers, the generator register and the expert table's buffer at contents `a`.
-/
import proofs.«429380_j12086037971139_2_alg».proof.Proof.DownBodyI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- The region's invariant: what the body neither reads nor writes. -/
abbrev downInv (c : Dev nD) : sProp 𝕄 :=
  iprop(Pipeline.ΦA (U := UR sig nD τ) spec1 c ∗ Pipeline.prefHeld (Ix := Unit) (Name := ℕ) (U := UR sig nD τ) (Lvl := ℕ) pre1 c (fun _ => fullShare) a.1)

/-- The down-projection region's proof data on core `c`. -/
def ddat (c : Dev nD) : Dat τ (Elt F) Unit ℕ (UR sig nD τ) ℕ (cfg1 a) c where
  A w := V c (Pipeline.arrRef spec1 w)
  after w t := match w with
    | ⟨0, _⟩ => dblk a V c 0 t
    | ⟨1, _⟩ => dblk a V c 1 t
    | ⟨2, _⟩ => dblk a V c 2 t
    | ⟨3, _⟩ => downOut (dblk a V c 0 t) (dblk a V c 1 t) (dblk a V c 2 t)
  Φ _ := downInv a c
  q _ := fullShare
  owed _ := 0

theorem dA_eq (c : Dev nD) (w : Fin (cfg1 a).W) : (ddat a V c).A w = V c (Pipeline.arrRef spec1 w) := by
  dsimp only [ddat]

theorem dafter0 (c : Dev nD) (t : Fin (cfg1 a).N) : (ddat a V c).after 0 t = dblk a V c 0 t := by dsimp only [ddat]; rfl
theorem dafter1 (c : Dev nD) (t : Fin (cfg1 a).N) : (ddat a V c).after 1 t = dblk a V c 1 t := by dsimp only [ddat]; rfl
theorem dafter2 (c : Dev nD) (t : Fin (cfg1 a).N) : (ddat a V c).after 2 t = dblk a V c 2 t := by dsimp only [ddat]; rfl
theorem dafter3 (c : Dev nD) (t : Fin (cfg1 a).N) :
    (ddat a V c).after 3 t = downOut (dblk a V c 0 t) (dblk a V c 1 t) (dblk a V c 2 t) := by dsimp only [ddat]; rfl

theorem dbefore0 (c : Dev nD) (t : Fin (cfg1 a).N) (d) : (ddat a V c).before 0 t d = dblk a V c 0 t :=
  dbefore0_of a V (ddat a V c) (dA_eq a V c 0) (dafter0 a V c) t d
theorem dbefore1 (c : Dev nD) (t : Fin (cfg1 a).N) (d) : (ddat a V c).before 1 t d = dblk a V c 1 t :=
  dbefore1_of a V (ddat a V c) (dA_eq a V c 1) (dafter1 a V c) t d
theorem dbefore2 (c : Dev nD) (t : Fin (cfg1 a).N) (d) : (ddat a V c).before 2 t d = dblk a V c 2 t :=
  dbefore2_of a V (ddat a V c) (dA_eq a V c 2) (dafter2 a V c) t d

/-- The current staging memref of window `w` at point `t`. -/
abbrev dst (w : Fin (cfg1 a).W) (t : Fin (cfg1 a).N) := ((cfg1 a).win w).stage ((cfg1 a).slots t w)

/-- The body as the pipeline calls it at point `t`. -/
abbrev downAt (t : Fin (cfg1 a).N) : Prog (TpuEff nD τ sig (Elt F) Λ₀ .tc) PUnit :=
  cc1__moe_down_kernel (grid1.coords t) (Memref.whole main_v2) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))

def downPre (c : Dev nD) (t : Fin (cfg1 a).N) : sProp 𝕄 :=
  iprop((ddat a V c).Φ t.castSucc ∗ (ddat a V c).owesAt () t.castSucc
    ∗ (∃ d, owns (c : Thread nD τ) (dst a 0 t) fullShare ((ddat a V c).before 0 t d))
    ∗ (∃ d, owns (c : Thread nD τ) (dst a 1 t) fullShare ((ddat a V c).before 1 t d))
    ∗ (∃ d, owns (c : Thread nD τ) (dst a 2 t) fullShare ((ddat a V c).before 2 t d))
    ∗ (∃ d, owns (c : Thread nD τ) (dst a 3 t) fullShare ((ddat a V c).before 3 t d)))

def downPost (c : Dev nD) (t : Fin (cfg1 a).N) : sProp 𝕄 :=
  iprop((ddat a V c).Φ t.succ ∗ (ddat a V c).owesAt () t.succ
    ∗ owns (c : Thread nD τ) (dst a 0 t) fullShare ((ddat a V c).after 0 t)
    ∗ owns (c : Thread nD τ) (dst a 1 t) fullShare ((ddat a V c).after 1 t)
    ∗ owns (c : Thread nD τ) (dst a 2 t) fullShare ((ddat a V c).after 2 t)
    ∗ owns (c : Thread nD τ) (dst a 3 t) fullShare ((ddat a V c).after 3 t))

/-- The body at any point: the inputs' memrefs hold their blocks, so the body's triple applies; the invariant and
    the core's dues pass through unread. -/
theorem downSound (c : Dev nD) (t : Fin (cfg1 a).N) :
    downPre a V c t ⊢ wp frame (wpE (defs₀ (F := F)) Variants.none c none) Set.univ (downAt a t) (fun _ => downPost a V c t) := by
  unfold downPre downPost downAt
  simp only [dbefore0, dbefore1, dbefore2]
  rw [show (ddat a V c).Φ t.succ = (ddat a V c).Φ t.castSucc from rfl,
    show (ddat a V c).owesAt () t.succ = (ddat a V c).owesAt () t.castSucc from rfl,
    dafter0, dafter1, dafter2, dafter3]
  iintro ⟨HΦ, Ho, ⟨%d0, H0⟩, ⟨%d1, H1⟩, ⟨%d2, H2⟩, ⟨%d3, H3⟩⟩
  iapply (downKernel c Set.univ _ _ _ _ _ _ _ _ _ _ _ (dblk a V c 0 t) (dblk a V c 1 t) (dblk a V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem down_obligation (c : Dev nD) : BodyObligation (ddat (F := F) a V c) (defs₀ (F := F)) Variants.none () Set.univ := fun t => by
  rw [bigSep_W1, bigSep_W1]
  exact downSound a V c t

end Cert.KernelIdeal.Hand

end
-- ==== Proof.RunI.lean ====
/-
  The whole run of @main, for any float instance: fifteen host operations (the expert table, the normalised token
  ids, the gathered token rows, the reshaped routing weights), the gate launch, the down-projection launch, and
  twelve host operations (the accumulating scatter of the per-pair rows into the per-token result).

  The buffer contents at each boundary are a fold from the launch memory `m`:
    W0 = m,  W1 = after the first host stretch,  W2 = W1 with the gate launch's arrays at what its write-backs leave,
    W3 = W2 with the down launch's arrays likewise,  W4 = after the last host stretch.
  Both launches index their weight windows through the expert table, whose contents `tbl m` are what the first host
  stretch leaves in the table's buffer; the run is stated under the hypothesis `TblOk m` that those contents keep every
  table-indexed block inside its array. Under it every weakly fair execution terminates without a fault with every
  unscoped buffer at its `W4` contents — from which the frame (the arguments are never written) and the result are
  both read.
-/
import proofs.«429380_j12086037971139_2_alg».proof.Proof.GateDatI
import proofs.«429380_j12086037971139_2_alg».proof.Proof.DownDatI
import proofs.«429380_j12086037971139_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the first two boundaries, and the table -/

/-- Core `c`'s buffers at launch. -/
abbrev W0 (c : Dev nD) : Valuation τ sig (Elt F) := fun b => m (c, b)
/-- After the first host stretch: what the gate launch is entered from. -/
abbrev W1 (c : Dev nD) : Valuation τ sig (Elt F) := StableHlo.after hostOps0 (W0 m c)
/-- The same, read at the TensorCore's references. -/
abbrev ent0 (c : Dev nD) (b : Ref sig .tc) : Buf (Elt F) ((c : Thread nD τ).loc b) := W1 m c b

/-- The expert table both launches prefetch: what the first host stretch leaves in its buffer. -/
def tbl : pre0.Contents (Elt F) := fun k => ent0 m 0 (pre0.ref k)

/-- On the one device, the table's buffer at a launch's entry holds `tbl m`. -/
theorem tbl_eq (c : Dev nD) : (fun k => ent0 m c (pre0.ref k)) = tbl m := by
  obtain rfl : c = 0 := Subsingleton.elim _ _
  rfl

/-- The table keeps every block the launches index through it inside its array. -/
structure TblOk : Prop where
  gate : ok0 (tbl m)
  down : ok1 (tbl m)

variable (hok : TblOk m)

/-- The table as admissible contents of each pipeline. -/
abbrev a0 : (pcfg0 (F := F)).Adm := ⟨tbl m, hok.gate⟩
abbrev a1 : (pcfg1 (F := F)).Adm := ⟨tbl m, hok.down⟩
def adm : (p : Fin 2) → (pcfgs (F := F) p).Adm
  | ⟨0, _⟩ => a0 m hok
  | ⟨1, _⟩ => a1 m hok

/-! ## The contents at the later boundaries -/

/-- At the gate launch's exit: its arrays at what the pipeline leaves, every other buffer as entered. -/
def W2 (c : Dev nD) : Valuation τ sig (Elt F) :=
  Pipeline.withArrays spec0 c (W1 m c) fun w => (gdat (a0 m hok) (ent0 m) c).arrAt w (cfg0 (a0 m hok)).N
theorem W2_arr (c : Dev nD) (w : Fin 4) :
    W2 m hok c (Proc.devRef .tc (Pipeline.arrRef spec0 w)) = (gdat (a0 m hok) (ent0 m) c).arrAt w (cfg0 (a0 m hok)).N := by
  unfold W2; exact Pipeline.withArrays_arr spec0 winFacts0.arr_inj c _ _ w
theorem W2_of_ne (c : Dev nD) (b : Ref sig .tc) (hb : ∀ w, Pipeline.arrRef spec0 w ≠ b) :
    W2 m hok c (Proc.devRef .tc b) = W1 m c (Proc.devRef .tc b) := by
  unfold W2; exact Pipeline.withArrays_of_ne spec0 c _ _ b hb
/-- The same read at the TensorCore's references: what the down launch is entered from. -/
abbrev ent1 (c : Dev nD) (b : Ref sig .tc) : Buf (Elt F) ((c : Thread nD τ).loc b) := W2 m hok c b
theorem gateLeaves (c : Dev nD) (w : Fin 4) :
    (gdat (a0 m hok) (ent0 m) c).arrAt w (cfg0 (a0 m hok)).N = ent1 m hok c (Pipeline.arrRef spec0 w) :=
  (W2_arr m hok c w).symm
theorem gateKeeps (c : Dev nD) : ∀ b, b ∉ Finset.univ.image (Pipeline.arrRef spec0) → ent1 m hok c b = ent0 m c b :=
  fun b hb => W2_of_ne m hok c b fun w e => hb (Finset.mem_image.mpr ⟨w, Finset.mem_univ _, e⟩)

/-- At the down launch's exit. -/
def W3 (c : Dev nD) : Valuation τ sig (Elt F) :=
  Pipeline.withArrays spec1 c (W2 m hok c) fun w => (ddat (a1 m hok) (ent1 m hok) c).arrAt w (cfg1 (a1 m hok)).N
theorem W3_arr (c : Dev nD) (w : Fin 4) :
    W3 m hok c (Proc.devRef .tc (Pipeline.arrRef spec1 w)) = (ddat (a1 m hok) (ent1 m hok) c).arrAt w (cfg1 (a1 m hok)).N := by
  unfold W3; exact Pipeline.withArrays_arr spec1 winFacts1.arr_inj c _ _ w
theorem W3_of_ne (c : Dev nD) (b : Ref sig .tc) (hb : ∀ w, Pipeline.arrRef spec1 w ≠ b) :
    W3 m hok c (Proc.devRef .tc b) = W2 m hok c (Proc.devRef .tc b) := by
  unfold W3; exact Pipeline.withArrays_of_ne spec1 c _ _ b hb
abbrev ext1 (c : Dev nD) (b : Ref sig .tc) : Buf (Elt F) ((c : Thread nD τ).loc b) := W3 m hok c b
theorem downLeaves (c : Dev nD) (w : Fin 4) :
    (ddat (a1 m hok) (ent1 m hok) c).arrAt w (cfg1 (a1 m hok)).N = ext1 m hok c (Pipeline.arrRef spec1 w) :=
  (W3_arr m hok c w).symm
theorem downKeeps (c : Dev nD) : ∀ b, b ∉ Finset.univ.image (Pipeline.arrRef spec1) → ext1 m hok c b = ent1 m hok c b :=
  fun b hb => W3_of_ne m hok c b fun w e => hb (Finset.mem_image.mpr ⟨w, Finset.mem_univ _, e⟩)

/-- After the last host stretch: the contents at the return. -/
abbrev W4 (c : Dev nD) : Valuation τ sig (Elt F) := StableHlo.after hostOps2 (W3 m hok c)

/-! ## The proof data family and the thread state -/

def pdats : (p : Fin 2) → (c : Dev nD) → Dat τ (Elt F) Unit ℕ (UR sig nD τ) ℕ (Pipeline.pin (pcfgs (F := F)) (adm m hok) p) c
  | ⟨0, _⟩ => fun c => gdat (a0 m hok) (ent0 m) c
  | ⟨1, _⟩ => fun c => ddat (a1 m hok) (ent1 m hok) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m hok c) ∗ ∃ r, prngReg c r)

/-! ## The launches as segments -/

set_option backward.isDefEq.respectTransparency.types false in
/-- The gate launch over the thread state: entered from every unscoped buffer at `W1`, left at `W2`. Its arrays and the
    table's buffer are split out of the unscoped buffers at entry and put back at exit; the table's buffer and the
    generator register go through the invariant. -/
def reg0 : Pipeline.RegionSeg (pcfgs (F := F)) (adm m hok) (pdats m hok) () defs₀ 𝒱₀ L lv 0 where
  win := winFacts0.to₀
  block_pos := block_pos0
  stage_whole := stage_whole0
  K := PEmpty
  osem k := k.elim
  ho := Pipeline.OwnSemFacts.none _
  hbody c := (gate_obligation (a0 m hok) (ent0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m hok c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl m))
  Z c := Pipeline.unscopedRestP (Ix := Unit) (Name := ℕ) (U := UR sig nD τ) (Lvl := ℕ) pre0 spec0 c (ent0 m c)
  hentry c := by
    rw [Pipeline.ownSems0_none]
    have hsplit := Pipeline.arrays_of_unscopedBufs (p := 0) (pcfgs (F := F)) (adm m hok) (pdats m hok) winFacts0 arr_whole0 c
      ((pdats m hok 0 c).share_full fun _ => rfl) (ent0 m c) fun _ => rfl
    have hrest : (Pipeline.unscopedRest (Ix := Unit) (Name := ℕ) (U := UR sig nD τ) (Lvl := ℕ) (Pipeline.pin (pcfgs (F := F)) (adm m hok) 0).spec c (ent0 m c) : sProp 𝕄)
        = iprop(Pipeline.prefHeld pre0 c (fun _ => fullShare) (tbl m) ∗ Pipeline.unscopedRestP pre0 spec0 c (ent0 m c)) :=
      (Pipeline.unscopedRest_split (pre := pre0) preFacts0 c (ent0 m c)).trans (by rw [tbl_eq m c])
    rw [Pipeline.unscopedBufs_held, hrest] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hok 0 c).Φ 0 = gateInv (a0 m hok) c from rfl]; unfold gateInv Pipeline.ΦA
    iintro ⟨Hp, Hpf, Hr⟩
    isplitl [Hr Hp]
    · isplitl [Hr]; · iexact Hr
      iexact Hp
    iexact Hpf
  hout c := by
    rw [Pipeline.ownSems0_none, show (pdats m hok 0 c).Φ (Fin.last _) = gateInv (a0 m hok) c from rfl]; unfold gateInv Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 0) (pcfgs (F := F)) (adm m hok) (Ix := Unit) (Name := ℕ) (U := UR sig nD τ) (Lvl := ℕ)
      winFacts0 arr_whole0 c (pdats m hok) ((pdats m hok 0 c).share_full fun _ => rfl)
      (ent0 m c) (ent1 m hok c) ((pdats m hok 0 c).arrAt · (cfg0 (a0 m hok)).N) (gateLeaves m hok c) (gateKeeps m hok c)
    have hrest : (Pipeline.unscopedRest (Ix := Unit) (Name := ℕ) (U := UR sig nD τ) (Lvl := ℕ) (Pipeline.pin (pcfgs (F := F)) (adm m hok) 0).spec c (ent0 m c) : sProp 𝕄)
        = iprop(Pipeline.prefHeld pre0 c (fun _ => fullShare) (tbl m) ∗ Pipeline.unscopedRestP pre0 spec0 c (ent0 m c)) :=
      (Pipeline.unscopedRest_split (pre := pre0) preFacts0 c (ent0 m c)).trans (by rw [tbl_eq m c])
    rw [Pipeline.unscopedBufs_held, hrest] at hjoin
    iintro ⟨Ha, HO, ⟨HY, Hpf⟩, Hrest⟩
    imodintro
    isplitl [Ha Hrest Hpf]
    · iapply hjoin
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

set_option backward.isDefEq.respectTransparency.types false in
/-- The down-projection launch over the thread state: entered from `W2`, left at `W3`, the same way. -/
def reg1 : Pipeline.RegionSeg (pcfgs (F := F)) (adm m hok) (pdats m hok) () defs₀ 𝒱₀ L lv 1 where
  win := winFacts1.to₀
  block_pos := block_pos1
  stage_whole := stage_whole1
  K := PEmpty
  osem k := k.elim
  ho := Pipeline.OwnSemFacts.none _
  hbody c := (down_obligation (a1 m hok) (ent1 m hok) c).loose
  hwaits := Pipeline.hwaits_of_owed_zero _ _ _ _ L lv 1 fun _ _ => rfl
  pre c := iprop(StableHlo.held (c : Thread nD τ) (Pipeline.ucRefs τ sig) (W2 m hok c) ∗ R c)
  post c := iprop(StableHlo.held (c : Thread nD τ) (Pipeline.ucRefs τ sig) (W3 m hok c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl m))
  Z c := Pipeline.unscopedRestP (Ix := Unit) (Name := ℕ) (U := UR sig nD τ) (Lvl := ℕ) pre1 spec1 c (ent1 m hok c)
  hentry c := by
    rw [Pipeline.ownSems0_none]
    have hsplit := Pipeline.arrays_of_unscopedBufs (p := 1) (pcfgs (F := F)) (adm m hok) (pdats m hok) winFacts1 arr_whole1 c
      ((pdats m hok 1 c).share_full fun _ => rfl) (ent1 m hok c) fun _ => rfl
    have htbl : (fun k => ent1 m hok c (pre1.ref k)) = tbl m :=
      (funext fun k => gateKeeps m hok c (pre1.ref k) (by revert k; decide)).trans (tbl_eq m c)
    have hrest : (Pipeline.unscopedRest (Ix := Unit) (Name := ℕ) (U := UR sig nD τ) (Lvl := ℕ) (Pipeline.pin (pcfgs (F := F)) (adm m hok) 1).spec c (ent1 m hok c) : sProp 𝕄)
        = iprop(Pipeline.prefHeld pre1 c (fun _ => fullShare) (tbl m) ∗ Pipeline.unscopedRestP pre1 spec1 c (ent1 m hok c)) :=
      (Pipeline.unscopedRest_split (pre := pre1) preFacts1 c (ent1 m hok c)).trans (by rw [htbl])
    rw [Pipeline.unscopedBufs_held, hrest] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hok 1 c).Φ 0 = downInv (a1 m hok) c from rfl]; unfold downInv Pipeline.ΦA
    iintro ⟨Hp, Hpf, Hr⟩
    isplitl [Hr Hp]
    · isplitl [Hr]; · iexact Hr
      iexact Hp
    iexact Hpf
  hout c := by
    rw [Pipeline.ownSems0_none, show (pdats m hok 1 c).Φ (Fin.last _) = downInv (a1 m hok) c from rfl]; unfold downInv Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 1) (pcfgs (F := F)) (adm m hok) (Ix := Unit) (Name := ℕ) (U := UR sig nD τ) (Lvl := ℕ)
      winFacts1 arr_whole1 c (pdats m hok) ((pdats m hok 1 c).share_full fun _ => rfl)
      (ent1 m hok c) (ext1 m hok c) ((pdats m hok 1 c).arrAt · (cfg1 (a1 m hok)).N) (downLeaves m hok c) (downKeeps m hok c)
    have htbl : (fun k => ent1 m hok c (pre1.ref k)) = tbl m :=
      (funext fun k => gateKeeps m hok c (pre1.ref k) (by revert k; decide)).trans (tbl_eq m c)
    have hrest : (Pipeline.unscopedRest (Ix := Unit) (Name := ℕ) (U := UR sig nD τ) (Lvl := ℕ) (Pipeline.pin (pcfgs (F := F)) (adm m hok) 1).spec c (ent1 m hok c) : sProp 𝕄)
        = iprop(Pipeline.prefHeld pre1 c (fun _ => fullShare) (tbl m) ∗ Pipeline.unscopedRestP pre1 spec1 c (ent1 m hok c)) :=
      (Pipeline.unscopedRest_split (pre := pre1) preFacts1 c (ent1 m hok c)).trans (by rw [htbl])
    rw [Pipeline.unscopedBufs_held, hrest] at hjoin
    iintro ⟨Ha, HO, ⟨HY, Hpf⟩, Hrest⟩
    imodintro
    isplitl [Ha Hrest Hpf]
    · iapply hjoin
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) (adm m hok) (pdats m hok) () defs₀ 𝒱₀ L lv) :=
  [ .host (hseg hostOps0 hostOps0_sub hostOps0_fresh (W0 m)),
    .region (reg0 m hok),
    .region (reg1 m hok),
    .host (hseg hostOps2 hostOps2_sub hostOps2_fresh (W3 m hok)) ]

theorem main_run (c : Dev nD) : main (F := F) c = Pipeline.Seg.run (segs m hok) := (main_chain c).trans (by chain_rfl)

set_option backward.isDefEq.respectTransparency.types false in
/-- THE RUN. From any memory with zero counters whose expert table is admissible, every weakly fair execution of @main
    terminates, nothing faulting, and every final state holds every unscoped buffer at its `W4` contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m hok c b) :=
  Pipeline.θ_run_regions_kit (pcfgs (F := F)) (adm m hok) (pdats m hok) () (cellOf_inj (adm m hok)) emb₁ defs₀ 𝒱₀ L lv m ρ main (segs m hok)
    (fun c Q => by rw [main_run m hok c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hok)) (cellOf_inj (adm m hok))) (Pipeline.launchToks (Pipeline.pin (pcfgs (F := F)) (adm m hok)) (cellOf_inj (adm m hok))))
    (hu₀ := by
      iintro Hu; imodintro
      isplitl [Hu]
      · iapply (show (ownU (initOf (Pipeline.cells (Pipeline.pin (pcfgs (F := F)) (adm m hok)) (cellOf_inj (adm m hok))) (Pipeline.launchToks (Pipeline.pin (pcfgs (F := F)) (adm m hok)) (cellOf_inj (adm m hok)))) : sProp 𝕄)
            ⊢ BI.own (emb₁ (initOf (Pipeline.cells (Pipeline.pin (pcfgs (F := F)) (adm m hok)) (cellOf_inj (adm m hok))) (Pipeline.launchToks (Pipeline.pin (pcfgs (F := F)) (adm m hok)) (cellOf_inj (adm m hok))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hok)
    (hch := ⟨fun _ => .rfl, fun _ => .rfl, fun _ => .rfl,
      fun c => show iprop(StableHlo.held (c : Thread nD τ) (Pipeline.ucRefs τ sig) (W3 m hok c) ∗ R c)
        ⊢ iprop(StableHlo.held (c : Thread nD τ) (Pipeline.ucRefs τ sig) (W3 m hok c) ∗ R c) from .rfl,
      fun c => show iprop(StableHlo.held (c : Thread nD τ) (Pipeline.ucRefs τ sig) (W4 m hok c) ∗ R c)
        ⊢ iprop(Tₙ m hok c ∗ ∃ W, owes (c : Thread nD τ) (0 : CellTallies nD τ sig Unit) W) from by
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m hok c b)
    (hfin := fun c s' => by
      iintro ⟨⟨Hh, -⟩, HSI⟩
      unfold StableHlo.held
      imodintro
      iapply (pointsTo_read_all (Pipeline.ucRefs τ sig) (fun b => (((c : Thread nD τ)).1, b)) (W4 m hok c) s')
      isplitl [Hh] <;> iassumption)
    (hQ := fun s h => h)

end Cert.KernelIdeal.Hand

end
-- ==== Proof.HostI.lean ====
/-
  What the two host stretches compute, and that no item of @main writes an argument. For any float instance.

  The first stretch leaves: in the table's buffer the eight expert ids (entry 0 of each group of 1024 of the expert-id
  array); in the gate launch's token window the rows of `x` gathered at the (sign-normalised) token ids, narrowed to
  bf16 and regrouped 8 × 1024 × 2048; in the down launch's routing-weight window the weights regrouped 8 × 1024 × 1.
  The last stretch scatters the down launch's per-pair rows, regrouped 8192 × 2048, additively into a zero table of
  4096 × 2048 at the same token ids.
-/
import proofs.«429380_j12086037971139_2_alg».proof.Proof.RunI

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

/-! ## The host stretches as functions of the arguments -/

/-- The token ids as the gather and the scatter read them: a negative id counted from the end. -/
def tokIds (x5 : IVec S8192 32) : IVec S8192x1 32 :=
  broadcastInDim S8192x1 ![0] bcast_S8192_S8192x1_0
    (select (cmpi .slt x5 (broadcastInDim S8192 ![] bcast_S_S8192 (constantI S_ 32 0#32)))
      (addi x5 (broadcastInDim S8192 ![] bcast_S_S8192 (constantI S_ 32 4096#32))) x5)

/-- The pairs' token rows, grouped by expert. -/
def tokRows (x0 : FVec F S4096x2048 .f32) (x5 : IVec S8192 32) : FVec F S8x1024x2048 .bf16 :=
  shapeCast S8x1024x2048 (truncf .bf16 (Host.gather gather_S4096x2048_S8192x1_S8192x2048_1_0_n_n_0_1_12048 x0 (tokIds x5)) bitsLt_bf16_f32)
    shapeCasts_S8192x2048_S8x1024x2048

/-- The pairs' routing weights, grouped by expert. -/
def routeW (x4 : FVec F S8192 .f32) : FVec F S8x1024x1 .f32 := shapeCast S8x1024x1 x4 shapeCasts_S8192_S8x1024x1

/-- The eight expert ids the launches prefetch. -/
def expertIds (x6 : IVec S8192 32) : IVec S8 32 :=
  shapeCast S8 ((extractStridedSlice S8x1 ![0, 0] · slices_S8x1024_S8x1_0_0) (shapeCast S8x1024 x6 shapeCasts_S8192_S8x1024)) shapeCasts_S8x1_S8

/-- The per-token result: the per-pair rows accumulated at their token ids. -/
def scatterBack (x5 : IVec S8192 32) (Y : FVec F S8x1024x2048 .f32) : FVec F S4096x2048 .f32 :=
  Host.scatterAdd scatter_S4096x2048_S8192x1_S8192x2048_1_0_0_1
    (broadcastInDim S4096x2048 ![] bcast_S_S4096x2048 (constant S_ .f32 0x00000000#32)) (tokIds x5)
    (shapeCast S8192x2048 Y shapeCasts_S8x1024x2048_S8192x2048)

variable (m : (ℓ : Loc nD τ sig) → Buf (Elt F) ℓ)

/-! ## After the first stretch -/

theorem ent0_of (c : Dev nD) (r : Ref sig .tc) (h : r ∉ hostOps0_W) : ent0 m c r = m ((c : Thread nD τ).loc r) :=
  StableHlo.after_of_writes_sub hostOps0 _ hostOps0_writes h

theorem ent0_tokens (c : Dev nD) :
    ent0 m c main_v11 = tokRows (m ((c : Thread nD τ).loc main_arg0)) (m ((c : Thread nD τ).loc main_arg5)) := by
  show StableHlo.after hostOps0 (fun b => m (c, b)) (Proc.devRef .tc main_v11) = _
  after_results; rfl

theorem ent0_route (c : Dev nD) : ent0 m c main_v12 = routeW (m ((c : Thread nD τ).loc main_arg4)) := by
  show StableHlo.after hostOps0 (fun b => m (c, b)) (Proc.devRef .tc main_v12) = _
  after_results; rfl

theorem ent0_table (c : Dev nD) : ent0 m c main_v2 = expertIds (m ((c : Thread nD τ).loc main_arg6)) := by
  show StableHlo.after hostOps0 (fun b => m (c, b)) (Proc.devRef .tc main_v2) = _
  after_results; rfl

/-- The table both launches run at is the eight expert ids. -/
theorem tbl_ids : tbl m 0 = expertIds (m (((0 : Dev nD) : Thread nD τ).loc main_arg6)) := ent0_table m 0

variable (hok : TblOk m)

/-! ## Across the launches -/

theorem ent1_of (c : Dev nD) (r : Ref sig .tc) (h : ∀ w, Pipeline.arrRef spec0 w ≠ r) : ent1 m hok c r = ent0 m c r :=
  W2_of_ne m hok c r h
theorem ext1_of (c : Dev nD) (r : Ref sig .tc) (h : ∀ w, Pipeline.arrRef spec1 w ≠ r) : ext1 m hok c r = ent1 m hok c r :=
  W3_of_ne m hok c r h

/-- An input window's array is left as found. -/
theorem ent1_in (c : Dev nD) (w : Fin 4) (hw : ((cfg0 (a0 m hok)).win w).isOut = false) :
    ent1 m hok c (Pipeline.arrRef spec0 w) = ent0 m c (Pipeline.arrRef spec0 w) :=
  (W2_arr m hok c w).trans (((gdat (a0 m hok) (ent0 m) c).arrAt_in w hw _).trans (gA_eq (a0 m hok) (ent0 m) c w))
theorem ext1_in (c : Dev nD) (w : Fin 4) (hw : ((cfg1 (a1 m hok)).win w).isOut = false) :
    ext1 m hok c (Pipeline.arrRef spec1 w) = ent1 m hok c (Pipeline.arrRef spec1 w) :=
  (W3_arr m hok c w).trans (((ddat (a1 m hok) (ent1 m hok) c).arrAt_in w hw _).trans (dA_eq (a1 m hok) (ent1 m hok) c w))

/-- The hidden activations the down launch reads are what the gate launch's write-backs leave. -/
theorem ent1_hidden (c : Dev nD) : ent1 m hok c main_v13 = (gdat (a0 m hok) (ent0 m) c).arrAt 3 (cfg0 (a0 m hok)).N :=
  W2_arr m hok c 3
/-- The per-pair outputs the last stretch reads are what the down launch's write-backs leave. -/
theorem ext1_pairs (c : Dev nD) : ext1 m hok c main_v14 = (ddat (a1 m hok) (ent1 m hok) c).arrAt 3 (cfg1 (a1 m hok)).N :=
  W3_arr m hok c 3

/-! ## After the last stretch -/

theorem W4_of (c : Dev nD) (r : Ref sig .tc) (h : r ∉ hostOps2_W) : W4 m hok c (Proc.devRef .tc r) = ext1 m hok c r :=
  StableHlo.after_of_writes_sub hostOps2 _ hostOps2_writes h

theorem W4_result (c : Dev nD) :
    W4 m hok c (Proc.devRef .tc main_v23) = scatterBack (ext1 m hok c main_arg5) (ext1 m hok c main_v14) := by
  show StableHlo.after hostOps2 (W3 m hok c) (Proc.devRef .tc main_v23) = _
  after_results; rfl

/-! ## No item writes an argument -/

theorem W4_arg0 (c : Dev nD) : W4 m hok c (Proc.devRef .tc main_arg0) = m ((c : Thread nD τ).loc main_arg0) :=
  (W4_of m hok c main_arg0 (by decide)).trans <| (ext1_of m hok c main_arg0 (by decide)).trans <| (ent1_of m hok c main_arg0 (by decide)).trans (ent0_of m c main_arg0 (by decide))
theorem W4_arg1 (c : Dev nD) : W4 m hok c (Proc.devRef .tc main_arg1) = m ((c : Thread nD τ).loc main_arg1) :=
  (W4_of m hok c main_arg1 (by decide)).trans <| (ext1_of m hok c main_arg1 (by decide)).trans <| (ent1_in m hok c 1 rfl).trans (ent0_of m c main_arg1 (by decide))
theorem W4_arg2 (c : Dev nD) : W4 m hok c (Proc.devRef .tc main_arg2) = m ((c : Thread nD τ).loc main_arg2) :=
  (W4_of m hok c main_arg2 (by decide)).trans <| (ext1_of m hok c main_arg2 (by decide)).trans <| (ent1_in m hok c 2 rfl).trans (ent0_of m c main_arg2 (by decide))
theorem W4_arg3 (c : Dev nD) : W4 m hok c (Proc.devRef .tc main_arg3) = m ((c : Thread nD τ).loc main_arg3) :=
  (W4_of m hok c main_arg3 (by decide)).trans <| (ext1_in m hok c 1 rfl).trans <| (ent1_of m hok c main_arg3 (by decide)).trans (ent0_of m c main_arg3 (by decide))
theorem W4_arg4 (c : Dev nD) : W4 m hok c (Proc.devRef .tc main_arg4) = m ((c : Thread nD τ).loc main_arg4) :=
  (W4_of m hok c main_arg4 (by decide)).trans <| (ext1_of m hok c main_arg4 (by decide)).trans <| (ent1_of m hok c main_arg4 (by decide)).trans (ent0_of m c main_arg4 (by decide))
theorem W4_arg5 (c : Dev nD) : W4 m hok c (Proc.devRef .tc main_arg5) = m ((c : Thread nD τ).loc main_arg5) :=
  (W4_of m hok c main_arg5 (by decide)).trans <| (ext1_of m hok c main_arg5 (by decide)).trans <| (ent1_of m hok c main_arg5 (by decide)).trans (ent0_of m c main_arg5 (by decide))
theorem W4_arg6 (c : Dev nD) : W4 m hok c (Proc.devRef .tc main_arg6) = m ((c : Thread nD τ).loc main_arg6) :=
  (W4_of m hok c main_arg6 (by decide)).trans <| (ext1_of m hok c main_arg6 (by decide)).trans <| (ent1_of m hok c main_arg6 (by decide)).trans (ent0_of m c main_arg6 (by decide))

/-- The token ids the last stretch reads are the argument's. -/
theorem ext1_ids (c : Dev nD) : ext1 m hok c main_arg5 = m ((c : Thread nD τ).loc main_arg5) :=
  (ext1_of m hok c main_arg5 (by decide)).trans <| (ent1_of m hok c main_arg5 (by decide)).trans (ent0_of m c main_arg5 (by decide))

/-! ## The frame -/

/-- Under an admissible table, every weakly fair execution of @main terminates without a fault and leaves the seven
    argument arrays as launched. -/
theorem frame_of_ok (hk : TblOk m) (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_arg0 m hk c), (h c _ (mem_uc main_arg1 (by decide))).trans (W4_arg1 m hk c),
     (h c _ (mem_uc main_arg2 (by decide))).trans (W4_arg2 m hk c), (h c _ (mem_uc main_arg3 (by decide))).trans (W4_arg3 m hk c),
     (h c _ (mem_uc main_arg4 (by decide))).trans (W4_arg4 m hk c), (h c _ (mem_uc main_arg5 (by decide))).trans (W4_arg5 m hk c),
     (h c _ (mem_uc main_arg6 (by decide))).trans (W4_arg6 m hk c)⟩) (run_main m ρ hk)

end Cert.KernelIdeal.Hand

end
-- ==== Proof.MoeSpec.lean ====
/-
  What the two launches compute, as whole-array functions on the extended reals.

  Pairs (token, expert slot) are grouped by expert: 8 groups of 1024 pairs; group `e` is served by expert `T e`.
    hidden X W1 W3 T (e, p, n) = σ(∑ₖ X(e,p,k) · W1(T e, n, k)) · (∑ₖ X(e,p,k) · W3(T e, n, k)),   σ(x) = 1 / (1 + e⁻ˣ)
    pairOut H W2 S T (e, p, j) = (∑ₙ H(e,p,n) · W2(T e, j, n)) · S(e, p, 0)
  X are the pairs' token rows (8 × 1024 × 2048), W1 / W3 the experts' gate and up projections (8 × 2816 × 2048), W2 the
  down projection (8 × 2048 × 2816), S the pairs' routing weights (8 × 1024 × 1).
-/
import Idealize.ShloMosaic.PureOps.Ideal
import Idealize.ShloMosaic.Lib.ValueIdx

noncomputable section

open scoped BigOperators

namespace Cert.MoeSpec

open Idealize.ShloMosaic Idealize.ShloMosaic.ValueIdx

abbrev Tok : Shape := ⟨3, ![8, 1024, 2048]⟩
abbrev Up : Shape := ⟨3, ![8, 2816, 2048]⟩
abbrev Dn : Shape := ⟨3, ![8, 2048, 2816]⟩
abbrev Hid : Shape := ⟨3, ![8, 1024, 2816]⟩
abbrev Rw : Shape := ⟨3, ![8, 1024, 1]⟩

/-- The expert serving group `e`, as a table of eight words names it (the word itself when it is below 8, which is
    the only case the certificate uses: `expertOf_val`). -/
def expertOf (tab : (⟨1, ![8]⟩ : Shape).Idx → BitVec 32) (e : Fin 8) : Fin 8 := ⟨(tab (ix1 e)).toNat % 8, Nat.mod_lt _ (by decide)⟩

theorem expertOf_val (tab : (⟨1, ![8]⟩ : Shape).Idx → BitVec 32) (e : Fin 8) (h : (tab (ix1 e)).toNat < 8) :
    (expertOf tab e).val = (tab (ix1 e)).toNat := Nat.mod_eq_of_lt h

/-- The hidden activations: the logistic of the gate projection times the up projection, per pair and hidden unit. -/
def hidden (X : Tok.Idx → EReal) (W1 W3 : Up.Idx → EReal) (T : Fin 8 → Fin 8) : Hid.Idx → EReal := fun i =>
  Ideal.logistic (∑ k : Fin 2048, X (ix3 (i 0) (i 1) k) * W1 (ix3 (T (i 0)) (i 2) k))
    * (∑ k : Fin 2048, X (ix3 (i 0) (i 1) k) * W3 (ix3 (T (i 0)) (i 2) k))

/-- The per-pair outputs: the down projection of the hidden activations, scaled by the pair's routing weight. -/
def pairOut (H : Hid.Idx → EReal) (W2 : Dn.Idx → EReal) (S : Rw.Idx → EReal) (T : Fin 8 → Fin 8) : Tok.Idx → EReal := fun i =>
  (∑ n : Fin 2816, H (ix3 (i 0) (i 1) n) * W2 (ix3 (T (i 0)) (i 2) n)) * S (ix3 (i 0) (i 1) (0 : Fin 1))

end Cert.MoeSpec

end
-- ==== Proof.GateValI.lean ====
/-
  The gate launch's output array at Ideal. Grid point (e, j) writes block (e, ·, j) of the hidden activations; the
  88 blocks tile the 8 × 1024 × 2816 array, and each is the restriction of ONE whole-array function: `hidden` of the
  token rows, the gate and up weights, and the group-to-expert map the table names.
-/
import proofs.«429380_j12086037971139_2_alg».proof.Proof.GateDatI
import proofs.«429380_j12086037971139_2_alg».proof.Proof.MoeSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.MoeSpec

/-! ## The body's arithmetic at one element -/

/-- The product's left operand is read at the result's row … -/
theorem gdot_lhs_0 (i : S1024x256.Idx) (q : dot_S1024x2048_S256x2048_S1024x256_1_1_0_0_n_n.contr.Idx) :
    (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
/-- … and the contraction position; -/
theorem gdot_lhs_1 (i : S1024x256.Idx) (q : dot_S1024x2048_S256x2048_S1024x256_1_1_0_0_n_n.contr.Idx) :
    (dot_S1024x2048_S256x2048_S1024x256_1_1_0_0_n_n.lhsIdx i q 1).val = (q ⟨0, by decide⟩).val :=
  dot_S1024x2048_S256x2048_S1024x256_1_1_0_0_n_n.lhsIdx_val_of_single rfl i q
/-- the right operand at the result's column … -/
theorem gdot_rhs_0 (i : S1024x256.Idx) (q : dot_S1024x2048_S256x2048_S1024x256_1_1_0_0_n_n.contr.Idx) :
    (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
/-- … and the contraction position. -/
theorem gdot_rhs_1 (i : S1024x256.Idx) (q : dot_S1024x2048_S256x2048_S1024x256_1_1_0_0_n_n.contr.Idx) :
    (dot_S1024x2048_S256x2048_S1024x256_1_1_0_0_n_n.rhsIdx i q 1).val = (q ⟨0, by decide⟩).val :=
  dot_S1024x2048_S256x2048_S1024x256_1_1_0_0_n_n.rhsIdx_val_of_single rfl i q

/-- A product into the zero accumulator, at row `p` and column `n`: the sum over the 2048 contraction positions of
    the left operand's row `p` times the right operand's row `n`. -/
theorem gmatmul_apply (l : FVec Ideal S1024x2048 .bf16) (r : FVec Ideal S256x2048 .bf16) (p : Fin 1024) (n : Fin 256) :
    matmul dot_S1024x2048_S256x2048_S1024x256_1_1_0_0_n_n none l r (constant (F := Ideal) S1024x256 .f32 0x00000000#32) (ix2 p n)
      = ∑ k : Fin 2048, l (ix2 p k) * r (ix2 n k) := by
  simp only [matmul]
  rw [Ideal.matmul_constant_zero_apply, ← Equiv.sum_comp (ValueIdx.contrEquiv1 dot_S1024x2048_S256x2048_S1024x256_1_1_0_0_n_n 2048 rfl rfl).symm]
  refine Finset.sum_congr rfl fun k _ => ?_
  have hk := ValueIdx.contrEquiv1_symm_val dot_S1024x2048_S256x2048_S1024x256_1_1_0_0_n_n 2048 rfl rfl k
  have el : dot_S1024x2048_S256x2048_S1024x256_1_1_0_0_n_n.lhsIdx (ix2 p n) ((ValueIdx.contrEquiv1 dot_S1024x2048_S256x2048_S1024x256_1_1_0_0_n_n 2048 rfl rfl).symm k) = ix2 p k := funext fun a => Fin.ext (by
    match a with
    | ⟨0, _⟩ => exact gdot_lhs_0 _ _
    | ⟨1, _⟩ => exact (gdot_lhs_1 _ _).trans hk)
  have er : dot_S1024x2048_S256x2048_S1024x256_1_1_0_0_n_n.rhsIdx (ix2 p n) ((ValueIdx.contrEquiv1 dot_S1024x2048_S256x2048_S1024x256_1_1_0_0_n_n 2048 rfl rfl).symm k) = ix2 n k := funext fun a => Fin.ext (by
    match a with
    | ⟨0, _⟩ => exact gdot_rhs_0 _ _
    | ⟨1, _⟩ => exact (gdot_rhs_1 _ _).trans hk)
  rw [el, er]

/-- A block's leading unit axis dropped: the token rows … -/
theorem gdrop_x (x : Vec Ideal S1x1024x2048 .bf16) (p : Fin 1024) (k : Fin 2048) :
    shapeCast S1024x2048 x shapeCasts_S1x1024x2048_S1024x2048 (ix2 p k) = x (ix3 (0 : Fin 1) p k) := by
  refine (shapeCast_dropUnit_apply _ _ _ _).trans (congrArg x ?_)
  funext a; match a with | ⟨0, _⟩ => rfl | ⟨1, _⟩ => rfl | ⟨2, _⟩ => rfl
/-- … and a weight block's rows. -/
theorem gdrop_w (w : Vec Ideal S1x256x2048 .f32) (n : Fin 256) (k : Fin 2048) :
    shapeCast S256x2048 w shapeCasts_S1x256x2048_S256x2048 (ix2 n k) = w (ix3 (0 : Fin 1) n k) := by
  refine (shapeCast_dropUnit_apply _ _ _ _).trans (congrArg w ?_)
  funext a; match a with | ⟨0, _⟩ => rfl | ⟨1, _⟩ => rfl | ⟨2, _⟩ => rfl

/-- One projection of the body at row `p`, column `n`: the token row against the weight block's row, the narrowing of the
    weights being the identity on the extended reals. -/
theorem gproj_apply (x : Vec Ideal S1x1024x2048 .bf16) (w : Vec Ideal S1x256x2048 .f32) (p : Fin 1024) (n : Fin 256) :
    matmul dot_S1024x2048_S256x2048_S1024x256_1_1_0_0_n_n none (shapeCast S1024x2048 x shapeCasts_S1x1024x2048_S1024x2048 : FVec Ideal S1024x2048 .bf16)
        (truncf .bf16 (shapeCast S256x2048 w shapeCasts_S1x256x2048_S256x2048) bitsLt_bf16_f32 : FVec Ideal S256x2048 .bf16)
        (constant (F := Ideal) S1024x256 .f32 0x00000000#32) (ix2 p n)
      = ∑ k : Fin 2048, x (ix3 (0 : Fin 1) p k) * w (ix3 (0 : Fin 1) n k) := by
  rw [gmatmul_apply]
  refine Finset.sum_congr rfl fun k _ => ?_
  rw [gdrop_x]
  exact congrArg (x (ix3 (0 : Fin 1) p k) * ·) (gdrop_w w n k)

/-- What the body stores at row `p`, column `n` of its 1 × 1024 × 256 block: the logistic of the gate projection times
    the up projection, of token row `p` and the weight blocks' rows `n`. -/
theorem gate_pay_apply (x : Vec Ideal S1x1024x2048 .bf16) (w1 w3 : Vec Ideal S1x256x2048 .f32) (p : Fin 1024) (n : Fin 256) :
    k0_pay1 x w1 w3 (ix3 (0 : Fin 1) p n)
      = Ideal.logistic (∑ k : Fin 2048, x (ix3 (0 : Fin 1) p k) * w1 (ix3 (0 : Fin 1) n k))
        * (∑ k : Fin 2048, x (ix3 (0 : Fin 1) p k) * w3 (ix3 (0 : Fin 1) n k)) := by
  unfold k0_pay1
  refine (shapeCast_addUnit_apply _ _ _ _).trans ?_
  have e2 : (fun a : Fin 2 => ix3 (0 : Fin 1) p n a.succ) = ix2 p n :=
    funext fun a => by match a with | ⟨0, _⟩ => rfl | ⟨1, _⟩ => rfl
  refine (congrArg _ e2).trans ?_
  show Ideal.logistic (matmul (F := Ideal) (φ₁ := .bf16) (φ₂ := .bf16) dot_S1024x2048_S256x2048_S1024x256_1_1_0_0_n_n none _ _ _ (ix2 p n))
    * (matmul (F := Ideal) (φ₁ := .bf16) (φ₂ := .bf16) dot_S1024x2048_S256x2048_S1024x256_1_1_0_0_n_n none _ _ _ (ix2 p n)) = _
  rw [gproj_apply, gproj_apply]

/-! ## The grid's points and the windows' block indices

Point `t` of the 8 × 11 grid is group `gptE t`, column block `gptJ t`. The token window's block index there is
(group, 0, 0); a weight window's is (the table's word for the group, column block, 0); the output's is
(group, 0, column block). The table's contents stay a parameter throughout. -/

/-- The group a point works on. -/
def gptE (t : Fin grid0.N) : Fin 8 := grid0.coords t 0
/-- The block of 256 hidden units a point works on. -/
def gptJ (t : Fin grid0.N) : Fin 11 := grid0.coords t 1

theorem gptE_val (t : Fin grid0.N) : (gptE t).val = t.val / 11 % 8 := by
  have h : grid0.stride 0 = 11 := by decide
  show t.val / grid0.stride 0 % grid0.bound 0 = _
  rw [h]; rfl
theorem gptJ_val (t : Fin grid0.N) : (gptJ t).val = t.val % 11 := by
  have h : grid0.stride 1 = 1 := by decide
  show t.val / grid0.stride 1 % grid0.bound 1 = _
  rw [h, Nat.div_one]; rfl

/-- A grid coordinate, as the index maps read it (a 32-bit word), is itself. -/
theorem gword_of_coord (x : Nat) (h : x < 2816) : (BitVec.ofNat 32 x).toNat = x := by
  rw [BitVec.toNat_ofNat]; exact Nat.mod_eq_of_lt (by omega)

theorem gtr0_eq (i : grid0.Coords) (e : Fin 8) (he : (i 0).val = e.val) :
    cc0_transform_0 i = ![e.val, 0, 0] := by
  unfold cc0_transform_0
  dsimp only
  rw [he, gword_of_coord e.val (by omega)]
  rfl

theorem gtr3_eq (i : grid0.Coords) (e : Fin 8) (j : Fin 11) (he : (i 0).val = e.val) (hj : (i 1).val = j.val) :
    cc0_transform_3 i = ![e.val, 0, j.val] := by
  unfold cc0_transform_3
  dsimp only
  rw [he, hj, gword_of_coord e.val (by omega), gword_of_coord j.val (by omega)]
  rfl

theorem gtr1_eq (pf : pre0.Contents (Elt Ideal)) (i : grid0.Coords) (e : Fin 8) (j : Fin 11) (he : (i 0).val = e.val) (hj : (i 1).val = j.val) :
    cc0_transform_1 k0_off1_inb numel1_S1 pf i = ![(pf 0 (ValueIdx.ix1 e)).toNat, j.val, 0] := by
  unfold cc0_transform_1
  dsimp only
  funext d
  match d with
  | ⟨0, _⟩ =>
    show BitVec.toNat (pf 0 _) = BitVec.toNat (pf 0 (ValueIdx.ix1 e))
    refine congrArg (fun z => BitVec.toNat (pf 0 z)) ?_
    funext b
    apply Fin.ext
    match b with
    | ⟨0, _⟩ =>
      show (Scalar.indexCast (BitVec.ofNat 32 (i 0).val)).toNat + 1 * 0 = e.val
      rw [he]
      show (BitVec.ofNat 32 e.val).toNat + 1 * 0 = e.val
      rw [gword_of_coord e.val (by omega)]; omega
  | ⟨1, _⟩ => show (BitVec.ofNat 32 (i 1).val).toNat = j.val; rw [hj, gword_of_coord j.val (by omega)]
  | ⟨2, _⟩ => rfl

theorem gtr2_eq (pf : pre0.Contents (Elt Ideal)) (i : grid0.Coords) (e : Fin 8) (j : Fin 11) (he : (i 0).val = e.val) (hj : (i 1).val = j.val) :
    cc0_transform_2 k0_off1_inb numel1_S1 pf i = ![(pf 0 (ValueIdx.ix1 e)).toNat, j.val, 0] := by
  unfold cc0_transform_2
  dsimp only
  funext d
  match d with
  | ⟨0, _⟩ =>
    show BitVec.toNat (pf 0 _) = BitVec.toNat (pf 0 (ValueIdx.ix1 e))
    refine congrArg (fun z => BitVec.toNat (pf 0 z)) ?_
    funext b
    apply Fin.ext
    match b with
    | ⟨0, _⟩ =>
      show (Scalar.indexCast (BitVec.ofNat 32 (i 0).val)).toNat + 1 * 0 = e.val
      rw [he]
      show (BitVec.ofNat 32 e.val).toNat + 1 * 0 = e.val
      rw [gword_of_coord e.val (by omega)]; omega
  | ⟨1, _⟩ => show (BitVec.ofNat 32 (i 1).val).toNat = j.val; rw [hj, gword_of_coord j.val (by omega)]
  | ⟨2, _⟩ => rfl

variable (a : (pcfg0 (F := Ideal)).Adm)

/-- The token window's block index at point `t`. -/
theorem gidx0 (t : Fin (cfg0 a).N) : ((cfg0 a).win 0).index t = ![(gptE t).val, 0, 0] :=
  gtr0_eq (grid0.coords t) (gptE t) rfl
/-- The gate weights' window's: its first coordinate is the table's word for the group. -/
theorem gidx1 (t : Fin (cfg0 a).N) : ((cfg0 a).win 1).index t = ![(a.1 0 (ValueIdx.ix1 (gptE t))).toNat, (gptJ t).val, 0] :=
  gtr1_eq a.1 (grid0.coords t) (gptE t) (gptJ t) rfl rfl
/-- The up weights' window's, likewise. -/
theorem gidx2 (t : Fin (cfg0 a).N) : ((cfg0 a).win 2).index t = ![(a.1 0 (ValueIdx.ix1 (gptE t))).toNat, (gptJ t).val, 0] :=
  gtr2_eq a.1 (grid0.coords t) (gptE t) (gptJ t) rfl rfl
/-- The output window's. -/
theorem gidx3 (t : Fin (cfg0 a).N) : ((cfg0 a).win 3).index t = ![(gptE t).val, 0, (gptJ t).val] :=
  gtr3_eq (grid0.coords t) (gptE t) (gptJ t) rfl rfl

/-! ## One point's blocks as restrictions of the whole arrays, and what it writes back -/

/-- The body's block at row `p`, column `n` is `hidden` at (group, `p`, 256 · column block + `n`), once its three input
    blocks are the group's token rows and rows 256 · column block … of the group's expert's weights. -/
theorem gate_point (X : Tok.Idx → EReal) (W1 W3 : Up.Idx → EReal) (T : Fin 8 → Fin 8)
    (x : Vec Ideal S1x1024x2048 .bf16) (w1 w3 : Vec Ideal S1x256x2048 .f32) (e : Fin 8) (jb : Fin 11)
    (hx : ∀ (p : Fin 1024) (k : Fin 2048), x (ix3 (0 : Fin 1) p k) = X (ix3 e p k))
    (hw1 : ∀ (n : Fin 256) (k : Fin 2048), w1 (ix3 (0 : Fin 1) n k) = W1 (ix3 (T e) (⟨jb.val * 256 + n.val, by omega⟩ : Fin 2816) k))
    (hw3 : ∀ (n : Fin 256) (k : Fin 2048), w3 (ix3 (0 : Fin 1) n k) = W3 (ix3 (T e) (⟨jb.val * 256 + n.val, by omega⟩ : Fin 2816) k))
    (p : Fin 1024) (n : Fin 256) :
    k0_pay1 x w1 w3 (ix3 (0 : Fin 1) p n) = hidden X W1 W3 T (ix3 e p (⟨jb.val * 256 + n.val, by omega⟩ : Fin 2816)) := by
  rw [gate_pay_apply]
  unfold MoeSpec.hidden
  simp only [hx, hw1, hw3]

variable (V : (c : Dev nD) → (b : Ref sig .tc) → Buf (Elt Ideal) ((c : Thread nD τ).loc b))

/-- The token window's block at point `t`: the rows of group `gptE t`. -/
theorem gblk0_apply (c : Dev nD) (t : Fin (cfg0 a).N) (p : Fin 1024) (k : Fin 2048) :
    (gblk a V c 0 t : Vec Ideal S1x1024x2048 .bf16) (ix3 (0 : Fin 1) p k) = (V c main_v11 : Tok.Idx → EReal) (ix3 (gptE t) p k) := by
  unfold gblk
  show V c main_v11 ((((cfg0 a).win 0).blk t).view.emb (ix3 (0 : Fin 1) p k)) = V c main_v11 (ix3 (gptE t) p k)
  refine congrArg (V c main_v11) ?_
  funext d
  apply Fin.ext
  have hi := gidx0 a t
  match d with
  | ⟨0, _⟩ => show ((cfg0 a).win 0).index t (0 : Fin 3) * 1 + 1 * 0 = (gptE t).val; rw [hi]; show (gptE t).val * 1 + 1 * 0 = _; omega
  | ⟨1, _⟩ => show ((cfg0 a).win 0).index t (1 : Fin 3) * 1024 + 1 * p.val = p.val; rw [hi]; show 0 * 1024 + 1 * p.val = _; omega
  | ⟨2, _⟩ => show ((cfg0 a).win 0).index t (2 : Fin 3) * 2048 + 1 * k.val = k.val; rw [hi]; show 0 * 2048 + 1 * k.val = _; omega

/-- The gate weights' block at point `t`: rows 256 · `gptJ t` … of the expert the table names for group `gptE t`. -/
theorem gblk1_apply (c : Dev nD) (t : Fin (cfg0 a).N) (hT : (a.1 0 (ValueIdx.ix1 (gptE t))).toNat < 8) (n : Fin 256) (k : Fin 2048) :
    (gblk a V c 1 t : Vec Ideal S1x256x2048 .f32) (ix3 (0 : Fin 1) n k)
      = (V c main_arg1 : Up.Idx → EReal) (ix3 (expertOf (a.1 0) (gptE t)) (⟨(gptJ t).val * 256 + n.val, by have := (gptJ t).isLt; omega⟩ : Fin 2816) k) := by
  unfold gblk
  show V c main_arg1 ((((cfg0 a).win 1).blk t).view.emb (ix3 (0 : Fin 1) n k)) = V c main_arg1 _
  refine congrArg (V c main_arg1) ?_
  funext d
  apply Fin.ext
  have hi := gidx1 a t
  have he := expertOf_val (a.1 0) (gptE t) hT
  match d with
  | ⟨0, _⟩ =>
    show ((cfg0 a).win 1).index t (0 : Fin 3) * 1 + 1 * 0 = (expertOf (a.1 0) (gptE t)).val
    rw [hi, he]; show (a.1 0 (ValueIdx.ix1 (gptE t))).toNat * 1 + 1 * 0 = _; omega
  | ⟨1, _⟩ =>
    show ((cfg0 a).win 1).index t (1 : Fin 3) * 256 + 1 * n.val = (gptJ t).val * 256 + n.val
    rw [hi]; show (gptJ t).val * 256 + 1 * n.val = _; omega
  | ⟨2, _⟩ =>
    show ((cfg0 a).win 1).index t (2 : Fin 3) * 2048 + 1 * k.val = k.val
    rw [hi]; show 0 * 2048 + 1 * k.val = _; omega

/-- The up weights' block at point `t`, likewise. -/
theorem gblk2_apply (c : Dev nD) (t : Fin (cfg0 a).N) (hT : (a.1 0 (ValueIdx.ix1 (gptE t))).toNat < 8) (n : Fin 256) (k : Fin 2048) :
    (gblk a V c 2 t : Vec Ideal S1x256x2048 .f32) (ix3 (0 : Fin 1) n k)
      = (V c main_arg2 : Up.Idx → EReal) (ix3 (expertOf (a.1 0) (gptE t)) (⟨(gptJ t).val * 256 + n.val, by have := (gptJ t).isLt; omega⟩ : Fin 2816) k) := by
  unfold gblk
  show V c main_arg2 ((((cfg0 a).win 2).blk t).view.emb (ix3 (0 : Fin 1) n k)) = V c main_arg2 _
  refine congrArg (V c main_arg2) ?_
  funext d
  apply Fin.ext
  have hi := gidx2 a t
  have he := expertOf_val (a.1 0) (gptE t) hT
  match d with
  | ⟨0, _⟩ =>
    show ((cfg0 a).win 2).index t (0 : Fin 3) * 1 + 1 * 0 = (expertOf (a.1 0) (gptE t)).val
    rw [hi, he]; show (a.1 0 (ValueIdx.ix1 (gptE t))).toNat * 1 + 1 * 0 = _; omega
  | ⟨1, _⟩ =>
    show ((cfg0 a).win 2).index t (1 : Fin 3) * 256 + 1 * n.val = (gptJ t).val * 256 + n.val
    rw [hi]; show (gptJ t).val * 256 + 1 * n.val = _; omega
  | ⟨2, _⟩ =>
    show ((cfg0 a).win 2).index t (2 : Fin 3) * 2048 + 1 * k.val = k.val
    rw [hi]; show 0 * 2048 + 1 * k.val = _; omega

theorem ghz3 : (![0, 0, 0] : Fin 3 → Nat) = fun _ => 0 := funext fun d => by fin_cases d <;> rfl

/-- The body's one store covers its staging buffer, and its loads read the whole input blocks: what it leaves is its
    arithmetic of the three blocks. -/
theorem gateOut_eq (x : Vec Ideal S1x1024x2048 .bf16) (w1 w3 : Vec Ideal S1x256x2048 .f32) :
    gateOut x w1 w3 = k0_pay1 x w1 w3 := by
  unfold gateOut
  rw [View.canon_unit_zero ghz3]
  simp only [View.ld_unit_zero (S := S1x1024x2048) ghz3, View.ld_unit_zero (S := S1x256x2048) ghz3]

/-- WHAT POINT `t` WRITES BACK is its block of `hidden` of the three arrays as the launch finds them, the experts read
    off the table. -/
theorem gflushed_eq (c : Dev nD) (t : Fin (cfg0 a).N) (hT : ∀ e : Fin 8, (a.1 0 (ValueIdx.ix1 e)).toNat < 8) :
    (gdat a V c).flushed 3 t
      = (((cfg0 a).win 3).blk t).view.read (Elt Ideal) (MoeSpec.hidden (V c main_v11) (V c main_arg1) (V c main_arg2) (expertOf (a.1 0))) := by
  show ((cfg0 a).win 3).cut ((cfg0 a).grid.coords t) ((gdat a V c).after 3 t) = _
  rw [gafter3, gateOut_eq (gblk a V c 0 t) (gblk a V c 1 t) (gblk a V c 2 t)]
  refine funext (fun (y : S1x1024x256.Idx) => ?_)
  obtain ⟨z, p, n, rfl⟩ : ∃ (z : Fin 1) (p : Fin 1024) (n : Fin 256), y = ix3 z p n := ⟨y 0, y 1, y 2, eq_ix3 y⟩
  obtain rfl : z = 0 := Subsingleton.elim _ _
  show k0_pay1 (gblk a V c 0 t) (gblk a V c 1 t) (gblk a V c 2 t) (ix3 (0 : Fin 1) p n)
    = MoeSpec.hidden (V c main_v11) (V c main_arg1) (V c main_arg2) (expertOf (a.1 0)) ((((cfg0 a).win 3).blk t).view.emb (ix3 (0 : Fin 1) p n))
  refine (gate_point (V c main_v11) (V c main_arg1) (V c main_arg2) (expertOf (a.1 0)) (gblk a V c 0 t) (gblk a V c 1 t) (gblk a V c 2 t)
    (gptE t) (gptJ t) (gblk0_apply a V c t) (gblk1_apply a V c t (hT _)) (gblk2_apply a V c t (hT _)) p n).trans ?_
  refine congrArg (MoeSpec.hidden (V c main_v11) (V c main_arg1) (V c main_arg2) (expertOf (a.1 0))) ?_
  funext d
  apply Fin.ext
  have hi := gidx3 a t
  match d with
  | ⟨0, _⟩ =>
    show (gptE t).val = ((cfg0 a).win 3).index t (0 : Fin 3) * 1 + 1 * 0
    rw [hi]; show _ = (gptE t).val * 1 + 1 * 0; omega
  | ⟨1, _⟩ =>
    show p.val = ((cfg0 a).win 3).index t (1 : Fin 3) * 1024 + 1 * p.val
    rw [hi]; show _ = 0 * 1024 + 1 * p.val; omega
  | ⟨2, _⟩ =>
    show (gptJ t).val * 256 + n.val = ((cfg0 a).win 3).index t (2 : Fin 3) * 256 + 1 * n.val
    rw [hi]; show _ = (gptJ t).val * 256 + 1 * n.val; omega

/-! ## The 88 blocks tile the array -/

/-- Every point writes its output block back: the next point works on another column block. -/
theorem gflush3 (t : Fin (cfg0 a).N) : ((cfg0 a).win 3).flush t = true := by
  unfold Window.flush
  show (true && (decide (t.val + 1 = grid0.N)
    || decide (∃ h : t.val + 1 < grid0.N, ((cfg0 a).win 3).index ⟨t.val + 1, h⟩ ≠ ((cfg0 a).win 3).index t))) = true
  rw [Bool.true_and, Bool.or_eq_true, decide_eq_true_eq, decide_eq_true_eq]
  by_cases h : t.val + 1 = grid0.N
  · exact Or.inl h
  · have hN : grid0.N = 88 := N_0
    have hlt : t.val + 1 < grid0.N := by have ht : t.val < grid0.N := t.isLt; omega
    refine Or.inr ⟨hlt, fun heq => ?_⟩
    have h2 := congrFun heq (2 : Fin 3)
    rw [gidx3, gidx3] at h2
    have h2' : (gptJ ⟨t.val + 1, hlt⟩).val = (gptJ t).val := h2
    rw [gptJ_val, gptJ_val] at h2'
    have h3 : (t.val + 1) % 11 = t.val % 11 := h2'
    omega

/-- An index of the array is in point `t`'s block iff each coordinate is in the block's range on its axis. -/
theorem gmem_blk3 (t : Fin (cfg0 a).N) (i : Hid.Idx) :
    i ∈ (((cfg0 a).win 3).blk t).view.set
      ↔ ∀ d : Fin 3, ((cfg0 a).win 3).index t d * S1x1024x256.size d ≤ (i d).val
          ∧ (i d).val < ((cfg0 a).win 3).index t d * S1x1024x256.size d + S1x1024x256.size d := by
  exact (Finset.ext_iff.mp (View.set_slice_whole main_v13 (((cfg0 a).win 3).rect t)) i).trans Rect.mem_set_unit

/-- Index (e, p, m) of the array is in the block of the point with coordinates (e, m / 256). -/
theorem gcover (i : Hid.Idx) :
    ∃ t : Fin (cfg0 a).N, ((cfg0 a).win 3).flush t = true ∧ i ∈ (((cfg0 a).win 3).blk t).view.set := by
  obtain ⟨e, p, m, rfl⟩ : ∃ (e : Fin 8) (p : Fin 1024) (m : Fin 2816), i = ix3 e p m := ⟨i 0, i 1, i 2, eq_ix3 i⟩
  have hN : grid0.N = 88 := N_0
  have he := e.isLt
  have hp := p.isLt
  have hm := m.isLt
  have htN : e.val * 11 + m.val / 256 < grid0.N := by omega
  refine ⟨⟨e.val * 11 + m.val / 256, htN⟩, gflush3 a _, ?_⟩
  rw [gmem_blk3]
  have hi := gidx3 a ⟨e.val * 11 + m.val / 256, htN⟩
  have hE : (gptE ⟨e.val * 11 + m.val / 256, htN⟩).val = e.val := by
    rw [gptE_val]; show (e.val * 11 + m.val / 256) / 11 % 8 = _; omega
  have hJ : (gptJ ⟨e.val * 11 + m.val / 256, htN⟩).val = m.val / 256 := by
    rw [gptJ_val]; show (e.val * 11 + m.val / 256) % 11 = _; omega
  intro d
  rw [hi]
  match d with
  | ⟨0, _⟩ =>
    show (gptE ⟨e.val * 11 + m.val / 256, htN⟩).val * 1 ≤ e.val ∧ e.val < (gptE ⟨e.val * 11 + m.val / 256, htN⟩).val * 1 + 1
    omega
  | ⟨1, _⟩ => show 0 * 1024 ≤ p.val ∧ p.val < 0 * 1024 + 1024; omega
  | ⟨2, _⟩ =>
    show (gptJ ⟨e.val * 11 + m.val / 256, htN⟩).val * 256 ≤ m.val ∧ m.val < (gptJ ⟨e.val * 11 + m.val / 256, htN⟩).val * 256 + 256
    omega

/-- After the gate launch the hidden-activation array holds `hidden` of the launch's three input arrays, the expert of
    each group read off the table (every entry of which names an expert: `hT`). -/
theorem gate_array (a : (pcfg0 (F := Ideal)).Adm)
    (V : (c : Dev nD) → (b : Ref sig .tc) → Buf (Elt Ideal) ((c : Thread nD τ).loc b)) (c : Dev nD)
    (hT : ∀ e : Fin 8, (a.1 0 (ValueIdx.ix1 e)).toNat < 8) :
    ((gdat a V c).arrAt 3 (cfg0 a).N : Hid.Idx → EReal)
      = hidden (V c main_v11) (V c main_arg1) (V c main_arg2) (expertOf (a.1 0)) :=
  (gdat a V c).arrAt_eq_of_cover 3 (MoeSpec.hidden (V c main_v11) (V c main_arg1) (V c main_arg2) (expertOf (a.1 0)))
    (fun t _ => gflushed_eq a V c t hT) (gcover a)

end Cert.KernelIdeal.Hand

end
-- ==== Proof.DownValI.lean ====
/-
  The down-projection launch's output array at Ideal. Grid point (e, j) writes block (e, ·, j) of the per-pair outputs;
  the 64 blocks tile the 8 × 1024 × 2048 array, and each is the restriction of ONE whole-array function: `pairOut` of the
  hidden activations, the down weights, the routing weights and the group-to-expert map the table names.
-/
import proofs.«429380_j12086037971139_2_alg».proof.Proof.DownDatI
import proofs.«429380_j12086037971139_2_alg».proof.Proof.MoeSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.MoeSpec

/-! ## Layout steps of the body, read at an index -/

/-- Dropping a leading unit axis reads (0, p, q) at (p, q). -/
theorem dropUnit3_apply {A B : Nat} {α : Type} (v : (⟨3, ![1, A, B]⟩ : Shape).Idx → α)
    (hc : (⟨3, ![1, A, B]⟩ : Shape).ShapeCasts ⟨2, ![A, B]⟩) (p : Fin A) (q : Fin B) :
    shapeCast ⟨2, ![A, B]⟩ v hc (ix2 p q) = v (ix3 (0 : Fin 1) p q) := by
  refine shapeCast_apply v hc (ix2 p q) (ix3 (0 : Fin 1) p q) ?_
  rw [Shape.rowMajor_val_three, Shape.rowMajor_val_two]
  show ((0 : Nat) * A + p.val) * B + q.val = p.val * B + q.val
  rw [Nat.zero_mul, Nat.zero_add]

/-- Adding a leading unit axis reads (p, q) at (0, p, q). -/
theorem addUnit3_apply {A B : Nat} {α : Type} (v : (⟨2, ![A, B]⟩ : Shape).Idx → α)
    (hc : (⟨2, ![A, B]⟩ : Shape).ShapeCasts ⟨3, ![1, A, B]⟩) (p : Fin A) (q : Fin B) :
    shapeCast ⟨3, ![1, A, B]⟩ v hc (ix3 (0 : Fin 1) p q) = v (ix2 p q) := by
  refine shapeCast_apply v hc (ix3 (0 : Fin 1) p q) (ix2 p q) ?_
  rw [Shape.rowMajor_val_three, Shape.rowMajor_val_two]
  show p.val * B + q.val = ((0 : Nat) * A + p.val) * B + q.val
  rw [Nat.zero_mul, Nat.zero_add]

/-- A column broadcast along the second axis reads its one entry of the row. -/
theorem broadcastCol_apply {A B : Nat} {α : Type} (v : (⟨2, ![A, 1]⟩ : Shape).Idx → α)
    (hb : (⟨2, ![A, 1]⟩ : Shape).Broadcasts ⟨2, ![A, B]⟩) (hA : A ≠ 1) (p : Fin A) (q : Fin B) :
    broadcastTo ⟨2, ![A, B]⟩ v hb (ix2 p q) = v (ix2 p (0 : Fin 1)) := by
  refine broadcastTo_apply v hb (ix2 p q) (ix2 p (0 : Fin 1)) fun a => ?_
  match a with
  | ⟨0, _⟩ => show p.val = if A = 1 then 0 else p.val; rw [if_neg hA]
  | ⟨1, _⟩ => rfl

/-! ## The body's arithmetic at an index -/

theorem lhs_down_0 (i : S1024x256.Idx) (q : dot_S1024x2816_S256x2816_S1024x256_1_1_0_0_n_n.contr.Idx) :
    (dot_S1024x2816_S256x2816_S1024x256_1_1_0_0_n_n.lhsIdx i q 0).val = (i 0).val := by
  unfold DotDims.lhsIdx
  rw [dif_neg (show ¬(0 : Fin S1024x2816.rank) ∈ dot_S1024x2816_S256x2816_S1024x256_1_1_0_0_n_n.lhsBatch by decide), dif_pos (show (0 : Fin S1024x2816.rank) ∈ dot_S1024x2816_S256x2816_S1024x256_1_1_0_0_n_n.lhsNonContracting by decide)]
  rfl
theorem lhs_down_1 (i : S1024x256.Idx) (q : dot_S1024x2816_S256x2816_S1024x256_1_1_0_0_n_n.contr.Idx) :
    (dot_S1024x2816_S256x2816_S1024x256_1_1_0_0_n_n.lhsIdx i q 1).val = (q ⟨0, by decide⟩).val :=
  dot_S1024x2816_S256x2816_S1024x256_1_1_0_0_n_n.lhsIdx_val_of_single rfl i q
theorem rhs_down_0 (i : S1024x256.Idx) (q : dot_S1024x2816_S256x2816_S1024x256_1_1_0_0_n_n.contr.Idx) :
    (dot_S1024x2816_S256x2816_S1024x256_1_1_0_0_n_n.rhsIdx i q 0).val = (i 1).val := by
  unfold DotDims.rhsIdx
  rw [dif_neg (show ¬(0 : Fin S256x2816.rank) ∈ dot_S1024x2816_S256x2816_S1024x256_1_1_0_0_n_n.rhsBatch by decide), dif_pos (show (0 : Fin S256x2816.rank) ∈ dot_S1024x2816_S256x2816_S1024x256_1_1_0_0_n_n.rhsNonContracting by decide)]
  rfl
theorem rhs_down_1 (i : S1024x256.Idx) (q : dot_S1024x2816_S256x2816_S1024x256_1_1_0_0_n_n.contr.Idx) :
    (dot_S1024x2816_S256x2816_S1024x256_1_1_0_0_n_n.rhsIdx i q 1).val = (q ⟨0, by decide⟩).val :=
  dot_S1024x2816_S256x2816_S1024x256_1_1_0_0_n_n.rhsIdx_val_of_single rfl i q

/-- The matrix product into a zero accumulator, at an entry: row p of the left operand against row j of the right one. -/
theorem down_matmul_apply (x : FVec Ideal S1024x2816 .bf16) (y : FVec Ideal S256x2816 .bf16) (p : Fin 1024) (j : Fin 256) :
    matmul dot_S1024x2816_S256x2816_S1024x256_1_1_0_0_n_n none x y (constant S1024x256 .f32 0x00000000#32) (ix2 p j)
      = ∑ n : Fin 2816, x (ix2 p n) * y (ix2 j n) := by
  show FloatOps.matmul dot_S1024x2816_S256x2816_S1024x256_1_1_0_0_n_n none x y (constant S1024x256 .f32 0x00000000#32) (ix2 p j) = _
  rw [Ideal.matmul_constant_zero_apply, ← Equiv.sum_comp (ValueIdx.contrEquiv1 dot_S1024x2816_S256x2816_S1024x256_1_1_0_0_n_n 2816 rfl rfl).symm]
  refine Finset.sum_congr rfl fun k _ => ?_
  have hk := ValueIdx.contrEquiv1_symm_val dot_S1024x2816_S256x2816_S1024x256_1_1_0_0_n_n 2816 rfl rfl k
  have el : dot_S1024x2816_S256x2816_S1024x256_1_1_0_0_n_n.lhsIdx (ix2 p j) ((ValueIdx.contrEquiv1 dot_S1024x2816_S256x2816_S1024x256_1_1_0_0_n_n 2816 rfl rfl).symm k) = ix2 p k := funext fun a => Fin.ext (by
    match a with
    | ⟨0, _⟩ => exact lhs_down_0 _ _
    | ⟨1, _⟩ => exact (lhs_down_1 _ _).trans hk)
  have er : dot_S1024x2816_S256x2816_S1024x256_1_1_0_0_n_n.rhsIdx (ix2 p j) ((ValueIdx.contrEquiv1 dot_S1024x2816_S256x2816_S1024x256_1_1_0_0_n_n 2816 rfl rfl).symm k) = ix2 j k := funext fun a => Fin.ext (by
    match a with
    | ⟨0, _⟩ => exact rhs_down_0 _ _
    | ⟨1, _⟩ => exact (rhs_down_1 _ _).trans hk)
  rw [el, er]

/-- The body's value at (0, p, j): the hidden row p against row j of the weight block, times the routing weight of row p. -/
theorem down_pay_apply (h : Vec Ideal S1x1024x2816 .bf16) (w2 : Vec Ideal S1x256x2816 .f32) (s : Vec Ideal S1x1024x1 .f32)
    (p : Fin 1024) (j : Fin 256) :
    k1_pay1 h w2 s (ix3 (0 : Fin 1) p j)
      = (∑ n : Fin 2816, h (ix3 (0 : Fin 1) p n) * w2 (ix3 (0 : Fin 1) j n)) * s (ix3 (0 : Fin 1) p (0 : Fin 1)) := by
  unfold k1_pay1
  refine (addUnit3_apply _ _ p j).trans ?_
  refine (mulf_apply _ _ _).trans ?_
  refine congrArg₂ (· * ·) ((down_matmul_apply _ _ p j).trans (Finset.sum_congr rfl fun n _ => congrArg₂ (· * ·) ?_ ?_)) ?_
  · exact dropUnit3_apply _ _ p n
  · exact (truncf_apply (ψ := .bf16) _ bitsLt_bf16_f32 _).trans (dropUnit3_apply _ _ j n)
  · exact (broadcastCol_apply _ _ (by decide) p j).trans (dropUnit3_apply _ _ p (0 : Fin 1))

theorem hz3 : (![0, 0, 0] : Fin 3 → Nat) = fun _ => 0 := funext fun a => by fin_cases a <;> rfl

/-! ## One grid point's block -/

/-- What the body leaves at grid point (e, j), entry (·, p, r), when its three blocks are: the hidden group e, rows
    256 j … 256 j + 255 of expert T e's down weights, the routing weights of group e. It is pairOut at (e, p, 256 j + r). -/
theorem point_value (h : Vec Ideal S1x1024x2816 .bf16) (w2 : Vec Ideal S1x256x2816 .f32) (s : Vec Ideal S1x1024x1 .f32)
    (H : Hid.Idx → EReal) (W2 : Dn.Idx → EReal) (S : Rw.Idx → EReal) (T : Fin 8 → Fin 8) (e j : Fin 8)
    (hh : ∀ (p : Fin 1024) (n : Fin 2816), h (ix3 (0 : Fin 1) p n) = H (ix3 e p n))
    (hw : ∀ (r : Fin 256) (n : Fin 2816), w2 (ix3 (0 : Fin 1) r n) = W2 (ix3 (T e) ⟨j.val * 256 + r.val, by omega⟩ n))
    (hs : ∀ p : Fin 1024, s (ix3 (0 : Fin 1) p (0 : Fin 1)) = S (ix3 e p (0 : Fin 1)))
    (y0 : Fin 1) (p : Fin 1024) (r : Fin 256) :
    k1_pay1 (View.ld h (Rect.unit (s := S1x1024x2816) ![0, 0, 0] S1x1024x2816.size inb_S1x1024x2816_S1x1024x2816_0_0_0))
        (View.ld w2 (Rect.unit (s := S1x256x2816) ![0, 0, 0] S1x256x2816.size inb_S1x256x2816_S1x256x2816_0_0_0))
        (View.ld s (Rect.unit (s := S1x1024x1) ![0, 0, 0] S1x1024x1.size inb_S1x1024x1_S1x1024x1_0_0_0)) (ix3 y0 p r)
      = pairOut H W2 S T (ix3 e p ⟨j.val * 256 + r.val, by omega⟩) := by
  rw [View.ld_unit_zero (S := S1x1024x2816) hz3, View.ld_unit_zero (S := S1x256x2816) hz3, View.ld_unit_zero (S := S1x1024x1) hz3]
  have e0 : y0 = 0 := Subsingleton.elim _ _
  subst e0
  rw [down_pay_apply]
  show _ = (∑ n : Fin 2816, H (ix3 e p n) * W2 (ix3 (T e) ⟨j.val * 256 + r.val, _⟩ n)) * S (ix3 e p (0 : Fin 1))
  rw [hs]
  exact congrArg (· * _) (Finset.sum_congr rfl fun n _ => by rw [hh, hw])

/-! ## The grid and the index maps -/

/-- Point t of the 8 × 8 grid is (t / 8, t % 8). -/
theorem coords_val : ∀ t : Fin grid1.N, (grid1.coords t 0).val = t.val / 8 ∧ (grid1.coords t 1).val = t.val % 8 := by
  decide +kernel

theorem ofNat_toNat_lt8 (n : Nat) (h : n < 8) : (BitVec.ofNat 32 n).toNat = n := by
  rw [BitVec.toNat_ofNat]; exact Nat.mod_eq_of_lt (by omega)

/-- The hidden activations' and the routing weights' block index at (e, j) is (e, 0, 0). -/
theorem tf0 (i : grid1.Coords) : cc1_transform_0 i = ![(i 0).val, 0, 0] := by
  unfold cc1_transform_0
  show ![(BitVec.ofNat 32 (i 0).val).toNat, (0#32).toNat, (0#32).toNat] = _
  rw [ofNat_toNat_lt8 _ (show (i 0).val < 8 from (i 0).isLt)]; rfl

theorem tf2 (i : grid1.Coords) : cc1_transform_2 i = ![(i 0).val, 0, 0] := by
  unfold cc1_transform_2
  show ![(BitVec.ofNat 32 (i 0).val).toNat, (0#32).toNat, (0#32).toNat] = _
  rw [ofNat_toNat_lt8 _ (show (i 0).val < 8 from (i 0).isLt)]; rfl

/-- The output's block index at (e, j) is (e, 0, j). -/
theorem tf3 (i : grid1.Coords) : cc1_transform_3 i = ![(i 0).val, 0, (i 1).val] := by
  unfold cc1_transform_3
  show ![(BitVec.ofNat 32 (i 0).val).toNat, (0#32).toNat, (BitVec.ofNat 32 (i 1).val).toNat] = _
  rw [ofNat_toNat_lt8 _ (show (i 0).val < 8 from (i 0).isLt), ofNat_toNat_lt8 _ (show (i 1).val < 8 from (i 1).isLt)]; rfl

/-- The down weights' block index at (e, j) is (the table's word for group e, j, 0). -/
theorem tf1 (pf : pre1.Contents (Elt Ideal)) (i : grid1.Coords) :
    cc1_transform_1 Facts₀.k1_off1_inb Facts₀.numel1_S1 pf i = ![(pf 0 (ValueIdx.ix1 (i 0))).toNat, (i 1).val, 0] := by
  have h0 : (BitVec.ofNat 32 (i 0).val).toNat = (i 0).val := ofNat_toNat_lt8 _ (show (i 0).val < 8 from (i 0).isLt)
  have h1 : (BitVec.ofNat 32 (i 1).val).toNat = (i 1).val := ofNat_toNat_lt8 _ (show (i 1).val < 8 from (i 1).isLt)
  funext b
  match b with
  | ⟨0, _⟩ =>
    show (pf 0 ((Rect.unit (s := S8) ![(BitVec.ofNat 32 (i 0).val).toNat] S1.size (Facts₀.k1_off1_inb i)).emb (Shape.Idx.first _))).toNat
      = (pf 0 (ValueIdx.ix1 (i 0))).toNat
    refine congrArg (fun x => (pf 0 x).toNat) (funext fun d => Fin.ext ?_)
    match d with
    | ⟨0, _⟩ => show (BitVec.ofNat 32 (i 0).val).toNat + 1 * 0 = (i 0).val; rw [h0]; omega
  | ⟨1, _⟩ => exact h1
  | ⟨2, _⟩ => rfl

/-! ## What a grid point writes back -/

variable (a : (pcfg1 (F := Ideal)).Adm)
variable (V : (c : Dev nD) → (b : Ref sig .tc) → Buf (Elt Ideal) ((c : Thread nD τ).loc b))

theorem index0 (t : Fin (cfg1 a).N) : ((cfg1 a).win 0).index t = ![((cfg1 a).grid.coords t 0).val, 0, 0] := tf0 _
theorem index1 (t : Fin (cfg1 a).N) :
    ((cfg1 a).win 1).index t = ![(a.1 0 (ValueIdx.ix1 ((cfg1 a).grid.coords t 0))).toNat, ((cfg1 a).grid.coords t 1).val, 0] := tf1 a.1 _
theorem index2 (t : Fin (cfg1 a).N) : ((cfg1 a).win 2).index t = ![((cfg1 a).grid.coords t 0).val, 0, 0] := tf2 _
theorem index3 (t : Fin (cfg1 a).N) :
    ((cfg1 a).win 3).index t = ![((cfg1 a).grid.coords t 0).val, 0, ((cfg1 a).grid.coords t 1).val] := tf3 _

/-- What point t = (e, j) writes back is its block of pairOut: the three input blocks sit in their arrays at (e, ·, ·),
    (the table's word for e, 256 j + ·, ·) and (e, ·, 0), the output block at (e, ·, 256 j + ·). -/
theorem down_flushed (c : Dev nD) (hT : ∀ e : Fin 8, (a.1 0 (ValueIdx.ix1 e)).toNat < 8) (t : Fin (cfg1 a).N) :
    (ddat a V c).flushed 3 t = (((cfg1 a).win 3).blk t).view.read (Elt Ideal)
      (pairOut (V c main_v13) (V c main_arg3) (V c main_v12) (expertOf (a.1 0))) := by
  show ((cfg1 a).win 3).cut ((cfg1 a).grid.coords t) ((ddat a V c).after 3 t) = _
  rw [dafter3]
  unfold downOut
  rw [View.canon_unit_zero hz3]
  refine funext fun (y : S1x1024x256.Idx) => ?_
  have hy0 : (y 0).val < 1 := (y 0).isLt
  have hy1 : (y 1).val < 1024 := (y 1).isLt
  have hy2 : (y 2).val < 256 := (y 2).isLt
  have hx : ((cfg1 a).win 3).xinj ((cfg1 a).grid.coords t) y = ix3 (⟨(y 0).val, hy0⟩ : Fin 1) (⟨(y 1).val, hy1⟩ : Fin 1024) (⟨(y 2).val, hy2⟩ : Fin 256) :=
    funext fun b => by match b with | ⟨0, _⟩ => rfl | ⟨1, _⟩ => rfl | ⟨2, _⟩ => rfl
  have i0 := index0 a t
  have i1 := index1 a t
  have i2 := index2 a t
  have i3 := index3 a t
  show k1_pay1 (F := Ideal) _ _ _ (((cfg1 a).win 3).xinj ((cfg1 a).grid.coords t) y) = pairOut _ _ _ _ ((((cfg1 a).win 3).blk t).view.emb y)
  refine (congrArg _ hx).trans ?_
  refine (point_value (dblk a V c 0 t) (dblk a V c 1 t) (dblk a V c 2 t) (V c main_v13) (V c main_arg3) (V c main_v12) (expertOf (a.1 0))
    ((cfg1 a).grid.coords t 0) ((cfg1 a).grid.coords t 1) ?hh ?hw ?hs _ _ _).trans ?_
  case hh =>
    intro p n
    show V c main_v13 ((((cfg1 a).win 0).blk t).view.emb (ix3 (0 : Fin 1) p n)) = _
    refine congrArg (V c main_v13) (funext fun b => Fin.ext ?_)
    match b with
    | ⟨0, _⟩ => show ((cfg1 a).win 0).index t (0 : Fin 3) * 1 + 1 * 0 = ((cfg1 a).grid.coords t 0).val; rw [i0]; show ((cfg1 a).grid.coords t 0).val * 1 + 1 * 0 = _; omega
    | ⟨1, _⟩ => show ((cfg1 a).win 0).index t (1 : Fin 3) * 1024 + 1 * p.val = p.val; rw [i0]; show 0 * 1024 + 1 * p.val = _; omega
    | ⟨2, _⟩ => show ((cfg1 a).win 0).index t (2 : Fin 3) * 2816 + 1 * n.val = n.val; rw [i0]; show 0 * 2816 + 1 * n.val = _; omega
  case hw =>
    intro r n
    have hE := expertOf_val (a.1 0) ((cfg1 a).grid.coords t 0) (hT _)
    show V c main_arg3 ((((cfg1 a).win 1).blk t).view.emb (ix3 (0 : Fin 1) r n)) = _
    refine congrArg (V c main_arg3) (funext fun b => Fin.ext ?_)
    match b with
    | ⟨0, _⟩ =>
      show ((cfg1 a).win 1).index t (0 : Fin 3) * 1 + 1 * 0 = (expertOf (a.1 0) ((cfg1 a).grid.coords t 0)).val
      rw [i1, hE]; show (a.1 0 (ValueIdx.ix1 ((cfg1 a).grid.coords t 0))).toNat * 1 + 1 * 0 = _; omega
    | ⟨1, _⟩ => show ((cfg1 a).win 1).index t (1 : Fin 3) * 256 + 1 * r.val = ((cfg1 a).grid.coords t 1).val * 256 + r.val; rw [i1]; show ((cfg1 a).grid.coords t 1).val * 256 + 1 * r.val = _; omega
    | ⟨2, _⟩ => show ((cfg1 a).win 1).index t (2 : Fin 3) * 2816 + 1 * n.val = n.val; rw [i1]; show 0 * 2816 + 1 * n.val = _; omega
  case hs =>
    intro p
    show V c main_v12 ((((cfg1 a).win 2).blk t).view.emb (ix3 (0 : Fin 1) p (0 : Fin 1))) = _
    refine congrArg (V c main_v12) (funext fun b => Fin.ext ?_)
    match b with
    | ⟨0, _⟩ => show ((cfg1 a).win 2).index t (0 : Fin 3) * 1 + 1 * 0 = ((cfg1 a).grid.coords t 0).val; rw [i2]; show ((cfg1 a).grid.coords t 0).val * 1 + 1 * 0 = _; omega
    | ⟨1, _⟩ => show ((cfg1 a).win 2).index t (1 : Fin 3) * 1024 + 1 * p.val = p.val; rw [i2]; show 0 * 1024 + 1 * p.val = _; omega
    | ⟨2, _⟩ => show ((cfg1 a).win 2).index t (2 : Fin 3) * 1 + 1 * 0 = 0; rw [i2]; rfl
  refine congrArg (pairOut (V c main_v13) (V c main_arg3) (V c main_v12) (expertOf (a.1 0))) (funext fun b => Fin.ext ?_)
  match b with
  | ⟨0, _⟩ => show ((cfg1 a).grid.coords t 0).val = ((cfg1 a).win 3).index t (0 : Fin 3) * 1 + 1 * (y 0).val; rw [i3]; show _ = ((cfg1 a).grid.coords t 0).val * 1 + 1 * (y 0).val; omega
  | ⟨1, _⟩ => show (y 1).val = ((cfg1 a).win 3).index t (1 : Fin 3) * 1024 + 1 * (y 1).val; rw [i3]; show _ = 0 * 1024 + 1 * (y 1).val; omega
  | ⟨2, _⟩ => show ((cfg1 a).grid.coords t 1).val * 256 + (y 2).val = ((cfg1 a).win 3).index t (2 : Fin 3) * 256 + 1 * (y 2).val; rw [i3]; show _ = ((cfg1 a).grid.coords t 1).val * 256 + 1 * (y 2).val; omega

/-! ## The blocks tile the array -/

/-- An index of the array is in point t's block iff each coordinate is in the block's range on its axis. -/
theorem mem_blk3 (t : Fin (cfg1 a).N) (i : Tok.Idx) :
    i ∈ (((cfg1 a).win 3).blk t).view.set ↔ ∀ b : Fin 3, ((cfg1 a).win 3).index t b * S1x1024x256.size b ≤ (i b).val
      ∧ (i b).val < ((cfg1 a).win 3).index t b * S1x1024x256.size b + S1x1024x256.size b := by
  have e : (((cfg1 a).win 3).blk t).view.set = (((cfg1 a).win 3).rect t).set :=
    View.set_slice_whole main_v14 (((cfg1 a).win 3).rect t)
  rw [e]
  exact Rect.mem_set_unit

/-- Every point writes its block back: consecutive points have different output blocks. -/
theorem flush3 (t : Fin (cfg1 a).N) : ((cfg1 a).win 3).flush t = true := by
  have hN : (cfg1 a).N = 64 := N_1
  have ht : t.val < 64 := hN ▸ t.isLt
  unfold Window.flush
  rw [Bool.and_eq_true]
  refine ⟨rfl, ?_⟩
  rw [Bool.or_eq_true, decide_eq_true_eq, decide_eq_true_eq]
  by_cases h : t.val + 1 = (cfg1 a).grid.N
  · exact Or.inl h
  · have h' : t.val + 1 < (cfg1 a).grid.N := by
      have : (cfg1 a).grid.N = 64 := N_1
      omega
    refine Or.inr ⟨h', fun e => ?_⟩
    rw [index3, index3] at e
    have e0 : ((cfg1 a).grid.coords ⟨t.val + 1, h'⟩ 0).val = ((cfg1 a).grid.coords t 0).val := congrFun e 0
    have e2 : ((cfg1 a).grid.coords ⟨t.val + 1, h'⟩ 1).val = ((cfg1 a).grid.coords t 1).val := congrFun e 2
    have c1 : ((cfg1 a).grid.coords ⟨t.val + 1, h'⟩ 0).val = (t.val + 1) / 8 ∧ ((cfg1 a).grid.coords ⟨t.val + 1, h'⟩ 1).val = (t.val + 1) % 8 := coords_val ⟨t.val + 1, h'⟩
    have c0 : ((cfg1 a).grid.coords t 0).val = t.val / 8 ∧ ((cfg1 a).grid.coords t 1).val = t.val % 8 := coords_val t
    omega

/-- Index (e, p, k) of the array is in the block of point (e, k / 256). -/
theorem down_cover (i : Tok.Idx) : ∃ t : Fin (cfg1 a).N, ((cfg1 a).win 3).flush t = true ∧ i ∈ (((cfg1 a).win 3).blk t).view.set := by
  have h0 : (i 0).val < 8 := (i 0).isLt
  have h1 : (i 1).val < 1024 := (i 1).isLt
  have h2 : (i 2).val < 2048 := (i 2).isLt
  have hN : (cfg1 a).N = 64 := N_1
  obtain ⟨t, ht⟩ : ∃ t : Fin (cfg1 a).N, t.val = (i 0).val * 8 + (i 2).val / 256 := ⟨⟨(i 0).val * 8 + (i 2).val / 256, by rw [hN]; omega⟩, rfl⟩
  refine ⟨t, flush3 a t, ?_⟩
  rw [mem_blk3]
  have c0 : ((cfg1 a).grid.coords t 0).val = t.val / 8 ∧ ((cfg1 a).grid.coords t 1).val = t.val % 8 := coords_val t
  have i3 := index3 a t
  intro b
  match b with
  | ⟨0, _⟩ =>
    show ((cfg1 a).win 3).index t (0 : Fin 3) * 1 ≤ (i 0).val ∧ (i 0).val < ((cfg1 a).win 3).index t (0 : Fin 3) * 1 + 1
    rw [i3]; show ((cfg1 a).grid.coords t 0).val * 1 ≤ (i 0).val ∧ (i 0).val < ((cfg1 a).grid.coords t 0).val * 1 + 1; omega
  | ⟨1, _⟩ =>
    show ((cfg1 a).win 3).index t (1 : Fin 3) * 1024 ≤ (i 1).val ∧ (i 1).val < ((cfg1 a).win 3).index t (1 : Fin 3) * 1024 + 1024
    rw [i3]; show 0 * 1024 ≤ (i 1).val ∧ (i 1).val < 0 * 1024 + 1024; omega
  | ⟨2, _⟩ =>
    show ((cfg1 a).win 3).index t (2 : Fin 3) * 256 ≤ (i 2).val ∧ (i 2).val < ((cfg1 a).win 3).index t (2 : Fin 3) * 256 + 256
    rw [i3]; show ((cfg1 a).grid.coords t 1).val * 256 ≤ (i 2).val ∧ (i 2).val < ((cfg1 a).grid.coords t 1).val * 256 + 256; omega

/-! ## The array -/

/-- After the down-projection launch the per-pair output array holds `pairOut` of the launch's three input arrays, the
    expert of each group read off the table (every entry of which names an expert: `hT`). -/
theorem down_array (a : (pcfg1 (F := Ideal)).Adm)
    (V : (c : Dev nD) → (b : Ref sig .tc) → Buf (Elt Ideal) ((c : Thread nD τ).loc b)) (c : Dev nD)
    (hT : ∀ e : Fin 8, (a.1 0 (ValueIdx.ix1 e)).toNat < 8) :
    ((ddat a V c).arrAt 3 (cfg1 a).N : Tok.Idx → EReal)
      = pairOut (V c main_v13) (V c main_arg3) (V c main_v12) (expertOf (a.1 0)) :=
  (ddat a V c).arrAt_eq_of_cover 3 (pairOut (V c main_v13) (V c main_arg3) (V c main_v12) (expertOf (a.1 0)))
    (fun t _ => down_flushed a V c hT t) (down_cover a)

end Cert.KernelIdeal.Hand

end
-- ==== Proof.KernelResultI.lean ====
/-
  The idealized kernel's result as one function of the arguments. Under an admissible table whose entries name
  experts, the per-token result is the accumulating scatter, at the token ids, of
      pairOut (hidden (token rows) W1 W3 T) W2 (routing weights) T,      T = the table's group-to-expert map:
  the gate launch's array is `hidden` of what the first host stretch and the arguments put in its windows, the down
  launch's array is `pairOut` of that and of its other windows, and the last stretch scatters it.
-/
import proofs.«429380_j12086037971139_2_alg».proof.Proof.HostI
import proofs.«429380_j12086037971139_2_alg».proof.Proof.GateValI
import proofs.«429380_j12086037971139_2_alg».proof.Proof.DownValI

set_option maxRecDepth 16384

noncomputable section

namespace Cert.KernelIdeal.Hand

open Idealize.ShloMosaic Idealize.ShloMosaic.TcCoe
open Idealize.SL Idealize.SL.Sem
open Cert.KernelIdeal Cert.KernelIdeal.Gen Cert.MoeSpec

/-- The hidden activations the down launch is entered with. -/
theorem hidden_at_entry (m : (ℓ : Loc nD τ sig) → Buf (Elt Ideal) ℓ) (hok : TblOk m)
    (hT : ∀ e : Fin 8, (tbl m 0 (ValueIdx.ix1 e)).toNat < 8) (c : Dev nD) :
    (ent1 m hok c main_v13 : Hid.Idx → EReal)
      = hidden (tokRows (F := Ideal) (m ((c : Thread nD τ).loc main_arg0)) (m ((c : Thread nD τ).loc main_arg5)))
          (m ((c : Thread nD τ).loc main_arg1)) (m ((c : Thread nD τ).loc main_arg2)) (expertOf (tbl m 0)) := by
  rw [ent1_hidden]
  refine (gate_array (a0 m hok) (ent0 m) c hT).trans ?_
  rw [ent0_tokens, ent0_of m c main_arg1 (by decide), ent0_of m c main_arg2 (by decide)]

/-- The result buffer at the return. -/
theorem kernel_result (m : (ℓ : Loc nD τ sig) → Buf (Elt Ideal) ℓ) (hok : TblOk m)
    (hT : ∀ e : Fin 8, (tbl m 0 (ValueIdx.ix1 e)).toNat < 8) (c : Dev nD) :
    W4 m hok c (Proc.devRef .tc main_v23)
      = scatterBack (F := Ideal) (m ((c : Thread nD τ).loc main_arg5))
          (pairOut (hidden (tokRows (F := Ideal) (m ((c : Thread nD τ).loc main_arg0)) (m ((c : Thread nD τ).loc main_arg5)))
              (m ((c : Thread nD τ).loc main_arg1)) (m ((c : Thread nD τ).loc main_arg2)) (expertOf (tbl m 0)))
            (m ((c : Thread nD τ).loc main_arg3)) (routeW (F := Ideal) (m ((c : Thread nD τ).loc main_arg4))) (expertOf (tbl m 0))) := by
  rw [W4_result, ext1_ids]
  refine congrArg (scatterBack (F := Ideal) _) ?_
  rw [ext1_pairs]
  refine (down_array (a1 m hok) (ent1 m hok) c hT).trans ?_
  have h3 : ent1 m hok c main_arg3 = m ((c : Thread nD τ).loc main_arg3) :=
    (ent1_of m hok c main_arg3 (by decide)).trans (ent0_of m c main_arg3 (by decide))
  have h12 : ent1 m hok c main_v12 = routeW (F := Ideal) (m ((c : Thread nD τ).loc main_arg4)) :=
    (ent1_of m hok c main_v12 (by decide)).trans (ent0_route m c)
  rw [hidden_at_entry m hok hT c, h3, h12]

end Cert.KernelIdeal.Hand

end
-- ==== Proof.RefValI.lean ====
/-
  The reference's per-pair outputs, read back at Ideal. The reference gathers each group's expert weights
  (`W[eids]`, a gather of whole 2816 × 2048 or 2048 × 2816 slabs along the expert axis), contracts the token rows with
  them (two batched products over the hidden dimension), applies the logistic as 1 / (1 + e⁻ˣ), multiplies, contracts
  with the down weights and scales by the routing weight. When every entry of the group-to-expert table names an expert
  (0 … 7) the index normalisation `i < 0 ? i + 8 : i` and the gather's clamp are the identity, and the whole is the
  specification's `pairOut (hidden …)`.
-/
import proofs.«429380_j12086037971139_2_alg».proof.Proof.Gen.ReferenceIdeal.Run
import proofs.«429380_j12086037971139_2_alg».proof.Proof.Gen.ReferenceIdeal.Read
import proofs.«429380_j12086037971139_2_alg».proof.Proof.MoeSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.StableHlo.Predicate

set_option maxRecDepth 16384

noncomputable section

open scoped BigOperators

namespace Cert.ReferenceIdeal.RefValue

open Cert.ReferenceIdeal Cert.ReferenceIdeal.Gen Cert.ReferenceIdeal.Read Cert.MoeSpec
open Idealize.ShloMosaic Idealize.ShloMosaic.ValueIdx
open Idealize.ShloMosaic.StableHlo.Predicate (ixP slt_iff_toNat toInt_eq_toNat_of_lt)

/-! ## A gather of whole slabs along the first axis, read at an element -/

/-- The slab gather's dimension numbers, read at result index (e, r, c): the operand's first coordinate is the e-th
    start index read signed and clamped into 0 … N − 1 (the slice is one slab thick), its other two coordinates are r and c
    (the slice starts at 0 on both, and the result's last two axes are the offsets along them). -/
theorem gather_slabs_coords {N R C n w : Nat}
    (d : GatherDims ⟨3, ![N, R, C]⟩ ⟨2, ![n, 1]⟩ ⟨3, ![n, R, C]⟩)
    (hod : d.offsetDims = [1, 2]) (hcoll : d.collapsedSliceDims = [0]) (hob : d.operandBatchingDims = [])
    (hsim : d.startIndexMap = [0]) (hivd : d.indexVectorDim = 1)
    (idx : IVec ⟨2, ![n, 1]⟩ w) (e : Fin n) (r : Fin R) (c : Fin C) :
    (d.operandIdx (ix3 e r c) idx 0).val = min (idx (ixP e)).toInt.toNat (N - 1)
    ∧ (d.operandIdx (ix3 e r c) idx 1).val = r.val
    ∧ (d.operandIdx (ix3 e r c) idx 2).val = c.val := by
  have hsl : d.sliceSizes 0 = 1 := d.slice_collapsed 0 (by rw [hcoll]; exact List.mem_singleton.mpr rfl)
  obtain ⟨od, cd, ob, sb, sm, ivd, ss, wf⟩ := d
  simp only at hod hcoll hob hsim hivd hsl
  subst hod hcoll hob hsim hivd
  refine ⟨?_, ?_, ?_⟩
  · show GatherDims.start _ (ix3 e r c) idx 0 + GatherDims.batchCoord _ (ix3 e r c) 0 + GatherDims.offCoord _ (ix3 e r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min _ (N - ss 0) = _
    rw [hsl]
    congr 3
    congr 1
    funext b
    match b with
    | ⟨0, _⟩ => rfl
    | ⟨1, _⟩ => rfl
  · show GatherDims.start _ (ix3 e r c) idx 1 + GatherDims.batchCoord _ (ix3 e r c) 1 + GatherDims.offCoord _ (ix3 e r c) 1 = _
    rw [GatherDims.batchCoord_eq_zero _ _ _ List.not_mem_nil]
    have hst : GatherDims.start ⟨[1, 2], [0], [], sb, [0], 1, ss, wf⟩ (ix3 e r c) idx 1 = 0 := rfl
    have hof : GatherDims.offCoord ⟨[1, 2], [0], [], sb, [0], 1, ss, wf⟩ (ix3 e r c) 1 = r.val := rfl
    rw [hst, hof]
    omega
  · show GatherDims.start _ (ix3 e r c) idx 2 + GatherDims.batchCoord _ (ix3 e r c) 2 + GatherDims.offCoord _ (ix3 e r c) 2 = _
    rw [GatherDims.batchCoord_eq_zero _ _ _ List.not_mem_nil]
    have hst : GatherDims.start ⟨[1, 2], [0], [], sb, [0], 1, ss, wf⟩ (ix3 e r c) idx 2 = 0 := rfl
    have hof : GatherDims.offCoord ⟨[1, 2], [0], [], sb, [0], 1, ss, wf⟩ (ix3 e r c) 2 = c.val := rfl
    rw [hst, hof]
    omega

/-- THE SLAB GATHER READ AT (e, r, c): the table's slab named by the e-th start index, read SIGNED and CLAMPED into the
    slabs 0 … N − 1, at row r and column c. -/
theorem gather_slabs_apply {α : Type} {N R C n w : Nat} (hN : 0 < N)
    (d : GatherDims ⟨3, ![N, R, C]⟩ ⟨2, ![n, 1]⟩ ⟨3, ![n, R, C]⟩)
    (hod : d.offsetDims = [1, 2]) (hcoll : d.collapsedSliceDims = [0]) (hob : d.operandBatchingDims = [])
    (hsim : d.startIndexMap = [0]) (hivd : d.indexVectorDim = 1)
    (x : (⟨3, ![N, R, C]⟩ : Shape).Idx → α) (idx : IVec ⟨2, ![n, 1]⟩ w) (e : Fin n) (r : Fin R) (c : Fin C) :
    Host.gather d x idx (ix3 e r c) = x (ix3 (⟨min (idx (ixP e)).toInt.toNat (N - 1), by omega⟩ : Fin N) r c) := by
  obtain ⟨h0, h1, h2⟩ := gather_slabs_coords d hod hcoll hob hsim hivd idx e r c
  unfold Host.gather
  congr 1
  funext a
  apply Fin.ext
  match a with
  | ⟨0, _⟩ => exact h0
  | ⟨1, _⟩ => exact h1
  | ⟨2, _⟩ => exact h2

/-! ## The start-index words under the range precondition -/

/-- A table word that names an expert (below 8) is not negative as a signed word, so the normalisation
    `v < 0 ? a : v` keeps it. -/
theorem norm_word (v a : BitVec 32) (hv : v.toNat < 8) :
    Scalar.select (IntOp.cmpi .slt v 0#32) a v = v := by
  have h : ¬ IntOp.cmpi .slt v 0#32 = 1#1 := by
    rw [slt_iff_toNat (by omega) (by simp)]
    simp
  rw [eq_zero_of_ne_one h, select_zero]

/-- A word below 8, read signed and clamped into 0 … 7, is the expert the table names. -/
theorem clamp_expert (tab : (⟨1, ![8]⟩ : Shape).Idx → BitVec 32) (e : Fin 8) (h : (tab (ValueIdx.ix1 e)).toNat < 8)
    (hlt : min (tab (ValueIdx.ix1 e)).toInt.toNat (8 - 1) < 8) :
    (⟨min (tab (ValueIdx.ix1 e)).toInt.toNat (8 - 1), hlt⟩ : Fin 8) = expertOf tab e := by
  apply Fin.ext
  show min (tab (ValueIdx.ix1 e)).toInt.toNat (8 - 1) = (tab (ValueIdx.ix1 e)).toNat % 8
  rw [toInt_eq_toNat_of_lt (by omega), Int.toNat_natCast]
  omega

/-- The first gather's start index for group e is the table's word. -/
theorem word16 (x6 : (⟨S8192, .i32⟩ : BufTy).Contents (Elt Ideal)) (e : Fin 8)
    (h : (val_main_v2 (F := Ideal) x6 (ValueIdx.ix1 e)).toNat < 8) :
    val_main_v16 (F := Ideal) x6 (ixP e) = val_main_v2 (F := Ideal) x6 (ValueIdx.ix1 e) := by
  have hi : idx_main_v16 (ixP e) = ValueIdx.ix1 e := by
    funext a; match a with | ⟨0, _⟩ => rfl
  rw [val_main_v16_apply, hi, val_main_v15_apply, val_main_v12_apply, val_main_v11_apply, val_main_c_1_apply]
  exact norm_word _ _ h

/-- The second gather's start index for group e is the table's word. -/
theorem word24 (x6 : (⟨S8192, .i32⟩ : BufTy).Contents (Elt Ideal)) (e : Fin 8)
    (h : (val_main_v2 (F := Ideal) x6 (ValueIdx.ix1 e)).toNat < 8) :
    val_main_v24 (F := Ideal) x6 (ixP e) = val_main_v2 (F := Ideal) x6 (ValueIdx.ix1 e) := by
  have hi : idx_main_v24 (ixP e) = ValueIdx.ix1 e := by
    funext a; match a with | ⟨0, _⟩ => rfl
  rw [val_main_v24_apply, hi, val_main_v23_apply, val_main_v20_apply, val_main_v19_apply, val_main_c_3_apply]
  exact norm_word _ _ h

/-- The third gather's start index for group e is the table's word. -/
theorem word39 (x6 : (⟨S8192, .i32⟩ : BufTy).Contents (Elt Ideal)) (e : Fin 8)
    (h : (val_main_v2 (F := Ideal) x6 (ValueIdx.ix1 e)).toNat < 8) :
    val_main_v39 (F := Ideal) x6 (ixP e) = val_main_v2 (F := Ideal) x6 (ValueIdx.ix1 e) := by
  have hi : idx_main_v39 (ixP e) = ValueIdx.ix1 e := by
    funext a; match a with | ⟨0, _⟩ => rfl
  rw [val_main_v39_apply, hi, val_main_v38_apply, val_main_v35_apply, val_main_v34_apply, val_main_c_6_apply]
  exact norm_word _ _ h

/-! ## The three gathered weight tables at an element -/

/-- The gathered gate weights: group e reads the slab of the expert its table word names. -/
theorem v17_at (x1 : (⟨S8x2816x2048, .f32⟩ : BufTy).Contents (Elt Ideal)) (x6 : (⟨S8192, .i32⟩ : BufTy).Contents (Elt Ideal))
    (hT : ∀ e : Fin 8, (val_main_v2 (F := Ideal) x6 (ValueIdx.ix1 e)).toNat < 8) (e : Fin 8) (n : Fin 2816) (k : Fin 2048) :
    val_main_v17 (F := Ideal) x1 x6 (ix3 e n k) = x1 (ix3 (expertOf (val_main_v2 (F := Ideal) x6) e) n k) := by
  unfold val_main_v17
  rw [gather_slabs_apply (N := 8) (w := 32) (by decide) _ rfl rfl rfl rfl rfl]
  simp only [word16 x6 e (hT e)]
  rw [clamp_expert _ e (hT e)]

/-- The gathered up weights, likewise. -/
theorem v25_at (x2 : (⟨S8x2816x2048, .f32⟩ : BufTy).Contents (Elt Ideal)) (x6 : (⟨S8192, .i32⟩ : BufTy).Contents (Elt Ideal))
    (hT : ∀ e : Fin 8, (val_main_v2 (F := Ideal) x6 (ValueIdx.ix1 e)).toNat < 8) (e : Fin 8) (n : Fin 2816) (k : Fin 2048) :
    val_main_v25 (F := Ideal) x2 x6 (ix3 e n k) = x2 (ix3 (expertOf (val_main_v2 (F := Ideal) x6) e) n k) := by
  unfold val_main_v25
  rw [gather_slabs_apply (N := 8) (w := 32) (by decide) _ rfl rfl rfl rfl rfl]
  simp only [word24 x6 e (hT e)]
  rw [clamp_expert _ e (hT e)]

/-- The gathered down weights, likewise. -/
theorem v40_at (x3 : (⟨S8x2048x2816, .f32⟩ : BufTy).Contents (Elt Ideal)) (x6 : (⟨S8192, .i32⟩ : BufTy).Contents (Elt Ideal))
    (hT : ∀ e : Fin 8, (val_main_v2 (F := Ideal) x6 (ValueIdx.ix1 e)).toNat < 8) (e : Fin 8) (j : Fin 2048) (n : Fin 2816) :
    val_main_v40 (F := Ideal) x3 x6 (ix3 e j n) = x3 (ix3 (expertOf (val_main_v2 (F := Ideal) x6) e) j n) := by
  unfold val_main_v40
  rw [gather_slabs_apply (N := 8) (w := 32) (by decide) _ rfl rfl rfl rfl rfl]
  simp only [word39 x6 e (hT e)]
  rw [clamp_expert _ e (hT e)]

/-! ## The index maps of the three contractions, by coordinates -/

theorem lidx18_eq (e : Fin 8) (p : Fin 1024) (n : Fin 2816) (k : Fin 2048) :
    lidx_main_v18 (ix3 e p n) k = ix3 e p k := by
  funext a; match a with | ⟨0, _⟩ => rfl | ⟨1, _⟩ => rfl | ⟨2, _⟩ => rfl
theorem ridx18_eq (e : Fin 8) (p : Fin 1024) (n : Fin 2816) (k : Fin 2048) :
    ridx_main_v18 (ix3 e p n) k = ix3 e n k := by
  funext a; match a with | ⟨0, _⟩ => rfl | ⟨1, _⟩ => rfl | ⟨2, _⟩ => rfl
theorem lidx26_eq (e : Fin 8) (p : Fin 1024) (n : Fin 2816) (k : Fin 2048) :
    lidx_main_v26 (ix3 e p n) k = ix3 e p k := by
  funext a; match a with | ⟨0, _⟩ => rfl | ⟨1, _⟩ => rfl | ⟨2, _⟩ => rfl
theorem ridx26_eq (e : Fin 8) (p : Fin 1024) (n : Fin 2816) (k : Fin 2048) :
    ridx_main_v26 (ix3 e p n) k = ix3 e n k := by
  funext a; match a with | ⟨0, _⟩ => rfl | ⟨1, _⟩ => rfl | ⟨2, _⟩ => rfl
theorem lidx41_eq (e : Fin 8) (p : Fin 1024) (j : Fin 2048) (n : Fin 2816) :
    lidx_main_v41 (ix3 e p j) n = ix3 e p n := by
  funext a; match a with | ⟨0, _⟩ => rfl | ⟨1, _⟩ => rfl | ⟨2, _⟩ => rfl
theorem ridx41_eq (e : Fin 8) (p : Fin 1024) (j : Fin 2048) (n : Fin 2816) :
    ridx_main_v41 (ix3 e p j) n = ix3 e j n := by
  funext a; match a with | ⟨0, _⟩ => rfl | ⟨1, _⟩ => rfl | ⟨2, _⟩ => rfl
theorem idx43_eq (e : Fin 8) (p : Fin 1024) (j : Fin 2048) :
    idx_main_v43 (ix3 e p j) = ix3 e p (0 : Fin 1) := by
  funext a; match a with | ⟨0, _⟩ => rfl | ⟨1, _⟩ => rfl | ⟨2, _⟩ => rfl

/-! ## The hidden activations -/

/-- The reference's gated hidden activation at (e, p, n), when the table names experts: the logistic, spelled
    1 / (1 + e⁻ˣ), of the gate projection times the up projection, both with the weights of the expert group e's word names. -/
theorem ref_hidden_at (x0 : (⟨S4096x2048, .f32⟩ : BufTy).Contents (Elt Ideal)) (x1 x2 : (⟨S8x2816x2048, .f32⟩ : BufTy).Contents (Elt Ideal))
    (x5 x6 : (⟨S8192, .i32⟩ : BufTy).Contents (Elt Ideal))
    (hT : ∀ e : Fin 8, (val_main_v2 (F := Ideal) x6 (ValueIdx.ix1 e)).toNat < 8) (e : Fin 8) (p : Fin 1024) (n : Fin 2816) :
    val_main_v33 (F := Ideal) x0 x1 x2 x5 x6 (ix3 e p n)
      = hidden (val_main_v10 (F := Ideal) x0 x5) x1 x2 (expertOf (val_main_v2 (F := Ideal) x6)) (ix3 e p n) := by
  have h18 : val_main_v18 (F := Ideal) x0 x1 x5 x6 (ix3 e p n)
      = ∑ k : Fin 2048, val_main_v10 (F := Ideal) x0 x5 (ix3 e p k)
          * x1 (ix3 (expertOf (val_main_v2 (F := Ideal) x6) e) n k) := by
    rw [val_main_v18_apply]
    refine Finset.sum_congr rfl fun k _ => ?_
    rw [lidx18_eq, ridx18_eq, v17_at x1 x6 hT]
  have h26 : val_main_v26 (F := Ideal) x0 x2 x5 x6 (ix3 e p n)
      = ∑ k : Fin 2048, val_main_v10 (F := Ideal) x0 x5 (ix3 e p k)
          * x2 (ix3 (expertOf (val_main_v2 (F := Ideal) x6) e) n k) := by
    rw [val_main_v26_apply]
    refine Finset.sum_congr rfl fun k _ => ?_
    rw [lidx26_eq, ridx26_eq, v25_at x2 x6 hT]
  rw [val_main_v33_apply, val_main_v32_apply, val_main_v31_apply, val_main_cst_5_apply, val_main_v30_apply,
    val_main_v29_apply, val_main_cst_apply, val_main_v28_apply, val_main_v27_apply, h18, h26]
  simp only [Ideal.mulf_def, Ideal.hostDivf_def, Ideal.addf_def, Ideal.hostUnary_exp_def, Ideal.hostNegf_def,
    Ideal.negf_def, Ideal.ofBits_def, Ideal.ofBits_one_f32]
  rfl

/-- The reference's scaled down projection is the specification's, when the table names experts. -/
theorem ref_pairs (x0 : (⟨S4096x2048, .f32⟩ : BufTy).Contents (Elt Ideal)) (x1 x2 : (⟨S8x2816x2048, .f32⟩ : BufTy).Contents (Elt Ideal))
    (x3 : (⟨S8x2048x2816, .f32⟩ : BufTy).Contents (Elt Ideal)) (x4 : (⟨S8192, .f32⟩ : BufTy).Contents (Elt Ideal))
    (x5 x6 : (⟨S8192, .i32⟩ : BufTy).Contents (Elt Ideal))
    (hT : ∀ e : Fin 8, (val_main_v2 (F := Ideal) x6 (ValueIdx.ix1 e)).toNat < 8) :
    (val_main_v44 (F := Ideal) x0 x1 x2 x3 x4 x5 x6 : Tok.Idx → EReal)
      = pairOut (hidden (val_main_v10 (F := Ideal) x0 x5) x1 x2 (expertOf (val_main_v2 (F := Ideal) x6))) x3
          (val_main_v42 (F := Ideal) x4) (expertOf (val_main_v2 (F := Ideal) x6)) := by
  funext i
  obtain ⟨e, p, j, rfl⟩ : ∃ (e : Fin 8) (p : Fin 1024) (j : Fin 2048), i = ix3 e p j := ⟨i 0, i 1, i 2, eq_ix3 i⟩
  have h41 : val_main_v41 (F := Ideal) x0 x1 x2 x3 x5 x6 (ix3 e p j)
      = ∑ n : Fin 2816, hidden (val_main_v10 (F := Ideal) x0 x5) x1 x2 (expertOf (val_main_v2 (F := Ideal) x6)) (ix3 e p n)
          * x3 (ix3 (expertOf (val_main_v2 (F := Ideal) x6) e) j n) := by
    rw [val_main_v41_apply]
    refine Finset.sum_congr rfl fun n _ => ?_
    rw [lidx41_eq, ridx41_eq, v40_at x3 x6 hT, ref_hidden_at x0 x1 x2 x5 x6 hT]
  rw [val_main_v44_apply, h41, val_main_v43_apply, idx43_eq]
  rfl

end Cert.ReferenceIdeal.RefValue

end
-- ==== Proof.TblOkI.lean ====
/-
  A table whose eight entries all name an expert keeps every table-indexed weight block inside its array: the block of
  256 rows of expert `table[e]` at row-block `j` ends at `(table[e] + 1) · 1 ≤ 8` on the expert axis, `(j + 1) · 256` on the
  row axis (`j < 11` of 2816 rows for the gate and up weights, `j < 8` of 2048 rows for the down weights), and spans the
  whole last axis; its elements are 32-bit words, so its ends are word-exact. For any float instance.
-/
import proofs.«429380_j12086037971139_2_alg».proof.Proof.RunI
import Idealize.ShloMosaic.Lib.ValueIdx

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- A number below 2³² written as a 32-bit word reads back as itself. -/
theorem toNat_ofNat_small (n : Nat) (hn : n < 2 ^ 32) : (BitVec.ofNat 32 n).toNat = n := by
  rw [BitVec.toNat_ofNat]; exact Nat.mod_eq_of_lt hn

/-- The one element of the one-entry window at offset `n` of the eight-entry table is entry `n`. -/
theorem unit_emb_first (n : Fin 8) (off : Fin 1 → Nat) (hoff : off 0 = n.val) (inb : ∀ a, off a + S1.size a ≤ S8.size a)
    (h1 : 0 < (Rect.unit (s := S8) off S1.size inb).shape.numel) :
    (Rect.unit (s := S8) off S1.size inb).emb (Shape.Idx.first h1) = ValueIdx.ix1 n := by
  funext a
  match a with
  | ⟨0, _⟩ =>
    apply Fin.ext
    show off 0 + 1 * 0 = n.val
    omega

/-! ## The three coordinates of each table-indexed block: (table entry, row-block, 0) -/

theorem cc0_transform_1_zero (pf : pre0.Contents (Elt F)) (i : grid0.Coords) :
    cc0_transform_1 Facts₀.k0_off1_inb Facts₀.numel1_S1 pf i 0 = (pf 0 (ValueIdx.ix1 (i 0))).toNat := by
  have h8 : (i 0).val < 8 := (i 0).isLt
  exact congrArg (fun x => (pf 0 x).toNat)
    (unit_emb_first (i 0) _ (toNat_ofNat_small _ (by omega)) _ _)

theorem cc0_transform_1_one (pf : pre0.Contents (Elt F)) (i : grid0.Coords) :
    cc0_transform_1 Facts₀.k0_off1_inb Facts₀.numel1_S1 pf i 1 = (i 1).val := by
  have h11 : (i 1).val < 11 := (i 1).isLt
  exact toNat_ofNat_small _ (by omega)

theorem cc0_transform_1_two (pf : pre0.Contents (Elt F)) (i : grid0.Coords) :
    cc0_transform_1 Facts₀.k0_off1_inb Facts₀.numel1_S1 pf i 2 = 0 := rfl

theorem cc0_transform_2_zero (pf : pre0.Contents (Elt F)) (i : grid0.Coords) :
    cc0_transform_2 Facts₀.k0_off1_inb Facts₀.numel1_S1 pf i 0 = (pf 0 (ValueIdx.ix1 (i 0))).toNat := by
  have h8 : (i 0).val < 8 := (i 0).isLt
  exact congrArg (fun x => (pf 0 x).toNat)
    (unit_emb_first (i 0) _ (toNat_ofNat_small _ (by omega)) _ _)

theorem cc0_transform_2_one (pf : pre0.Contents (Elt F)) (i : grid0.Coords) :
    cc0_transform_2 Facts₀.k0_off1_inb Facts₀.numel1_S1 pf i 1 = (i 1).val := by
  have h11 : (i 1).val < 11 := (i 1).isLt
  exact toNat_ofNat_small _ (by omega)

theorem cc0_transform_2_two (pf : pre0.Contents (Elt F)) (i : grid0.Coords) :
    cc0_transform_2 Facts₀.k0_off1_inb Facts₀.numel1_S1 pf i 2 = 0 := rfl

theorem cc1_transform_1_zero (pf : pre1.Contents (Elt F)) (i : grid1.Coords) :
    cc1_transform_1 Facts₀.k1_off1_inb Facts₀.numel1_S1 pf i 0 = (pf 0 (ValueIdx.ix1 (i 0))).toNat := by
  have h8 : (i 0).val < 8 := (i 0).isLt
  exact congrArg (fun x => (pf 0 x).toNat)
    (unit_emb_first (i 0) _ (toNat_ofNat_small _ (by omega)) _ _)

theorem cc1_transform_1_one (pf : pre1.Contents (Elt F)) (i : grid1.Coords) :
    cc1_transform_1 Facts₀.k1_off1_inb Facts₀.numel1_S1 pf i 1 = (i 1).val := by
  have h8 : (i 1).val < 8 := (i 1).isLt
  exact toNat_ofNat_small _ (by omega)

theorem cc1_transform_1_two (pf : pre1.Contents (Elt F)) (i : grid1.Coords) :
    cc1_transform_1 Facts₀.k1_off1_inb Facts₀.numel1_S1 pf i 2 = 0 := rfl

/-! ## A block at (expert, row-block, 0) lies inside its weight array -/

/-- 256 rows of one expert's 2816 × 2048 gate or up weights: expert below 8, row-block below 11 (11 · 256 = 2816). -/
theorem gate_block_inb (t : Fin 3 → Nat) (v j : Nat) (hv : v < 8) (hj : j < 11) (h0 : t 0 = v) (h1 : t 1 = j) (h2 : t 2 = 0) :
    ∀ a, (t a + 1) * S1x256x2048.size a ≤ S8x2816x2048.size a := by
  intro a
  match a with
  | ⟨0, _⟩ => show (t 0 + 1) * 1 ≤ 8; omega
  | ⟨1, _⟩ => show (t 1 + 1) * 256 ≤ 2816; omega
  | ⟨2, _⟩ => show (t 2 + 1) * 2048 ≤ 2048; omega

/-- 256 rows of one expert's 2048 × 2816 down weights: expert below 8, row-block below 8 (8 · 256 = 2048). -/
theorem down_block_inb (t : Fin 3 → Nat) (v j : Nat) (hv : v < 8) (hj : j < 8) (h0 : t 0 = v) (h1 : t 1 = j) (h2 : t 2 = 0) :
    ∀ a, (t a + 1) * S1x256x2816.size a ≤ S8x2048x2816.size a := by
  intro a
  match a with
  | ⟨0, _⟩ => show (t 0 + 1) * 1 ≤ 8; omega
  | ⟨1, _⟩ => show (t 1 + 1) * 256 ≤ 2048; omega
  | ⟨2, _⟩ => show (t 2 + 1) * 2816 ≤ 2816; omega

/-- The gate launch's side condition at any table contents whose entries are below 8. -/
theorem ok0_of_range (pf : pre0.Contents (Elt F)) (h : ∀ e : Fin 8, (pf 0 (ValueIdx.ix1 e)).toNat < 8) : ok0 pf :=
  ⟨fun i => ⟨gate_block_inb _ _ _ (h (i 0)) (i 1).isLt (cc0_transform_1_zero pf i) (cc0_transform_1_one pf i)
      (cc0_transform_1_two pf i), Or.inl rfl⟩,
   fun i => ⟨gate_block_inb _ _ _ (h (i 0)) (i 1).isLt (cc0_transform_2_zero pf i) (cc0_transform_2_one pf i)
      (cc0_transform_2_two pf i), Or.inl rfl⟩⟩

/-- The down-projection launch's side condition at any table contents whose entries are below 8. -/
theorem ok1_of_range (pf : pre1.Contents (Elt F)) (h : ∀ e : Fin 8, (pf 0 (ValueIdx.ix1 e)).toNat < 8) : ok1 pf :=
  fun i => ⟨down_block_inb _ _ _ (h (i 0)) (i 1).isLt (cc1_transform_1_zero pf i) (cc1_transform_1_one pf i)
      (cc1_transform_1_two pf i), Or.inl rfl⟩

theorem tblOk_of_range (m : (ℓ : Loc nD τ sig) → Buf (Elt F) ℓ) (h : ∀ e : Fin 8, (tbl m 0 (ValueIdx.ix1 e)).toNat < 8) : TblOk m :=
  ⟨ok0_of_range (tbl m) h, ok1_of_range (tbl m) h⟩

end Cert.KernelIdeal.Hand

end
-- ==== Proof.PreRange.lean ====
/-
  The precondition, decoded. Besides the finiteness of the float inputs it says of the eight expert ids the program
  uses — entry 0 of each group of 1024 of the expert-id array, `expertTable a6` — that each is at least 0 and below 8
  as a signed word; so each, read unsigned, is below 8. Stated for any float instance.
-/
import proofs.«429380_j12086037971139_2_alg».proof.Proof.Gen.Pre_finite_inputs
import Idealize.ShloMosaic.Lib.ValueIdx
import Idealize.ShloMosaic.Lib.ReduceAll
import Idealize.ShloMosaic.Lib.StableHlo.Predicate

set_option maxRecDepth 16384

noncomputable section

namespace Cert.PreRange

open Idealize.ShloMosaic Idealize.ShloMosaic.ValueIdx
open Cert.Pre_finite_inputs Cert.Pre_finite_inputs.Gen

variable {F : FTy → Type} [FloatOps F]

/-- The eight expert ids the program uses: the first entry of each group of 1024. -/
def expertTable (a6 : IVec S8192 32) : IVec S8 32 :=
  shapeCast S8 ((extractStridedSlice S8x1 ![0, 0] · slices_S8x1024_S8x1_0_0) (shapeCast S8x1024 a6 shapeCasts_S8192_S8x1024)) shapeCasts_S8x1_S8

/-- The result shape of a full reduction has exactly one index. -/
instance subsingleton_S_ : Subsingleton S_.Idx := ⟨fun a b => funext fun d => d.elim0⟩

/-- A 32-bit word that is at least 0 and below 8 read signed is below 8 read unsigned. -/
theorem toNat_lt_eight (w : BitVec 32) (h0 : IntOp.cmpi .sge w (0#32) = 1#1) (h8 : IntOp.cmpi .slt w (8#32) = 1#1) :
    w.toNat < 8 := by
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have hc := BitVec.toInt_eq_toNat_cond w
  have h32 := w.isLt
  split at hc <;> omega

/-- Under the precondition every expert id the program uses is below 8 (read unsigned). -/
theorem experts_in_range (a0 : FVec F S4096x2048 .f32) (a1 a2 : FVec F S8x2816x2048 .f32) (a3 : FVec F S8x2048x2816 .f32)
    (a4 : FVec F S8192 .f32) (a5 a6 : IVec S8192 32)
    (h : Cert.Pre_finite_inputs.fn (F := F) a0 a1 a2 a3 a4 a5 a6 = fun _ => 1#1) :
    ∀ e : Fin 8, (expertTable a6 (ix1 e)).toNat < 8 := by
  intro e
  have h0 := congrFun h ix0
  simp only [Cert.Pre_finite_inputs.fn, fn_part1, fn_part2, andi, IntOp.andi_eq_one] at h0
  obtain ⟨⟨_, hge⟩, hlt⟩ := h0
  -- the two conjuncts on the expert ids: every entry of each compare is 1
  have hge' := Host.reduce_andi_all _ _ _ _ _ hge (ix1 e)
  have hlt' := Host.reduce_andi_all _ _ _ _ _ hlt (ix1 e)
  exact toNat_lt_eight _ hge' hlt'

end Cert.PreRange

end
-- ==== Proof.OkPreI.lean ====
/-
  From the precondition to the launches' side condition: the precondition bounds the eight expert ids the program
  uses, those are the table the first host stretch builds, and a table of expert ids keeps every table-indexed block
  inside its array.
-/
import proofs.«429380_j12086037971139_2_alg».proof.Proof.HostI
import proofs.«429380_j12086037971139_2_alg».proof.Proof.TblOkI
import proofs.«429380_j12086037971139_2_alg».proof.Proof.PreRange
import proofs.«429380_j12086037971139_2_alg».proof.Defs

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- The table the launches run at is the table the precondition speaks of. -/
theorem expertIds_eq (x6 : IVec S8192 32) : expertIds x6 = Cert.PreRange.expertTable x6 := rfl

/-- Under the precondition's predicate at the device's arguments, every entry of the table names an expert. -/
theorem range_of_fn (m : (ℓ : Loc nD τ sig) → Buf (Elt F) ℓ)
    (h : Cert.Pre_finite_inputs.fn (F := F) (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4))
      (m (((0 : Dev nD) : Thread nD τ).loc main_arg5)) (m (((0 : Dev nD) : Thread nD τ).loc main_arg6)) = fun _ => 1#1) :
    ∀ e : Fin 8, (tbl m 0 (ValueIdx.ix1 e)).toNat < 8 := fun e => by
  rw [tbl_ids, expertIds_eq]
  exact Cert.PreRange.experts_in_range _ _ _ _ _ _ _ h e

theorem tblOk_of_fn (m : (ℓ : Loc nD τ sig) → Buf (Elt F) ℓ)
    (h : Cert.Pre_finite_inputs.fn (F := F) (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4))
      (m (((0 : Dev nD) : Thread nD τ).loc main_arg5)) (m (((0 : Dev nD) : Thread nD τ).loc main_arg6)) = fun _ => 1#1) : TblOk m :=
  tblOk_of_range m (range_of_fn m h)

end Cert.KernelIdeal.Hand

end
-- ==== Proof.GateBodyB.lean ====
/-
  The gate region (the first kernel launch) as a pipeline whose weight windows are indexed through a table
  of expert ids. Everything is stated at a PARAMETER `a` — any admissible contents of the table — and at a
  parameter `V`, the buffer contents the region is entered from, and for any float instance `F`.

  One grid point (e, j) of the 8 × 11 grid holds: the whole token group e (1024 × 2048), the j-th block of
  256 rows of the gate and of the up weights of expert `table[e]`, and writes the 1024 × 256 block (e, ·, j)
  of the hidden activations: `gateOut x w1 w3`, the one store of the body, a pure function of the three
  loaded blocks. The table's buffer is never read by the body; it rides through the region's invariant.
-/
import proofs.«429380_j12086037971139_2_alg».proof.Proof.Gen.Kernel.Launch
import proofs.«429380_j12086037971139_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- Window `w`'s block at grid point `t`, read off its array as the region finds it. -/
def gblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- Each input window's current staging buffer holds its block at every point, fetched there or not (when the
    pipeline does not fetch, the block index has not moved). Stated for ANY proof data whose array is `V`'s and whose
    body leaves the block in place. -/
theorem gbefore0_of {c : Dev nD} (dat : Dat τ (Elt F) Unit ℕ (UR sig nD τ) ℕ (cfg0 a) c) (hA : dat.A 0 = V c (Pipeline.arrRef spec0 0))
    (hafter : ∀ t, dat.after 0 t = gblk a V c 0 t) (t : Fin (cfg0 a).N) (d) : dat.before 0 t d = gblk a V c 0 t :=
  (dat.before_in_eq_fetched 0 rfl (fun _ => rfl) (fun _ _ _ => rfl) (fun t => by rw [hafter]; unfold Dat.blockOf gblk; rw [hA]; try rfl) t d).trans
    (by unfold Dat.fetched Dat.blockOf gblk; rw [hA]; try rfl)
theorem gbefore1_of {c : Dev nD} (dat : Dat τ (Elt F) Unit ℕ (UR sig nD τ) ℕ (cfg0 a) c) (hA : dat.A 1 = V c (Pipeline.arrRef spec0 1))
    (hafter : ∀ t, dat.after 1 t = gblk a V c 1 t) (t : Fin (cfg0 a).N) (d) : dat.before 1 t d = gblk a V c 1 t :=
  (dat.before_in_eq_fetched 1 rfl (fun _ => rfl) (fun _ _ _ => rfl) (fun t => by rw [hafter]; unfold Dat.blockOf gblk; rw [hA]; try rfl) t d).trans
    (by unfold Dat.fetched Dat.blockOf gblk; rw [hA]; try rfl)
theorem gbefore2_of {c : Dev nD} (dat : Dat τ (Elt F) Unit ℕ (UR sig nD τ) ℕ (cfg0 a) c) (hA : dat.A 2 = V c (Pipeline.arrRef spec0 2))
    (hafter : ∀ t, dat.after 2 t = gblk a V c 2 t) (t : Fin (cfg0 a).N) (d) : dat.before 2 t d = gblk a V c 2 t :=
  (dat.before_in_eq_fetched 2 rfl (fun _ => rfl) (fun _ _ _ => rfl) (fun t => by rw [hafter]; unfold Dat.blockOf gblk; rw [hA]; try rfl) t d).trans
    (by unfold Dat.fetched Dat.blockOf gblk; rw [hA]; try rfl)

/-- The rectangle of the body's one store: the whole 1 × 1024 × 256 staging buffer. -/
abbrev gateRect : Rect S1x1024x256 := Rect.unit (s := S1x1024x256) ![0, 0, 0] S1x1024x256.size inb_S1x1024x256_S1x1024x256_0_0_0

/-- What the body leaves in the output window's staging buffer, from the three input blocks. -/
def gateOut (x : Vec F S1x1024x2048 .bf16) (w1 : Vec F S1x256x2048 .f32) (w3 : Vec F S1x256x2048 .f32) : Vec F S1x1024x256 .bf16 :=
  View.canon [⟨gateRect, k0_pay1 (View.ld x (Rect.unit (s := S1x1024x2048) ![0, 0, 0] S1x1024x2048.size inb_S1x1024x2048_S1x1024x2048_0_0_0))
    (View.ld w1 (Rect.unit (s := S1x256x2048) ![0, 0, 0] S1x256x2048.size inb_S1x256x2048_S1x256x2048_0_0_0))
    (View.ld w3 (Rect.unit (s := S1x256x2048) ![0, 0, 0] S1x256x2048.size inb_S1x256x2048_S1x256x2048_0_0_0))⟩]

/-- The one store covers the buffer. -/
theorem gateCover (p0 : Vec F S1x1024x256 .bf16) (y : S1x1024x256.Idx) :
    ∃ pc ∈ ([⟨gateRect, p0⟩] : List (View.Piece (Elt F) S1x1024x256 .bf16)), y ∈ pc.1.set :=
  View.cover_of_tiled [⟨gateRect, p0⟩] S1x1024x256.size (by rfl) y

set_option maxHeartbeats 1000000 in
/-- The body on whole staging memrefs: the inputs' contents are kept, the output's becomes `gateOut` of them. The
    table's memref is an argument the body never touches. -/
theorem gateKernel (c : Dev nD) (E : Set ℕ) (i : grid0.Coords) (arg2 : Memref sig .tc .smem S8 .i32) (harg2 : arg2.IsWhole)
    (arg3 : Memref sig .tc .vmem S1x1024x2048 .bf16) (harg3 : arg3.IsWhole) (arg4 : Memref sig .tc .vmem S1x256x2048 .f32) (harg4 : arg4.IsWhole)
    (arg5 : Memref sig .tc .vmem S1x256x2048 .f32) (harg5 : arg5.IsWhole) (arg6 : Memref sig .tc .vmem S1x1024x256 .bf16) (harg6 : arg6.IsWhole)
    (x0 : Vec F S1x1024x2048 .bf16) (x1 : Vec F S1x256x2048 .f32) (x2 : Vec F S1x256x2048 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (gateOut x0 x1 x2)) -∗ K ⟨⟩))
      ⊢ wp frame (wpE (defs₀ (F := F)) Variants.none c none) E (cc0__moe_gate_kernel i arg2 harg2 arg3 harg3 arg4 harg4 arg5 harg5 arg6 harg6) K := by
  simp only [cc0__moe_gate_kernel_eq_skeleton]; unfold cc0__moe_gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (gateCover _)

end Cert.Kernel.Hand

end
-- ==== Proof.GateDatB.lean ====
/-
  The gate region's proof data and body obligation, at any admissible table contents `a` and entry contents `V`.
  After the body at grid point `t` each input window's staging buffer still holds its block and the output's
  holds `gateOut` of the three blocks. The region's invariant carries, untouched, the scoped buffers of the
  other launch, the generator register, and the expert table's buffer at contents `a`.
-/
import proofs.«429380_j12086037971139_2_alg».proof.Proof.GateBodyB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- The region's invariant: what the body neither reads nor writes. -/
abbrev gateInv (c : Dev nD) : sProp 𝕄 :=
  iprop(Pipeline.ΦA (U := UR sig nD τ) spec0 c ∗ Pipeline.prefHeld (Ix := Unit) (Name := ℕ) (U := UR sig nD τ) (Lvl := ℕ) pre0 c (fun _ => fullShare) a.1)

/-- The gate region's proof data on core `c`. -/
def gdat (c : Dev nD) : Dat τ (Elt F) Unit ℕ (UR sig nD τ) ℕ (cfg0 a) c where
  A w := V c (Pipeline.arrRef spec0 w)
  after w t := match w with
    | ⟨0, _⟩ => gblk a V c 0 t
    | ⟨1, _⟩ => gblk a V c 1 t
    | ⟨2, _⟩ => gblk a V c 2 t
    | ⟨3, _⟩ => gateOut (gblk a V c 0 t) (gblk a V c 1 t) (gblk a V c 2 t)
  Φ _ := gateInv a c
  q _ := fullShare
  owed _ := 0

theorem gA_eq (c : Dev nD) (w : Fin (cfg0 a).W) : (gdat a V c).A w = V c (Pipeline.arrRef spec0 w) := by
  dsimp only [gdat]

theorem gafter0 (c : Dev nD) (t : Fin (cfg0 a).N) : (gdat a V c).after 0 t = gblk a V c 0 t := by dsimp only [gdat]; rfl
theorem gafter1 (c : Dev nD) (t : Fin (cfg0 a).N) : (gdat a V c).after 1 t = gblk a V c 1 t := by dsimp only [gdat]; rfl
theorem gafter2 (c : Dev nD) (t : Fin (cfg0 a).N) : (gdat a V c).after 2 t = gblk a V c 2 t := by dsimp only [gdat]; rfl
theorem gafter3 (c : Dev nD) (t : Fin (cfg0 a).N) :
    (gdat a V c).after 3 t = gateOut (gblk a V c 0 t) (gblk a V c 1 t) (gblk a V c 2 t) := by dsimp only [gdat]; rfl

theorem gbefore0 (c : Dev nD) (t : Fin (cfg0 a).N) (d) : (gdat a V c).before 0 t d = gblk a V c 0 t :=
  gbefore0_of a V (gdat a V c) (gA_eq a V c 0) (gafter0 a V c) t d
theorem gbefore1 (c : Dev nD) (t : Fin (cfg0 a).N) (d) : (gdat a V c).before 1 t d = gblk a V c 1 t :=
  gbefore1_of a V (gdat a V c) (gA_eq a V c 1) (gafter1 a V c) t d
theorem gbefore2 (c : Dev nD) (t : Fin (cfg0 a).N) (d) : (gdat a V c).before 2 t d = gblk a V c 2 t :=
  gbefore2_of a V (gdat a V c) (gA_eq a V c 2) (gafter2 a V c) t d

/-- The current staging memref of window `w` at point `t`. -/
abbrev gst (w : Fin (cfg0 a).W) (t : Fin (cfg0 a).N) := ((cfg0 a).win w).stage ((cfg0 a).slots t w)

/-- The body as the pipeline calls it at point `t`. -/
abbrev gateAt (t : Fin (cfg0 a).N) : Prog (TpuEff nD τ sig (Elt F) Λ₀ .tc) PUnit :=
  cc0__moe_gate_kernel (grid0.coords t) (Memref.whole main_v2) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))

def gatePre (c : Dev nD) (t : Fin (cfg0 a).N) : sProp 𝕄 :=
  iprop((gdat a V c).Φ t.castSucc ∗ (gdat a V c).owesAt () t.castSucc
    ∗ (∃ d, owns (c : Thread nD τ) (gst a 0 t) fullShare ((gdat a V c).before 0 t d))
    ∗ (∃ d, owns (c : Thread nD τ) (gst a 1 t) fullShare ((gdat a V c).before 1 t d))
    ∗ (∃ d, owns (c : Thread nD τ) (gst a 2 t) fullShare ((gdat a V c).before 2 t d))
    ∗ (∃ d, owns (c : Thread nD τ) (gst a 3 t) fullShare ((gdat a V c).before 3 t d)))

def gatePost (c : Dev nD) (t : Fin (cfg0 a).N) : sProp 𝕄 :=
  iprop((gdat a V c).Φ t.succ ∗ (gdat a V c).owesAt () t.succ
    ∗ owns (c : Thread nD τ) (gst a 0 t) fullShare ((gdat a V c).after 0 t)
    ∗ owns (c : Thread nD τ) (gst a 1 t) fullShare ((gdat a V c).after 1 t)
    ∗ owns (c : Thread nD τ) (gst a 2 t) fullShare ((gdat a V c).after 2 t)
    ∗ owns (c : Thread nD τ) (gst a 3 t) fullShare ((gdat a V c).after 3 t))

/-- The body at any point: the inputs' memrefs hold their blocks, so the body's triple applies; the invariant and
    the core's dues pass through unread. -/
theorem gateSound (c : Dev nD) (t : Fin (cfg0 a).N) :
    gatePre a V c t ⊢ wp frame (wpE (defs₀ (F := F)) Variants.none c none) Set.univ (gateAt a t) (fun _ => gatePost a V c t) := by
  unfold gatePre gatePost gateAt
  simp only [gbefore0, gbefore1, gbefore2]
  rw [show (gdat a V c).Φ t.succ = (gdat a V c).Φ t.castSucc from rfl,
    show (gdat a V c).owesAt () t.succ = (gdat a V c).owesAt () t.castSucc from rfl,
    gafter0, gafter1, gafter2, gafter3]
  iintro ⟨HΦ, Ho, ⟨%d0, H0⟩, ⟨%d1, H1⟩, ⟨%d2, H2⟩, ⟨%d3, H3⟩⟩
  iapply (gateKernel c Set.univ _ _ _ _ _ _ _ _ _ _ _ (gblk a V c 0 t) (gblk a V c 1 t) (gblk a V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem gate_obligation (c : Dev nD) : BodyObligation (gdat (F := F) a V c) (defs₀ (F := F)) Variants.none () Set.univ := fun t => by
  rw [bigSep_W0, bigSep_W0]
  exact gateSound a V c t

end Cert.Kernel.Hand

end
-- ==== Proof.DownBodyB.lean ====
/-
  The down-projection region (the second kernel launch) as a pipeline whose weight window is indexed through the
  same table of expert ids, at a PARAMETER `a` (any admissible table contents) and `V` (the contents the region is
  entered from), for any float instance `F`.

  One grid point (e, j) of the 8 × 8 grid holds: the whole hidden group e (1024 × 2816), the j-th block of 256 rows
  of the down weights of expert `table[e]`, the 1024 routing weights of group e (one column), and writes the
  1024 × 256 block (e, ·, j) of the per-pair outputs: `downOut h w2 s`, the body's one store.
-/
import proofs.«429380_j12086037971139_2_alg».proof.Proof.Gen.Kernel.Launch
import proofs.«429380_j12086037971139_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- Window `w`'s block at grid point `t`, read off its array as the region finds it. -/
def dblk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- Each input window's current staging buffer holds its block at every point, fetched there or not (when the
    pipeline does not fetch, the block index has not moved). -/
theorem dbefore0_of {c : Dev nD} (dat : Dat τ (Elt F) Unit ℕ (UR sig nD τ) ℕ (cfg1 a) c) (hA : dat.A 0 = V c (Pipeline.arrRef spec1 0))
    (hafter : ∀ t, dat.after 0 t = dblk a V c 0 t) (t : Fin (cfg1 a).N) (d) : dat.before 0 t d = dblk a V c 0 t :=
  (dat.before_in_eq_fetched 0 rfl (fun _ => rfl) (fun _ _ _ => rfl) (fun t => by rw [hafter]; unfold Dat.blockOf dblk; rw [hA]; try rfl) t d).trans
    (by unfold Dat.fetched Dat.blockOf dblk; rw [hA]; try rfl)
theorem dbefore1_of {c : Dev nD} (dat : Dat τ (Elt F) Unit ℕ (UR sig nD τ) ℕ (cfg1 a) c) (hA : dat.A 1 = V c (Pipeline.arrRef spec1 1))
    (hafter : ∀ t, dat.after 1 t = dblk a V c 1 t) (t : Fin (cfg1 a).N) (d) : dat.before 1 t d = dblk a V c 1 t :=
  (dat.before_in_eq_fetched 1 rfl (fun _ => rfl) (fun _ _ _ => rfl) (fun t => by rw [hafter]; unfold Dat.blockOf dblk; rw [hA]; try rfl) t d).trans
    (by unfold Dat.fetched Dat.blockOf dblk; rw [hA]; try rfl)
theorem dbefore2_of {c : Dev nD} (dat : Dat τ (Elt F) Unit ℕ (UR sig nD τ) ℕ (cfg1 a) c) (hA : dat.A 2 = V c (Pipeline.arrRef spec1 2))
    (hafter : ∀ t, dat.after 2 t = dblk a V c 2 t) (t : Fin (cfg1 a).N) (d) : dat.before 2 t d = dblk a V c 2 t :=
  (dat.before_in_eq_fetched 2 rfl (fun _ => rfl) (fun _ _ _ => rfl) (fun t => by rw [hafter]; unfold Dat.blockOf dblk; rw [hA]; try rfl) t d).trans
    (by unfold Dat.fetched Dat.blockOf dblk; rw [hA]; try rfl)

/-- The rectangle of the body's one store: the whole 1 × 1024 × 256 staging buffer. -/
abbrev downRect : Rect S1x1024x256 := Rect.unit (s := S1x1024x256) ![0, 0, 0] S1x1024x256.size inb_S1x1024x256_S1x1024x256_0_0_0

/-- What the body leaves in the output window's staging buffer, from the three input blocks. -/
def downOut (h : Vec F S1x1024x2816 .bf16) (w2 : Vec F S1x256x2816 .f32) (s : Vec F S1x1024x1 .f32) : Vec F S1x1024x256 .f32 :=
  View.canon [⟨downRect, k1_pay1 (View.ld h (Rect.unit (s := S1x1024x2816) ![0, 0, 0] S1x1024x2816.size inb_S1x1024x2816_S1x1024x2816_0_0_0))
    (View.ld w2 (Rect.unit (s := S1x256x2816) ![0, 0, 0] S1x256x2816.size inb_S1x256x2816_S1x256x2816_0_0_0))
    (View.ld s (Rect.unit (s := S1x1024x1) ![0, 0, 0] S1x1024x1.size inb_S1x1024x1_S1x1024x1_0_0_0))⟩]

/-- The one store covers the buffer. -/
theorem downCover (p0 : Vec F S1x1024x256 .f32) (y : S1x1024x256.Idx) :
    ∃ pc ∈ ([⟨downRect, p0⟩] : List (View.Piece (Elt F) S1x1024x256 .f32)), y ∈ pc.1.set :=
  View.cover_of_tiled [⟨downRect, p0⟩] S1x1024x256.size (by rfl) y

set_option maxHeartbeats 1000000 in
/-- The body on whole staging memrefs: the inputs' contents are kept, the output's becomes `downOut` of them. The
    table's memref is an argument the body never touches. -/
theorem downKernel (c : Dev nD) (E : Set ℕ) (i : grid1.Coords) (arg2 : Memref sig .tc .smem S8 .i32) (harg2 : arg2.IsWhole)
    (arg3 : Memref sig .tc .vmem S1x1024x2816 .bf16) (harg3 : arg3.IsWhole) (arg4 : Memref sig .tc .vmem S1x256x2816 .f32) (harg4 : arg4.IsWhole)
    (arg5 : Memref sig .tc .vmem S1x1024x1 .f32) (harg5 : arg5.IsWhole) (arg6 : Memref sig .tc .vmem S1x1024x256 .f32) (harg6 : arg6.IsWhole)
    (x0 : Vec F S1x1024x2816 .bf16) (x1 : Vec F S1x256x2816 .f32) (x2 : Vec F S1x1024x1 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (downOut x0 x1 x2)) -∗ K ⟨⟩))
      ⊢ wp frame (wpE (defs₀ (F := F)) Variants.none c none) E (cc1__moe_down_kernel i arg2 harg2 arg3 harg3 arg4 harg4 arg5 harg5 arg6 harg6) K := by
  simp only [cc1__moe_down_kernel_eq_skeleton]; unfold cc1__moe_down_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (downCover _)

end Cert.Kernel.Hand

end
-- ==== Proof.DownDatB.lean ====
/-
  The down-projection region's proof data and body obligation, at any admissible table contents `a` and entry
  contents `V`. After the body at grid point `t` each input window's staging buffer still holds its block and the
  output's holds `downOut` of the three blocks. The invariant carries, untouched, the other launch's scoped
  buffers, the generator register and the expert table's buffer at contents `a`.
-/
import proofs.«429380_j12086037971139_2_alg».proof.Proof.DownBodyB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- The region's invariant: what the body neither reads nor writes. -/
abbrev downInv (c : Dev nD) : sProp 𝕄 :=
  iprop(Pipeline.ΦA (U := UR sig nD τ) spec1 c ∗ Pipeline.prefHeld (Ix := Unit) (Name := ℕ) (U := UR sig nD τ) (Lvl := ℕ) pre1 c (fun _ => fullShare) a.1)

/-- The down-projection region's proof data on core `c`. -/
def ddat (c : Dev nD) : Dat τ (Elt F) Unit ℕ (UR sig nD τ) ℕ (cfg1 a) c where
  A w := V c (Pipeline.arrRef spec1 w)
  after w t := match w with
    | ⟨0, _⟩ => dblk a V c 0 t
    | ⟨1, _⟩ => dblk a V c 1 t
    | ⟨2, _⟩ => dblk a V c 2 t
    | ⟨3, _⟩ => downOut (dblk a V c 0 t) (dblk a V c 1 t) (dblk a V c 2 t)
  Φ _ := downInv a c
  q _ := fullShare
  owed _ := 0

theorem dA_eq (c : Dev nD) (w : Fin (cfg1 a).W) : (ddat a V c).A w = V c (Pipeline.arrRef spec1 w) := by
  dsimp only [ddat]

theorem dafter0 (c : Dev nD) (t : Fin (cfg1 a).N) : (ddat a V c).after 0 t = dblk a V c 0 t := by dsimp only [ddat]; rfl
theorem dafter1 (c : Dev nD) (t : Fin (cfg1 a).N) : (ddat a V c).after 1 t = dblk a V c 1 t := by dsimp only [ddat]; rfl
theorem dafter2 (c : Dev nD) (t : Fin (cfg1 a).N) : (ddat a V c).after 2 t = dblk a V c 2 t := by dsimp only [ddat]; rfl
theorem dafter3 (c : Dev nD) (t : Fin (cfg1 a).N) :
    (ddat a V c).after 3 t = downOut (dblk a V c 0 t) (dblk a V c 1 t) (dblk a V c 2 t) := by dsimp only [ddat]; rfl

theorem dbefore0 (c : Dev nD) (t : Fin (cfg1 a).N) (d) : (ddat a V c).before 0 t d = dblk a V c 0 t :=
  dbefore0_of a V (ddat a V c) (dA_eq a V c 0) (dafter0 a V c) t d
theorem dbefore1 (c : Dev nD) (t : Fin (cfg1 a).N) (d) : (ddat a V c).before 1 t d = dblk a V c 1 t :=
  dbefore1_of a V (ddat a V c) (dA_eq a V c 1) (dafter1 a V c) t d
theorem dbefore2 (c : Dev nD) (t : Fin (cfg1 a).N) (d) : (ddat a V c).before 2 t d = dblk a V c 2 t :=
  dbefore2_of a V (ddat a V c) (dA_eq a V c 2) (dafter2 a V c) t d

/-- The current staging memref of window `w` at point `t`. -/
abbrev dst (w : Fin (cfg1 a).W) (t : Fin (cfg1 a).N) := ((cfg1 a).win w).stage ((cfg1 a).slots t w)

/-- The body as the pipeline calls it at point `t`. -/
abbrev downAt (t : Fin (cfg1 a).N) : Prog (TpuEff nD τ sig (Elt F) Λ₀ .tc) PUnit :=
  cc1__moe_down_kernel (grid1.coords t) (Memref.whole main_v2) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))

def downPre (c : Dev nD) (t : Fin (cfg1 a).N) : sProp 𝕄 :=
  iprop((ddat a V c).Φ t.castSucc ∗ (ddat a V c).owesAt () t.castSucc
    ∗ (∃ d, owns (c : Thread nD τ) (dst a 0 t) fullShare ((ddat a V c).before 0 t d))
    ∗ (∃ d, owns (c : Thread nD τ) (dst a 1 t) fullShare ((ddat a V c).before 1 t d))
    ∗ (∃ d, owns (c : Thread nD τ) (dst a 2 t) fullShare ((ddat a V c).before 2 t d))
    ∗ (∃ d, owns (c : Thread nD τ) (dst a 3 t) fullShare ((ddat a V c).before 3 t d)))

def downPost (c : Dev nD) (t : Fin (cfg1 a).N) : sProp 𝕄 :=
  iprop((ddat a V c).Φ t.succ ∗ (ddat a V c).owesAt () t.succ
    ∗ owns (c : Thread nD τ) (dst a 0 t) fullShare ((ddat a V c).after 0 t)
    ∗ owns (c : Thread nD τ) (dst a 1 t) fullShare ((ddat a V c).after 1 t)
    ∗ owns (c : Thread nD τ) (dst a 2 t) fullShare ((ddat a V c).after 2 t)
    ∗ owns (c : Thread nD τ) (dst a 3 t) fullShare ((ddat a V c).after 3 t))

/-- The body at any point: the inputs' memrefs hold their blocks, so the body's triple applies; the invariant and
    the core's dues pass through unread. -/
theorem downSound (c : Dev nD) (t : Fin (cfg1 a).N) :
    downPre a V c t ⊢ wp frame (wpE (defs₀ (F := F)) Variants.none c none) Set.univ (downAt a t) (fun _ => downPost a V c t) := by
  unfold downPre downPost downAt
  simp only [dbefore0, dbefore1, dbefore2]
  rw [show (ddat a V c).Φ t.succ = (ddat a V c).Φ t.castSucc from rfl,
    show (ddat a V c).owesAt () t.succ = (ddat a V c).owesAt () t.castSucc from rfl,
    dafter0, dafter1, dafter2, dafter3]
  iintro ⟨HΦ, Ho, ⟨%d0, H0⟩, ⟨%d1, H1⟩, ⟨%d2, H2⟩, ⟨%d3, H3⟩⟩
  iapply (downKernel c Set.univ _ _ _ _ _ _ _ _ _ _ _ (dblk a V c 0 t) (dblk a V c 1 t) (dblk a V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem down_obligation (c : Dev nD) : BodyObligation (ddat (F := F) a V c) (defs₀ (F := F)) Variants.none () Set.univ := fun t => by
  rw [bigSep_W1, bigSep_W1]
  exact downSound a V c t

end Cert.Kernel.Hand

end
-- ==== Proof.RunB.lean ====
/-
  The whole run of @main, for any float instance: fifteen host operations (the expert table, the normalised token
  ids, the gathered token rows, the reshaped routing weights), the gate launch, the down-projection launch, and
  twelve host operations (the accumulating scatter of the per-pair rows into the per-token result).

  The buffer contents at each boundary are a fold from the launch memory `m`:
    W0 = m,  W1 = after the first host stretch,  W2 = W1 with the gate launch's arrays at what its write-backs leave,
    W3 = W2 with the down launch's arrays likewise,  W4 = after the last host stretch.
  Both launches index their weight windows through the expert table, whose contents `tbl m` are what the first host
  stretch leaves in the table's buffer; the run is stated under the hypothesis `TblOk m` that those contents keep every
  table-indexed block inside its array. Under it every weakly fair execution terminates without a fault with every
  unscoped buffer at its `W4` contents — from which the frame (the arguments are never written) and the result are
  both read.
-/
import proofs.«429380_j12086037971139_2_alg».proof.Proof.GateDatB
import proofs.«429380_j12086037971139_2_alg».proof.Proof.DownDatB
import proofs.«429380_j12086037971139_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the first two boundaries, and the table -/

/-- Core `c`'s buffers at launch. -/
abbrev W0 (c : Dev nD) : Valuation τ sig (Elt F) := fun b => m (c, b)
/-- After the first host stretch: what the gate launch is entered from. -/
abbrev W1 (c : Dev nD) : Valuation τ sig (Elt F) := StableHlo.after hostOps0 (W0 m c)
/-- The same, read at the TensorCore's references. -/
abbrev ent0 (c : Dev nD) (b : Ref sig .tc) : Buf (Elt F) ((c : Thread nD τ).loc b) := W1 m c b

/-- The expert table both launches prefetch: what the first host stretch leaves in its buffer. -/
def tbl : pre0.Contents (Elt F) := fun k => ent0 m 0 (pre0.ref k)

/-- On the one device, the table's buffer at a launch's entry holds `tbl m`. -/
theorem tbl_eq (c : Dev nD) : (fun k => ent0 m c (pre0.ref k)) = tbl m := by
  obtain rfl : c = 0 := Subsingleton.elim _ _
  rfl

/-- The table keeps every block the launches index through it inside its array. -/
structure TblOk : Prop where
  gate : ok0 (tbl m)
  down : ok1 (tbl m)

variable (hok : TblOk m)

/-- The table as admissible contents of each pipeline. -/
abbrev a0 : (pcfg0 (F := F)).Adm := ⟨tbl m, hok.gate⟩
abbrev a1 : (pcfg1 (F := F)).Adm := ⟨tbl m, hok.down⟩
def adm : (p : Fin 2) → (pcfgs (F := F) p).Adm
  | ⟨0, _⟩ => a0 m hok
  | ⟨1, _⟩ => a1 m hok

/-! ## The contents at the later boundaries -/

/-- At the gate launch's exit: its arrays at what the pipeline leaves, every other buffer as entered. -/
def W2 (c : Dev nD) : Valuation τ sig (Elt F) :=
  Pipeline.withArrays spec0 c (W1 m c) fun w => (gdat (a0 m hok) (ent0 m) c).arrAt w (cfg0 (a0 m hok)).N
theorem W2_arr (c : Dev nD) (w : Fin 4) :
    W2 m hok c (Proc.devRef .tc (Pipeline.arrRef spec0 w)) = (gdat (a0 m hok) (ent0 m) c).arrAt w (cfg0 (a0 m hok)).N := by
  unfold W2; exact Pipeline.withArrays_arr spec0 winFacts0.arr_inj c _ _ w
theorem W2_of_ne (c : Dev nD) (b : Ref sig .tc) (hb : ∀ w, Pipeline.arrRef spec0 w ≠ b) :
    W2 m hok c (Proc.devRef .tc b) = W1 m c (Proc.devRef .tc b) := by
  unfold W2; exact Pipeline.withArrays_of_ne spec0 c _ _ b hb
/-- The same read at the TensorCore's references: what the down launch is entered from. -/
abbrev ent1 (c : Dev nD) (b : Ref sig .tc) : Buf (Elt F) ((c : Thread nD τ).loc b) := W2 m hok c b
theorem gateLeaves (c : Dev nD) (w : Fin 4) :
    (gdat (a0 m hok) (ent0 m) c).arrAt w (cfg0 (a0 m hok)).N = ent1 m hok c (Pipeline.arrRef spec0 w) :=
  (W2_arr m hok c w).symm
theorem gateKeeps (c : Dev nD) : ∀ b, b ∉ Finset.univ.image (Pipeline.arrRef spec0) → ent1 m hok c b = ent0 m c b :=
  fun b hb => W2_of_ne m hok c b fun w e => hb (Finset.mem_image.mpr ⟨w, Finset.mem_univ _, e⟩)

/-- At the down launch's exit. -/
def W3 (c : Dev nD) : Valuation τ sig (Elt F) :=
  Pipeline.withArrays spec1 c (W2 m hok c) fun w => (ddat (a1 m hok) (ent1 m hok) c).arrAt w (cfg1 (a1 m hok)).N
theorem W3_arr (c : Dev nD) (w : Fin 4) :
    W3 m hok c (Proc.devRef .tc (Pipeline.arrRef spec1 w)) = (ddat (a1 m hok) (ent1 m hok) c).arrAt w (cfg1 (a1 m hok)).N := by
  unfold W3; exact Pipeline.withArrays_arr spec1 winFacts1.arr_inj c _ _ w
theorem W3_of_ne (c : Dev nD) (b : Ref sig .tc) (hb : ∀ w, Pipeline.arrRef spec1 w ≠ b) :
    W3 m hok c (Proc.devRef .tc b) = W2 m hok c (Proc.devRef .tc b) := by
  unfold W3; exact Pipeline.withArrays_of_ne spec1 c _ _ b hb
abbrev ext1 (c : Dev nD) (b : Ref sig .tc) : Buf (Elt F) ((c : Thread nD τ).loc b) := W3 m hok c b
theorem downLeaves (c : Dev nD) (w : Fin 4) :
    (ddat (a1 m hok) (ent1 m hok) c).arrAt w (cfg1 (a1 m hok)).N = ext1 m hok c (Pipeline.arrRef spec1 w) :=
  (W3_arr m hok c w).symm
theorem downKeeps (c : Dev nD) : ∀ b, b ∉ Finset.univ.image (Pipeline.arrRef spec1) → ext1 m hok c b = ent1 m hok c b :=
  fun b hb => W3_of_ne m hok c b fun w e => hb (Finset.mem_image.mpr ⟨w, Finset.mem_univ _, e⟩)

/-- After the last host stretch: the contents at the return. -/
abbrev W4 (c : Dev nD) : Valuation τ sig (Elt F) := StableHlo.after hostOps2 (W3 m hok c)

/-! ## The proof data family and the thread state -/

def pdats : (p : Fin 2) → (c : Dev nD) → Dat τ (Elt F) Unit ℕ (UR sig nD τ) ℕ (Pipeline.pin (pcfgs (F := F)) (adm m hok) p) c
  | ⟨0, _⟩ => fun c => gdat (a0 m hok) (ent0 m) c
  | ⟨1, _⟩ => fun c => ddat (a1 m hok) (ent1 m hok) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m hok c) ∗ ∃ r, prngReg c r)

/-! ## The launches as segments -/

set_option backward.isDefEq.respectTransparency.types false in
/-- The gate launch over the thread state: entered from every unscoped buffer at `W1`, left at `W2`. Its arrays and the
    table's buffer are split out of the unscoped buffers at entry and put back at exit; the table's buffer and the
    generator register go through the invariant. -/
def reg0 : Pipeline.RegionSeg (pcfgs (F := F)) (adm m hok) (pdats m hok) () defs₀ 𝒱₀ L lv 0 where
  win := winFacts0.to₀
  block_pos := block_pos0
  stage_whole := stage_whole0
  K := PEmpty
  osem k := k.elim
  ho := Pipeline.OwnSemFacts.none _
  hbody c := (gate_obligation (a0 m hok) (ent0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m hok c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl m))
  Z c := Pipeline.unscopedRestP (Ix := Unit) (Name := ℕ) (U := UR sig nD τ) (Lvl := ℕ) pre0 spec0 c (ent0 m c)
  hentry c := by
    rw [Pipeline.ownSems0_none]
    have hsplit := Pipeline.arrays_of_unscopedBufs (p := 0) (pcfgs (F := F)) (adm m hok) (pdats m hok) winFacts0 arr_whole0 c
      ((pdats m hok 0 c).share_full fun _ => rfl) (ent0 m c) fun _ => rfl
    have hrest : (Pipeline.unscopedRest (Ix := Unit) (Name := ℕ) (U := UR sig nD τ) (Lvl := ℕ) (Pipeline.pin (pcfgs (F := F)) (adm m hok) 0).spec c (ent0 m c) : sProp 𝕄)
        = iprop(Pipeline.prefHeld pre0 c (fun _ => fullShare) (tbl m) ∗ Pipeline.unscopedRestP pre0 spec0 c (ent0 m c)) :=
      (Pipeline.unscopedRest_split (pre := pre0) preFacts0 c (ent0 m c)).trans (by rw [tbl_eq m c])
    rw [Pipeline.unscopedBufs_held, hrest] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hok 0 c).Φ 0 = gateInv (a0 m hok) c from rfl]; unfold gateInv Pipeline.ΦA
    iintro ⟨Hp, Hpf, Hr⟩
    isplitl [Hr Hp]
    · isplitl [Hr]; · iexact Hr
      iexact Hp
    iexact Hpf
  hout c := by
    rw [Pipeline.ownSems0_none, show (pdats m hok 0 c).Φ (Fin.last _) = gateInv (a0 m hok) c from rfl]; unfold gateInv Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 0) (pcfgs (F := F)) (adm m hok) (Ix := Unit) (Name := ℕ) (U := UR sig nD τ) (Lvl := ℕ)
      winFacts0 arr_whole0 c (pdats m hok) ((pdats m hok 0 c).share_full fun _ => rfl)
      (ent0 m c) (ent1 m hok c) ((pdats m hok 0 c).arrAt · (cfg0 (a0 m hok)).N) (gateLeaves m hok c) (gateKeeps m hok c)
    have hrest : (Pipeline.unscopedRest (Ix := Unit) (Name := ℕ) (U := UR sig nD τ) (Lvl := ℕ) (Pipeline.pin (pcfgs (F := F)) (adm m hok) 0).spec c (ent0 m c) : sProp 𝕄)
        = iprop(Pipeline.prefHeld pre0 c (fun _ => fullShare) (tbl m) ∗ Pipeline.unscopedRestP pre0 spec0 c (ent0 m c)) :=
      (Pipeline.unscopedRest_split (pre := pre0) preFacts0 c (ent0 m c)).trans (by rw [tbl_eq m c])
    rw [Pipeline.unscopedBufs_held, hrest] at hjoin
    iintro ⟨Ha, HO, ⟨HY, Hpf⟩, Hrest⟩
    imodintro
    isplitl [Ha Hrest Hpf]
    · iapply hjoin
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

set_option backward.isDefEq.respectTransparency.types false in
/-- The down-projection launch over the thread state: entered from `W2`, left at `W3`, the same way. -/
def reg1 : Pipeline.RegionSeg (pcfgs (F := F)) (adm m hok) (pdats m hok) () defs₀ 𝒱₀ L lv 1 where
  win := winFacts1.to₀
  block_pos := block_pos1
  stage_whole := stage_whole1
  K := PEmpty
  osem k := k.elim
  ho := Pipeline.OwnSemFacts.none _
  hbody c := (down_obligation (a1 m hok) (ent1 m hok) c).loose
  hwaits := Pipeline.hwaits_of_owed_zero _ _ _ _ L lv 1 fun _ _ => rfl
  pre c := iprop(StableHlo.held (c : Thread nD τ) (Pipeline.ucRefs τ sig) (W2 m hok c) ∗ R c)
  post c := iprop(StableHlo.held (c : Thread nD τ) (Pipeline.ucRefs τ sig) (W3 m hok c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl m))
  Z c := Pipeline.unscopedRestP (Ix := Unit) (Name := ℕ) (U := UR sig nD τ) (Lvl := ℕ) pre1 spec1 c (ent1 m hok c)
  hentry c := by
    rw [Pipeline.ownSems0_none]
    have hsplit := Pipeline.arrays_of_unscopedBufs (p := 1) (pcfgs (F := F)) (adm m hok) (pdats m hok) winFacts1 arr_whole1 c
      ((pdats m hok 1 c).share_full fun _ => rfl) (ent1 m hok c) fun _ => rfl
    have htbl : (fun k => ent1 m hok c (pre1.ref k)) = tbl m :=
      (funext fun k => gateKeeps m hok c (pre1.ref k) (by revert k; decide)).trans (tbl_eq m c)
    have hrest : (Pipeline.unscopedRest (Ix := Unit) (Name := ℕ) (U := UR sig nD τ) (Lvl := ℕ) (Pipeline.pin (pcfgs (F := F)) (adm m hok) 1).spec c (ent1 m hok c) : sProp 𝕄)
        = iprop(Pipeline.prefHeld pre1 c (fun _ => fullShare) (tbl m) ∗ Pipeline.unscopedRestP pre1 spec1 c (ent1 m hok c)) :=
      (Pipeline.unscopedRest_split (pre := pre1) preFacts1 c (ent1 m hok c)).trans (by rw [htbl])
    rw [Pipeline.unscopedBufs_held, hrest] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hok 1 c).Φ 0 = downInv (a1 m hok) c from rfl]; unfold downInv Pipeline.ΦA
    iintro ⟨Hp, Hpf, Hr⟩
    isplitl [Hr Hp]
    · isplitl [Hr]; · iexact Hr
      iexact Hp
    iexact Hpf
  hout c := by
    rw [Pipeline.ownSems0_none, show (pdats m hok 1 c).Φ (Fin.last _) = downInv (a1 m hok) c from rfl]; unfold downInv Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 1) (pcfgs (F := F)) (adm m hok) (Ix := Unit) (Name := ℕ) (U := UR sig nD τ) (Lvl := ℕ)
      winFacts1 arr_whole1 c (pdats m hok) ((pdats m hok 1 c).share_full fun _ => rfl)
      (ent1 m hok c) (ext1 m hok c) ((pdats m hok 1 c).arrAt · (cfg1 (a1 m hok)).N) (downLeaves m hok c) (downKeeps m hok c)
    have htbl : (fun k => ent1 m hok c (pre1.ref k)) = tbl m :=
      (funext fun k => gateKeeps m hok c (pre1.ref k) (by revert k; decide)).trans (tbl_eq m c)
    have hrest : (Pipeline.unscopedRest (Ix := Unit) (Name := ℕ) (U := UR sig nD τ) (Lvl := ℕ) (Pipeline.pin (pcfgs (F := F)) (adm m hok) 1).spec c (ent1 m hok c) : sProp 𝕄)
        = iprop(Pipeline.prefHeld pre1 c (fun _ => fullShare) (tbl m) ∗ Pipeline.unscopedRestP pre1 spec1 c (ent1 m hok c)) :=
      (Pipeline.unscopedRest_split (pre := pre1) preFacts1 c (ent1 m hok c)).trans (by rw [htbl])
    rw [Pipeline.unscopedBufs_held, hrest] at hjoin
    iintro ⟨Ha, HO, ⟨HY, Hpf⟩, Hrest⟩
    imodintro
    isplitl [Ha Hrest Hpf]
    · iapply hjoin
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) (adm m hok) (pdats m hok) () defs₀ 𝒱₀ L lv) :=
  [ .host (hseg hostOps0 hostOps0_sub hostOps0_fresh (W0 m)),
    .region (reg0 m hok),
    .region (reg1 m hok),
    .host (hseg hostOps2 hostOps2_sub hostOps2_fresh (W3 m hok)) ]

theorem main_run (c : Dev nD) : main (F := F) c = Pipeline.Seg.run (segs m hok) := (main_chain c).trans (by chain_rfl)

set_option backward.isDefEq.respectTransparency.types false in
/-- THE RUN. From any memory with zero counters whose expert table is admissible, every weakly fair execution of @main
    terminates, nothing faulting, and every final state holds every unscoped buffer at its `W4` contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m hok c b) :=
  Pipeline.θ_run_regions_kit (pcfgs (F := F)) (adm m hok) (pdats m hok) () (cellOf_inj (adm m hok)) emb₁ defs₀ 𝒱₀ L lv m ρ main (segs m hok)
    (fun c Q => by rw [main_run m hok c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hok)) (cellOf_inj (adm m hok))) (Pipeline.launchToks (Pipeline.pin (pcfgs (F := F)) (adm m hok)) (cellOf_inj (adm m hok))))
    (hu₀ := by
      iintro Hu; imodintro
      isplitl [Hu]
      · iapply (show (ownU (initOf (Pipeline.cells (Pipeline.pin (pcfgs (F := F)) (adm m hok)) (cellOf_inj (adm m hok))) (Pipeline.launchToks (Pipeline.pin (pcfgs (F := F)) (adm m hok)) (cellOf_inj (adm m hok)))) : sProp 𝕄)
            ⊢ BI.own (emb₁ (initOf (Pipeline.cells (Pipeline.pin (pcfgs (F := F)) (adm m hok)) (cellOf_inj (adm m hok))) (Pipeline.launchToks (Pipeline.pin (pcfgs (F := F)) (adm m hok)) (cellOf_inj (adm m hok))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hok)
    (hch := ⟨fun _ => .rfl, fun _ => .rfl, fun _ => .rfl,
      fun c => show iprop(StableHlo.held (c : Thread nD τ) (Pipeline.ucRefs τ sig) (W3 m hok c) ∗ R c)
        ⊢ iprop(StableHlo.held (c : Thread nD τ) (Pipeline.ucRefs τ sig) (W3 m hok c) ∗ R c) from .rfl,
      fun c => show iprop(StableHlo.held (c : Thread nD τ) (Pipeline.ucRefs τ sig) (W4 m hok c) ∗ R c)
        ⊢ iprop(Tₙ m hok c ∗ ∃ W, owes (c : Thread nD τ) (0 : CellTallies nD τ sig Unit) W) from by
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m hok c b)
    (hfin := fun c s' => by
      iintro ⟨⟨Hh, -⟩, HSI⟩
      unfold StableHlo.held
      imodintro
      iapply (pointsTo_read_all (Pipeline.ucRefs τ sig) (fun b => (((c : Thread nD τ)).1, b)) (W4 m hok c) s')
      isplitl [Hh] <;> iassumption)
    (hQ := fun s h => h)

end Cert.Kernel.Hand

end
-- ==== Proof.HostB.lean ====
/-
  What the two host stretches compute, and that no item of @main writes an argument. For any float instance.

  The first stretch leaves: in the table's buffer the eight expert ids (entry 0 of each group of 1024 of the expert-id
  array); in the gate launch's token window the rows of `x` gathered at the (sign-normalised) token ids, narrowed to
  bf16 and regrouped 8 × 1024 × 2048; in the down launch's routing-weight window the weights regrouped 8 × 1024 × 1.
  The last stretch scatters the down launch's per-pair rows, regrouped 8192 × 2048, additively into a zero table of
  4096 × 2048 at the same token ids.
-/
import proofs.«429380_j12086037971139_2_alg».proof.Proof.RunB

set_option maxRecDepth 16384

noncomputable section

namespace Cert.Kernel.Hand

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

/-! ## The host stretches as functions of the arguments -/

/-- The token ids as the gather and the scatter read them: a negative id counted from the end. -/
def tokIds (x5 : IVec S8192 32) : IVec S8192x1 32 :=
  broadcastInDim S8192x1 ![0] bcast_S8192_S8192x1_0
    (select (cmpi .slt x5 (broadcastInDim S8192 ![] bcast_S_S8192 (constantI S_ 32 0#32)))
      (addi x5 (broadcastInDim S8192 ![] bcast_S_S8192 (constantI S_ 32 4096#32))) x5)

/-- The pairs' token rows, grouped by expert. -/
def tokRows (x0 : FVec F S4096x2048 .f32) (x5 : IVec S8192 32) : FVec F S8x1024x2048 .bf16 :=
  shapeCast S8x1024x2048 (truncf .bf16 (Host.gather gather_S4096x2048_S8192x1_S8192x2048_1_0_n_n_0_1_12048 x0 (tokIds x5)) bitsLt_bf16_f32)
    shapeCasts_S8192x2048_S8x1024x2048

/-- The pairs' routing weights, grouped by expert. -/
def routeW (x4 : FVec F S8192 .f32) : FVec F S8x1024x1 .f32 := shapeCast S8x1024x1 x4 shapeCasts_S8192_S8x1024x1

/-- The eight expert ids the launches prefetch. -/
def expertIds (x6 : IVec S8192 32) : IVec S8 32 :=
  shapeCast S8 ((extractStridedSlice S8x1 ![0, 0] · slices_S8x1024_S8x1_0_0) (shapeCast S8x1024 x6 shapeCasts_S8192_S8x1024)) shapeCasts_S8x1_S8

/-- The per-token result: the per-pair rows accumulated at their token ids. -/
def scatterBack (x5 : IVec S8192 32) (Y : FVec F S8x1024x2048 .f32) : FVec F S4096x2048 .f32 :=
  Host.scatterAdd scatter_S4096x2048_S8192x1_S8192x2048_1_0_0_1
    (broadcastInDim S4096x2048 ![] bcast_S_S4096x2048 (constant S_ .f32 0x00000000#32)) (tokIds x5)
    (shapeCast S8192x2048 Y shapeCasts_S8x1024x2048_S8192x2048)

variable (m : (ℓ : Loc nD τ sig) → Buf (Elt F) ℓ)

/-! ## After the first stretch -/

theorem ent0_of (c : Dev nD) (r : Ref sig .tc) (h : r ∉ hostOps0_W) : ent0 m c r = m ((c : Thread nD τ).loc r) :=
  StableHlo.after_of_writes_sub hostOps0 _ hostOps0_writes h

theorem ent0_tokens (c : Dev nD) :
    ent0 m c main_v11 = tokRows (m ((c : Thread nD τ).loc main_arg0)) (m ((c : Thread nD τ).loc main_arg5)) := by
  show StableHlo.after hostOps0 (fun b => m (c, b)) (Proc.devRef .tc main_v11) = _
  after_results; rfl

theorem ent0_route (c : Dev nD) : ent0 m c main_v12 = routeW (m ((c : Thread nD τ).loc main_arg4)) := by
  show StableHlo.after hostOps0 (fun b => m (c, b)) (Proc.devRef .tc main_v12) = _
  after_results; rfl

theorem ent0_table (c : Dev nD) : ent0 m c main_v2 = expertIds (m ((c : Thread nD τ).loc main_arg6)) := by
  show StableHlo.after hostOps0 (fun b => m (c, b)) (Proc.devRef .tc main_v2) = _
  after_results; rfl

/-- The table both launches run at is the eight expert ids. -/
theorem tbl_ids : tbl m 0 = expertIds (m (((0 : Dev nD) : Thread nD τ).loc main_arg6)) := ent0_table m 0

variable (hok : TblOk m)

/-! ## Across the launches -/

theorem ent1_of (c : Dev nD) (r : Ref sig .tc) (h : ∀ w, Pipeline.arrRef spec0 w ≠ r) : ent1 m hok c r = ent0 m c r :=
  W2_of_ne m hok c r h
theorem ext1_of (c : Dev nD) (r : Ref sig .tc) (h : ∀ w, Pipeline.arrRef spec1 w ≠ r) : ext1 m hok c r = ent1 m hok c r :=
  W3_of_ne m hok c r h

/-- An input window's array is left as found. -/
theorem ent1_in (c : Dev nD) (w : Fin 4) (hw : ((cfg0 (a0 m hok)).win w).isOut = false) :
    ent1 m hok c (Pipeline.arrRef spec0 w) = ent0 m c (Pipeline.arrRef spec0 w) :=
  (W2_arr m hok c w).trans (((gdat (a0 m hok) (ent0 m) c).arrAt_in w hw _).trans (gA_eq (a0 m hok) (ent0 m) c w))
theorem ext1_in (c : Dev nD) (w : Fin 4) (hw : ((cfg1 (a1 m hok)).win w).isOut = false) :
    ext1 m hok c (Pipeline.arrRef spec1 w) = ent1 m hok c (Pipeline.arrRef spec1 w) :=
  (W3_arr m hok c w).trans (((ddat (a1 m hok) (ent1 m hok) c).arrAt_in w hw _).trans (dA_eq (a1 m hok) (ent1 m hok) c w))

/-- The hidden activations the down launch reads are what the gate launch's write-backs leave. -/
theorem ent1_hidden (c : Dev nD) : ent1 m hok c main_v13 = (gdat (a0 m hok) (ent0 m) c).arrAt 3 (cfg0 (a0 m hok)).N :=
  W2_arr m hok c 3
/-- The per-pair outputs the last stretch reads are what the down launch's write-backs leave. -/
theorem ext1_pairs (c : Dev nD) : ext1 m hok c main_v14 = (ddat (a1 m hok) (ent1 m hok) c).arrAt 3 (cfg1 (a1 m hok)).N :=
  W3_arr m hok c 3

/-! ## After the last stretch -/

theorem W4_of (c : Dev nD) (r : Ref sig .tc) (h : r ∉ hostOps2_W) : W4 m hok c (Proc.devRef .tc r) = ext1 m hok c r :=
  StableHlo.after_of_writes_sub hostOps2 _ hostOps2_writes h

theorem W4_result (c : Dev nD) :
    W4 m hok c (Proc.devRef .tc main_v23) = scatterBack (ext1 m hok c main_arg5) (ext1 m hok c main_v14) := by
  show StableHlo.after hostOps2 (W3 m hok c) (Proc.devRef .tc main_v23) = _
  after_results; rfl

/-! ## No item writes an argument -/

theorem W4_arg0 (c : Dev nD) : W4 m hok c (Proc.devRef .tc main_arg0) = m ((c : Thread nD τ).loc main_arg0) :=
  (W4_of m hok c main_arg0 (by decide)).trans <| (ext1_of m hok c main_arg0 (by decide)).trans <| (ent1_of m hok c main_arg0 (by decide)).trans (ent0_of m c main_arg0 (by decide))
theorem W4_arg1 (c : Dev nD) : W4 m hok c (Proc.devRef .tc main_arg1) = m ((c : Thread nD τ).loc main_arg1) :=
  (W4_of m hok c main_arg1 (by decide)).trans <| (ext1_of m hok c main_arg1 (by decide)).trans <| (ent1_in m hok c 1 rfl).trans (ent0_of m c main_arg1 (by decide))
theorem W4_arg2 (c : Dev nD) : W4 m hok c (Proc.devRef .tc main_arg2) = m ((c : Thread nD τ).loc main_arg2) :=
  (W4_of m hok c main_arg2 (by decide)).trans <| (ext1_of m hok c main_arg2 (by decide)).trans <| (ent1_in m hok c 2 rfl).trans (ent0_of m c main_arg2 (by decide))
theorem W4_arg3 (c : Dev nD) : W4 m hok c (Proc.devRef .tc main_arg3) = m ((c : Thread nD τ).loc main_arg3) :=
  (W4_of m hok c main_arg3 (by decide)).trans <| (ext1_in m hok c 1 rfl).trans <| (ent1_of m hok c main_arg3 (by decide)).trans (ent0_of m c main_arg3 (by decide))
theorem W4_arg4 (c : Dev nD) : W4 m hok c (Proc.devRef .tc main_arg4) = m ((c : Thread nD τ).loc main_arg4) :=
  (W4_of m hok c main_arg4 (by decide)).trans <| (ext1_of m hok c main_arg4 (by decide)).trans <| (ent1_of m hok c main_arg4 (by decide)).trans (ent0_of m c main_arg4 (by decide))
theorem W4_arg5 (c : Dev nD) : W4 m hok c (Proc.devRef .tc main_arg5) = m ((c : Thread nD τ).loc main_arg5) :=
  (W4_of m hok c main_arg5 (by decide)).trans <| (ext1_of m hok c main_arg5 (by decide)).trans <| (ent1_of m hok c main_arg5 (by decide)).trans (ent0_of m c main_arg5 (by decide))
theorem W4_arg6 (c : Dev nD) : W4 m hok c (Proc.devRef .tc main_arg6) = m ((c : Thread nD τ).loc main_arg6) :=
  (W4_of m hok c main_arg6 (by decide)).trans <| (ext1_of m hok c main_arg6 (by decide)).trans <| (ent1_of m hok c main_arg6 (by decide)).trans (ent0_of m c main_arg6 (by decide))

/-- The token ids the last stretch reads are the argument's. -/
theorem ext1_ids (c : Dev nD) : ext1 m hok c main_arg5 = m ((c : Thread nD τ).loc main_arg5) :=
  (ext1_of m hok c main_arg5 (by decide)).trans <| (ent1_of m hok c main_arg5 (by decide)).trans (ent0_of m c main_arg5 (by decide))

/-! ## The frame -/

/-- Under an admissible table, every weakly fair execution of @main terminates without a fault and leaves the seven
    argument arrays as launched. -/
theorem frame_of_ok (hk : TblOk m) (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_arg0 m hk c), (h c _ (mem_uc main_arg1 (by decide))).trans (W4_arg1 m hk c),
     (h c _ (mem_uc main_arg2 (by decide))).trans (W4_arg2 m hk c), (h c _ (mem_uc main_arg3 (by decide))).trans (W4_arg3 m hk c),
     (h c _ (mem_uc main_arg4 (by decide))).trans (W4_arg4 m hk c), (h c _ (mem_uc main_arg5 (by decide))).trans (W4_arg5 m hk c),
     (h c _ (mem_uc main_arg6 (by decide))).trans (W4_arg6 m hk c)⟩) (run_main m ρ hk)

end Cert.Kernel.Hand

end
-- ==== Proof.TblOkB.lean ====
/-
  A table whose eight entries all name an expert keeps every table-indexed weight block inside its array: the block of
  256 rows of expert `table[e]` at row-block `j` ends at `(table[e] + 1) · 1 ≤ 8` on the expert axis, `(j + 1) · 256` on the
  row axis (`j < 11` of 2816 rows for the gate and up weights, `j < 8` of 2048 rows for the down weights), and spans the
  whole last axis; its elements are 32-bit words, so its ends are word-exact. For any float instance.
-/
import proofs.«429380_j12086037971139_2_alg».proof.Proof.RunB
import Idealize.ShloMosaic.Lib.ValueIdx

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

/-- A number below 2³² written as a 32-bit word reads back as itself. -/
theorem toNat_ofNat_small (n : Nat) (hn : n < 2 ^ 32) : (BitVec.ofNat 32 n).toNat = n := by
  rw [BitVec.toNat_ofNat]; exact Nat.mod_eq_of_lt hn

/-- The one element of the one-entry window at offset `n` of the eight-entry table is entry `n`. -/
theorem unit_emb_first (n : Fin 8) (off : Fin 1 → Nat) (hoff : off 0 = n.val) (inb : ∀ a, off a + S1.size a ≤ S8.size a)
    (h1 : 0 < (Rect.unit (s := S8) off S1.size inb).shape.numel) :
    (Rect.unit (s := S8) off S1.size inb).emb (Shape.Idx.first h1) = ValueIdx.ix1 n := by
  funext a
  match a with
  | ⟨0, _⟩ =>
    apply Fin.ext
    show off 0 + 1 * 0 = n.val
    omega

/-! ## The three coordinates of each table-indexed block: (table entry, row-block, 0) -/

theorem cc0_transform_1_zero (pf : pre0.Contents (Elt F)) (i : grid0.Coords) :
    cc0_transform_1 Facts₀.k0_off1_inb Facts₀.numel1_S1 pf i 0 = (pf 0 (ValueIdx.ix1 (i 0))).toNat := by
  have h8 : (i 0).val < 8 := (i 0).isLt
  exact congrArg (fun x => (pf 0 x).toNat)
    (unit_emb_first (i 0) _ (toNat_ofNat_small _ (by omega)) _ _)

theorem cc0_transform_1_one (pf : pre0.Contents (Elt F)) (i : grid0.Coords) :
    cc0_transform_1 Facts₀.k0_off1_inb Facts₀.numel1_S1 pf i 1 = (i 1).val := by
  have h11 : (i 1).val < 11 := (i 1).isLt
  exact toNat_ofNat_small _ (by omega)

theorem cc0_transform_1_two (pf : pre0.Contents (Elt F)) (i : grid0.Coords) :
    cc0_transform_1 Facts₀.k0_off1_inb Facts₀.numel1_S1 pf i 2 = 0 := rfl

theorem cc0_transform_2_zero (pf : pre0.Contents (Elt F)) (i : grid0.Coords) :
    cc0_transform_2 Facts₀.k0_off1_inb Facts₀.numel1_S1 pf i 0 = (pf 0 (ValueIdx.ix1 (i 0))).toNat := by
  have h8 : (i 0).val < 8 := (i 0).isLt
  exact congrArg (fun x => (pf 0 x).toNat)
    (unit_emb_first (i 0) _ (toNat_ofNat_small _ (by omega)) _ _)

theorem cc0_transform_2_one (pf : pre0.Contents (Elt F)) (i : grid0.Coords) :
    cc0_transform_2 Facts₀.k0_off1_inb Facts₀.numel1_S1 pf i 1 = (i 1).val := by
  have h11 : (i 1).val < 11 := (i 1).isLt
  exact toNat_ofNat_small _ (by omega)

theorem cc0_transform_2_two (pf : pre0.Contents (Elt F)) (i : grid0.Coords) :
    cc0_transform_2 Facts₀.k0_off1_inb Facts₀.numel1_S1 pf i 2 = 0 := rfl

theorem cc1_transform_1_zero (pf : pre1.Contents (Elt F)) (i : grid1.Coords) :
    cc1_transform_1 Facts₀.k1_off1_inb Facts₀.numel1_S1 pf i 0 = (pf 0 (ValueIdx.ix1 (i 0))).toNat := by
  have h8 : (i 0).val < 8 := (i 0).isLt
  exact congrArg (fun x => (pf 0 x).toNat)
    (unit_emb_first (i 0) _ (toNat_ofNat_small _ (by omega)) _ _)

theorem cc1_transform_1_one (pf : pre1.Contents (Elt F)) (i : grid1.Coords) :
    cc1_transform_1 Facts₀.k1_off1_inb Facts₀.numel1_S1 pf i 1 = (i 1).val := by
  have h8 : (i 1).val < 8 := (i 1).isLt
  exact toNat_ofNat_small _ (by omega)

theorem cc1_transform_1_two (pf : pre1.Contents (Elt F)) (i : grid1.Coords) :
    cc1_transform_1 Facts₀.k1_off1_inb Facts₀.numel1_S1 pf i 2 = 0 := rfl

/-! ## A block at (expert, row-block, 0) lies inside its weight array -/

/-- 256 rows of one expert's 2816 × 2048 gate or up weights: expert below 8, row-block below 11 (11 · 256 = 2816). -/
theorem gate_block_inb (t : Fin 3 → Nat) (v j : Nat) (hv : v < 8) (hj : j < 11) (h0 : t 0 = v) (h1 : t 1 = j) (h2 : t 2 = 0) :
    ∀ a, (t a + 1) * S1x256x2048.size a ≤ S8x2816x2048.size a := by
  intro a
  match a with
  | ⟨0, _⟩ => show (t 0 + 1) * 1 ≤ 8; omega
  | ⟨1, _⟩ => show (t 1 + 1) * 256 ≤ 2816; omega
  | ⟨2, _⟩ => show (t 2 + 1) * 2048 ≤ 2048; omega

/-- 256 rows of one expert's 2048 × 2816 down weights: expert below 8, row-block below 8 (8 · 256 = 2048). -/
theorem down_block_inb (t : Fin 3 → Nat) (v j : Nat) (hv : v < 8) (hj : j < 8) (h0 : t 0 = v) (h1 : t 1 = j) (h2 : t 2 = 0) :
    ∀ a, (t a + 1) * S1x256x2816.size a ≤ S8x2048x2816.size a := by
  intro a
  match a with
  | ⟨0, _⟩ => show (t 0 + 1) * 1 ≤ 8; omega
  | ⟨1, _⟩ => show (t 1 + 1) * 256 ≤ 2048; omega
  | ⟨2, _⟩ => show (t 2 + 1) * 2816 ≤ 2816; omega

/-- The gate launch's side condition at any table contents whose entries are below 8. -/
theorem ok0_of_range (pf : pre0.Contents (Elt F)) (h : ∀ e : Fin 8, (pf 0 (ValueIdx.ix1 e)).toNat < 8) : ok0 pf :=
  ⟨fun i => ⟨gate_block_inb _ _ _ (h (i 0)) (i 1).isLt (cc0_transform_1_zero pf i) (cc0_transform_1_one pf i)
      (cc0_transform_1_two pf i), Or.inl rfl⟩,
   fun i => ⟨gate_block_inb _ _ _ (h (i 0)) (i 1).isLt (cc0_transform_2_zero pf i) (cc0_transform_2_one pf i)
      (cc0_transform_2_two pf i), Or.inl rfl⟩⟩

/-- The down-projection launch's side condition at any table contents whose entries are below 8. -/
theorem ok1_of_range (pf : pre1.Contents (Elt F)) (h : ∀ e : Fin 8, (pf 0 (ValueIdx.ix1 e)).toNat < 8) : ok1 pf :=
  fun i => ⟨down_block_inb _ _ _ (h (i 0)) (i 1).isLt (cc1_transform_1_zero pf i) (cc1_transform_1_one pf i)
      (cc1_transform_1_two pf i), Or.inl rfl⟩

theorem tblOk_of_range (m : (ℓ : Loc nD τ sig) → Buf (Elt F) ℓ) (h : ∀ e : Fin 8, (tbl m 0 (ValueIdx.ix1 e)).toNat < 8) : TblOk m :=
  ⟨ok0_of_range (tbl m) h, ok1_of_range (tbl m) h⟩

end Cert.Kernel.Hand

end
-- ==== Proof.OkPreB.lean ====
/-
  From the precondition to the launches' side condition: the precondition bounds the eight expert ids the program
  uses, those are the table the first host stretch builds, and a table of expert ids keeps every table-indexed block
  inside its array.
-/
import proofs.«429380_j12086037971139_2_alg».proof.Proof.HostB
import proofs.«429380_j12086037971139_2_alg».proof.Proof.TblOkB
import proofs.«429380_j12086037971139_2_alg».proof.Proof.PreRange
import proofs.«429380_j12086037971139_2_alg».proof.Defs

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

/-- The table the launches run at is the table the precondition speaks of. -/
theorem expertIds_eq (x6 : IVec S8192 32) : expertIds x6 = Cert.PreRange.expertTable x6 := rfl

/-- Under the precondition's predicate at the device's arguments, every entry of the table names an expert. -/
theorem range_of_fn (m : (ℓ : Loc nD τ sig) → Buf (Elt F) ℓ)
    (h : Cert.Pre_finite_inputs.fn (F := F) (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4))
      (m (((0 : Dev nD) : Thread nD τ).loc main_arg5)) (m (((0 : Dev nD) : Thread nD τ).loc main_arg6)) = fun _ => 1#1) :
    ∀ e : Fin 8, (tbl m 0 (ValueIdx.ix1 e)).toNat < 8 := fun e => by
  rw [tbl_ids, expertIds_eq]
  exact Cert.PreRange.experts_in_range _ _ _ _ _ _ _ h e

theorem tblOk_of_fn (m : (ℓ : Loc nD τ sig) → Buf (Elt F) ℓ)
    (h : Cert.Pre_finite_inputs.fn (F := F) (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4))
      (m (((0 : Dev nD) : Thread nD τ).loc main_arg5)) (m (((0 : Dev nD) : Thread nD τ).loc main_arg6)) = fun _ => 1#1) : TblOk m :=
  tblOk_of_range m (range_of_fn m h)

end Cert.Kernel.Hand

end
-- ==== Proof.lean ====
/-
  The certificate of the grouped mixture-of-experts layer: a gate launch (logistic of the gate projection times the up
  projection, per group of pairs and block of hidden units) and a down-projection launch (scaled by the routing weight),
  both indexing their expert weights through a prefetched table of the eight group-to-expert ids, between a host gather of
  the pairs' token rows and a host scatter-add of the per-pair rows back to the tokens — against the reference's einsums
  over gathered expert weights.

  The statement's precondition says, besides the finiteness of the float inputs, that the eight expert ids the program
  uses are in 0 … 7. Under it the table keeps every table-indexed block inside its array, so both printed kernels run to
  the end leaving their arguments unchanged (at the word-level and at the ideal instance: one argument, stated for any
  float instance); the reference is a host program and runs by its generated run. At the ideal instance a change of
  float format is the identity, a matrix product into a zero accumulator is the plain sum, the expert gather at ids in
  range is the table lookup, and both programs hand the same per-pair array to the same scatter: equal results.
-/
import proofs.«429380_j12086037971139_2_alg».proof.Defs
import proofs.«429380_j12086037971139_2_alg».proof.Proof.Gen.Kernel
import proofs.«429380_j12086037971139_2_alg».proof.Proof.Gen.KernelIdeal
import proofs.«429380_j12086037971139_2_alg».proof.Proof.Gen.ReferenceIdeal
import proofs.«429380_j12086037971139_2_alg».proof.Proof.Gen.Pre_finite_inputs
import proofs.«429380_j12086037971139_2_alg».proof.Proof.Gen.ReferenceIdeal.Run
import proofs.«429380_j12086037971139_2_alg».proof.Proof.Gen.ReferenceIdeal.Read
import proofs.«429380_j12086037971139_2_alg».proof.Proof.KernelResultI
import proofs.«429380_j12086037971139_2_alg».proof.Proof.RefValI
import proofs.«429380_j12086037971139_2_alg».proof.Proof.OkPreI
import proofs.«429380_j12086037971139_2_alg».proof.Proof.OkPreB
import Idealize.ShloMosaic.Adequacy
import Idealize.ShloMosaic.Init

set_option maxRecDepth 16384

noncomputable section

namespace Cert.Proof

open Idealize.ShloMosaic Idealize.ShloMosaic.TcCoe Idealize.SL.Sem Cert.MoeSpec

/-! ## The two programs hand one array to one scatter -/

section Same
open Cert.KernelIdeal Cert.KernelIdeal.Hand Cert.ReferenceIdeal.Read

theorem tokRows_eq (x0 : FVec Ideal S4096x2048 .f32) (x5 : IVec S8192 32) : tokRows (F := Ideal) x0 x5 = val_main_v10 (F := Ideal) x0 x5 := rfl
theorem routeW_eq (x4 : FVec Ideal S8192 .f32) : routeW (F := Ideal) x4 = val_main_v42 (F := Ideal) x4 := rfl
theorem expertIds_ref (x6 : IVec S8192 32) : expertIds x6 = val_main_v2 (F := Ideal) x6 := rfl
theorem scatterBack_eq (x5 : IVec S8192 32) (Y : FVec Ideal S8x1024x2048 .f32) : scatterBack (F := Ideal) x5 Y =
    Host.scatterAdd Cert.ReferenceIdeal.scatter_S4096x2048_S8192x1_S8192x2048_1_0_0_1 (val_main_v45 (F := Ideal)) (val_main_v52 (F := Ideal) x5)
      (shapeCast _ Y Cert.ReferenceIdeal.Facts₀.shapeCasts_S8x1024x2048_S8192x2048) := rfl

/-- The reference's result term, at the kernel's arguments, is the kernel's result buffer. -/
theorem result_eq (m : (ℓ : Loc nD τ sig) → Buf (Elt Ideal) ℓ) (hok : TblOk m)
    (hT : ∀ e : Fin 8, (tbl m 0 (ValueIdx.ix1 e)).toNat < 8) (c : Dev nD) :
    val_main_v53 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      = W4 m hok c (Proc.devRef .tc main_v23) := by
  obtain rfl : c = 0 := Subsingleton.elim _ _
  have hids : tbl m 0 = val_main_v2 (F := Ideal) (m (((0 : Dev nD) : Thread nD τ).loc main_arg6)) := (tbl_ids m).trans (expertIds_ref _)
  have hT' : ∀ e : Fin 8, (val_main_v2 (F := Ideal) (m (((0 : Dev nD) : Thread nD τ).loc main_arg6)) (ValueIdx.ix1 e)).toNat < 8 := fun e => hids ▸ hT e
  rw [kernel_result m hok hT 0, scatterBack_eq, tokRows_eq, routeW_eq, hids]
  unfold val_main_v53 val_main_v46
  rw [Cert.ReferenceIdeal.RefValue.ref_pairs _ _ _ _ _ _ _ hT']

end Same

/-! ## The claims -/

theorem frame_k : Cert.frame_Kernel := fun m ρ hpre =>
  Cert.Kernel.Hand.frame_of_ok m (Cert.Kernel.Hand.tblOk_of_fn m (hpre 0)) ρ

theorem frame_ki : Cert.frame_KernelIdeal := fun m ρ hpre =>
  Cert.KernelIdeal.Hand.frame_of_ok m (Cert.KernelIdeal.Hand.tblOk_of_fn m (hpre 0)) ρ

theorem frame_ri : Cert.frame_ReferenceIdeal := fun m ρ _ =>
  (θ_run Cert.ReferenceIdeal.defs _ _).mono (fun _ h c => (h c).2) (Cert.ReferenceIdeal.Value.run (F := Ideal) m ρ)

open Cert.KernelIdeal Cert.KernelIdeal.Hand in
theorem algebraic : Cert.algebraic_KernelIdeal_ReferenceIdeal := by
  intro m ρ m' ρ' hpre hagree
  have hT := range_of_fn m (hpre 0)
  have hok : TblOk m := tblOk_of_range m hT
  refine ⟨fun c => W4 m hok c (Proc.devRef .tc main_v23), ?_, ?_⟩
  · exact (θ_run Cert.KernelIdeal.defs _ _).mono (fun r h c =>
      ⟨h c _ (mem_uc main_v23 (by decide)),
       (h c _ (mem_uc main_arg0 (by decide))).trans (W4_arg0 m hok c), (h c _ (mem_uc main_arg1 (by decide))).trans (W4_arg1 m hok c),
       (h c _ (mem_uc main_arg2 (by decide))).trans (W4_arg2 m hok c), (h c _ (mem_uc main_arg3 (by decide))).trans (W4_arg3 m hok c),
       (h c _ (mem_uc main_arg4 (by decide))).trans (W4_arg4 m hok c), (h c _ (mem_uc main_arg5 (by decide))).trans (W4_arg5 m hok c),
       (h c _ (mem_uc main_arg6 (by decide))).trans (W4_arg6 m hok c)⟩) (run_main m ρ hok)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, (hagree c).1, (hagree c).2.1, (hagree c).2.2.1, (hagree c).2.2.2.1,
      (hagree c).2.2.2.2.1, (hagree c).2.2.2.2.2.1, (hagree c).2.2.2.2.2.2]
    exact result_eq m hok hT c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
